-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x50000x64 : Shape := ⟨3, ![3, 50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S3x50000x64 : S_.BroadcastsInDim S3x50000x64 (![] : Fin 0 → Fin S3x50000x64.rank)
  reducesTo_S3x50000x64_S_d0_1_2 : S3x50000x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x800000 : S_.BroadcastsInDim S2x800000 (![] : Fin 0 → Fin S2x800000.rank)
  reducesTo_S2x800000_S_d0_1 : S2x800000.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S800000 32) (main_v50 : IVec S_ 1) : IVec S_ 1 :=
  let main_c_19 : IVec S_ 32 := constantI S_ 32 1#32
  let main_v51 : IVec S800000 32 := broadcastInDim S800000 ![] bcast_S_S800000 main_c_19
  let main_v52 : IVec S800000 1 := cmpi .sge main_arg2 main_v51
  let main_c_20 : IVec S_ 32 := constantI S_ 32 3#32
  let main_v53 : IVec S800000 32 := broadcastInDim S800000 ![] bcast_S_S800000 main_c_20
  let main_v54 : IVec S800000 1 := cmpi .sle main_arg2 main_v53
  let main_v55 : IVec S800000 1 := andi main_v52 main_v54
  let main_c_21 : IVec S_ 1 := constantI S_ 1 1#1
  let main_v56 : IVec S_ 1 := (fun x v => Host.reduce IntOp.andi x v reducesTo_S800000_S_d0 h_S_) main_v55 main_c_21
  let main_v57 : IVec S_ 1 := andi main_v50 main_v56
  main_v57

def fn_part2 {F : FTy → Type} [FloatOps F] (main_arg1 : IVec S2x800000 32) (main_arg2 : IVec S800000 32) (main_arg9 : FVec F S64 .f32) (main_arg10 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  fn_part3 (F := F) main_arg2 main_v50

def fn_part1 {F : FTy → Type} [FloatOps F] (main_arg1 : IVec S2x800000 32) (main_arg2 : IVec S800000 32) (main_arg6 : FVec F S64 .f32) (main_arg7 : FVec F S3x64x64 .f32) (main_arg8 : FVec F S3x64 .f32) (main_arg9 : FVec F S64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg2 main_arg9 main_arg10 main_v33

def fn {F : FTy → Type} [FloatOps F] (main_arg0 : FVec F S3x50000x64 .f32) (main_arg1 : IVec S2x800000 32) (main_arg2 : IVec S800000 32) (main_arg3 : FVec F S64x64 .f32) (main_arg4 : FVec F S64 .f32) (main_arg5 : FVec F S64x64 .f32) (main_arg6 : FVec F S64 .f32) (main_arg7 : FVec F S3x64x64 .f32) (main_arg8 : FVec F S3x64 .f32) (main_arg9 : FVec F S64 .f32) (main_arg10 : FVec F S64 .f32) : IVec S_ 1 :=
  let main_v0 : FVec F S3x50000x64 .f32 := Host.absf main_arg0
  let main_cst : FVec F S_ .f32 := constant S_ .f32 0x7F800000#32
  let main_v1 : FVec F S3x50000x64 .f32 := broadcastInDim S3x50000x64 ![] bcast_S_S3x50000x64 main_cst
  let main_v2 : IVec S3x50000x64 1 := cmpf .olt main_v0 main_v1
  let main_c : IVec S_ 1 := constantI S_ 1 1#1
  let main_v3 : IVec S_ 1 := (fun x v => Host.reduce IntOp.andi x v reducesTo_S3x50000x64_S_d0_1_2 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_arg7 main_arg8 main_arg9 main_arg10 main_v13 main_v16
-- ==== Kernel.lean ====
abbrev S3x50000x64 : Shape := ⟨3, ![3, 50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S50000x64 : Shape := ⟨2, ![50000, 64]⟩
abbrev S3x5000x64 : Shape := ⟨3, ![3, 5000, 64]⟩
abbrev S5000x64 : Shape := ⟨2, ![5000, 64]⟩
abbrev S1x5000x64 : Shape := ⟨3, ![1, 5000, 64]⟩
abbrev S1x64 : Shape := ⟨2, ![1, 64]⟩
abbrev S1x64x64 : Shape := ⟨3, ![1, 64, 64]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S150000x64 : Shape := ⟨2, ![150000, 64]⟩
abbrev S8000x64 : Shape := ⟨2, ![8000, 64]⟩
abbrev S50000x3x64 : Shape := ⟨3, ![50000, 3, 64]⟩
abbrev S1000x3x64 : Shape := ⟨3, ![1000, 3, 64]⟩
abbrev S1000x64 : Shape := ⟨2, ![1000, 64]⟩
abbrev S1000x1x64 : Shape := ⟨3, ![1000, 1, 64]⟩

abbrev nBuf : Space → Nat
  | .hbm => 102
  | .vmem => 40
  | .smem => 0
  | _ => 0

abbrev bufTy : (tb : Table) → Fin (tcTables nBuf tb) → BufTy
  | .hbm, ⟨0, _⟩ => ⟨S3x50000x64, .f32⟩
  | .hbm, ⟨1, _⟩ => ⟨S2x800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S3x64x64, .f32⟩
  | .hbm, ⟨8, _⟩ => ⟨S3x64, .f32⟩
  | .hbm, ⟨9, _⟩ => ⟨S64, .f32⟩
  | .hbm, ⟨10, _⟩ => ⟨S64, .f32⟩
  | .hbm, ⟨11, _⟩ => ⟨S50000x64, .f32⟩
  | .hbm, ⟨12, _⟩ => ⟨S50000x64, .f32⟩
  | .hbm, ⟨13, _⟩ => ⟨S3x50000x64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S1, .i32⟩
  | .hbm, ⟨30, _⟩ => ⟨S_, .i32⟩
  | .hbm, ⟨31, _⟩ => ⟨S800000x1, .i32⟩
  | .hbm, ⟨32, _⟩ => ⟨S800000x1, .i1⟩
  | .hbm, ⟨33, _⟩ => ⟨S1x1, .i32⟩
  | .hbm, ⟨34, _⟩ => ⟨S800000x1, .i32⟩
  | .hbm, ⟨35, _⟩ => ⟨S800000x1, .i1⟩
  | .hbm, ⟨36, _⟩ => ⟨S800000x1, .i1⟩
  | .hbm, ⟨37, _⟩ => ⟨S_, .i1⟩
  | .hbm, ⟨38, _⟩ => ⟨S800000, .i1⟩
  | .hbm, ⟨39, _⟩ => ⟨S800000x64, .f32⟩
  | .hbm, ⟨40, _⟩ => ⟨S800000x64, .i1⟩
  | .hbm, ⟨41, _⟩ => ⟨S_, .f32⟩
  | .hbm, ⟨42, _⟩ => ⟨S800000x64, .f32⟩
  | .hbm, ⟨43, _⟩ => ⟨S800000x64, .f32⟩
  | .hbm, ⟨44, _⟩ => ⟨S150000x64, .f32⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S1, .i32⟩
  | .hbm, ⟨58, _⟩ => ⟨S_, .i32⟩
  | .hbm, ⟨59, _⟩ => ⟨S800000x1, .i32⟩
  | .hbm, ⟨60, _⟩ => ⟨S800000x1, .i1⟩
  | .hbm, ⟨61, _⟩ => ⟨S1x1, .i32⟩
  | .hbm, ⟨62, _⟩ => ⟨S800000x1, .i32⟩
  | .hbm, ⟨63, _⟩ => ⟨S800000x1, .i1⟩
  | .hbm, ⟨64, _⟩ => ⟨S800000x1, .i1⟩
  | .hbm, ⟨65, _⟩ => ⟨S_, .i1⟩
  | .hbm, ⟨66, _⟩ => ⟨S800000, .i1⟩
  | .hbm, ⟨67, _⟩ => ⟨S800000x64, .f32⟩
  | .hbm, ⟨68, _⟩ => ⟨S800000x64, .i1⟩
  | .hbm, ⟨69, _⟩ => ⟨S_, .f32⟩
  | .hbm, ⟨70, _⟩ => ⟨S800000x64, .f32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S_, .f32⟩
  | .hbm, ⟨79, _⟩ => ⟨S150000x64, .f32⟩
  | .hbm, ⟨80, _⟩ => ⟨S800000x1, .i32⟩
  | .hbm, ⟨81, _⟩ => ⟨S150000x64, .f32⟩
  | .hbm, ⟨82, _⟩ => ⟨S50000x3x64, .f32⟩
  | .hbm, ⟨83, _⟩ => ⟨S_, .f32⟩
  | .hbm, ⟨84, _⟩ => ⟨S150000x64, .f32⟩
  | .hbm, ⟨85, _⟩ => ⟨S800000x1, .i32⟩
  | .hbm, ⟨86, _⟩ => ⟨S150000x64, .f32⟩
  | .hbm, ⟨87, _⟩ => ⟨S50000x3x64, .f32⟩
  | .hbm, ⟨88, _⟩ => ⟨S50000x64, .f32⟩
  | .hbm, ⟨89, _⟩ => ⟨S1x64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S_, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S50000x64, .f32⟩
  | .local _ .vmem, ⟨0, _⟩ => ⟨S3x5000x64, .f32⟩
  | .local _ .vmem, ⟨1, _⟩ => ⟨S3x5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S3x64x64, .f32⟩
  | .local _ .vmem, ⟨7, _⟩ => ⟨S3x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S3x5000x64, .f32⟩
  | .local _ .vmem, ⟨13, _⟩ => ⟨S3x5000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S1000x3x64, .f32⟩
  | .local _ .vmem, ⟨23, _⟩ => ⟨S1000x3x64, .f32⟩
  | .local _ .vmem, ⟨24, _⟩ => ⟨S1000x3x64, .f32⟩
  | .local _ .vmem, ⟨25, _⟩ => ⟨S1000x3x64, .f32⟩
  | .local _ .vmem, ⟨26, _⟩ => ⟨S1000x64, .f32⟩
  | .local _ .vmem, ⟨27, _⟩ => ⟨S1000x64, .f32⟩
  | .local _ .vmem, ⟨28, _⟩ => ⟨S1000x64, .f32⟩
  | .local _ .vmem, ⟨29, _⟩ => ⟨S1000x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S3x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v7 : Ref sig .tc := ⟨.hbm, 43, rfl⟩
abbrev main_v8 : Ref sig .tc := ⟨.hbm, 44, rfl⟩
abbrev main_c_0 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v12 : Ref sig .tc := ⟨.hbm, 71, rfl⟩
abbrev main_v13_0 : Ref sig .tc := ⟨.hbm, 72, rfl⟩
abbrev main_v13_1 : Ref sig .tc := ⟨.hbm, 73, rfl⟩
abbrev main_c_1 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_cst : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_cst_2 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25_0 : Ref sig .tc := ⟨.hbm, 88, rfl⟩
abbrev main_v25_1 : Ref sig .tc := ⟨.hbm, 89, rfl⟩
abbrev main_v25_2 : Ref sig .tc := ⟨.hbm, 90, rfl⟩
abbrev main_cst_3 : Ref sig .tc := ⟨.hbm, 91, rfl⟩
abbrev main_v26 : Ref sig .tc := ⟨.hbm, 92, rfl⟩
abbrev main_v27 : Ref sig .tc := ⟨.hbm, 93, rfl⟩
abbrev main_cst_4 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x3x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x3x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S3x5000x64_S1x5000x64_2_0_0 : ∀ a, (![2, 0, 0] : Fin 3 → Nat) a + S1x5000x64.size a ≤ S3x5000x64.size a
  h_S1x5000x64 : 0 < S1x5000x64.numel
  shapeCasts_S1x5000x64_S5000x64 : S1x5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  h_S1x64 : 0 < S1x64.numel
  shapeCasts_S1x64_S64 : S1x64.ShapeCasts S64
  inb_S3x5000x64_S1x5000x64_0_0_0 : ∀ a, (![0, 0, 0] : Fin 3 → Nat) a + S1x5000x64.size a ≤ S3x5000x64.size a
  shapeCasts_S5000x64_S1x5000x64 : S5000x64.ShapeCasts S1x5000x64
  inb_S3x5000x64_S1x5000x64_1_0_0 : ∀ a, (![1, 0, 0] : Fin 3 → Nat) a + S1x5000x64.size a ≤ S3x5000x64.size a
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S3x50000x64_S150000x64 : S3x50000x64.ShapeCasts S150000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S150000x64 : S_.BroadcastsInDim S150000x64 (![] : Fin 0 → Fin S150000x64.rank)
  shapeCasts_S150000x64_S50000x3x64 : S150000x64.ShapeCasts S50000x3x64
  inb_S1x64_S1x64_0_0 : ∀ a, (![0, 0] : Fin 2 → Nat) a + S1x64.size a ≤ S1x64.size a
  inb_S1000x3x64_S1000x3x64_0_0_0 : ∀ a, (![0, 0, 0] : Fin 3 → Nat) a + S1000x3x64.size a ≤ S1000x3x64.size a
  h_S1000x3x64 : 0 < S1000x3x64.numel
  shapeCasts_S1000x3x64_S1000x3x64 : S1000x3x64.ShapeCasts S1000x3x64
  slices_S1000x3x64_o0_0_0_S1000x1x64 : S1000x3x64.Slices ![0, 0, 0] S1000x1x64
  shapeCasts_S1000x1x64_S1000x64 : S1000x1x64.ShapeCasts S1000x64
  slices_S1000x3x64_o0_1_0_S1000x1x64 : S1000x3x64.Slices ![0, 1, 0] S1000x1x64
  slices_S1000x3x64_o0_2_0_S1000x1x64 : S1000x3x64.Slices ![0, 2, 0] S1000x1x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  shapeCasts_S1x64_S1x64 : S1x64.ShapeCasts S1x64
  reduces_S1000x64_S64 : S1000x64.Reduces [0] S64
  bcast_S_S1x64 : S_.BroadcastsInDim S1x64 (![] : Fin 0 → Fin S1x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  gather_S150000x64_S800000x1_S800000x64_1_0_n_n_0_1_164_wf : GatherDims.WF S150000x64 S800000x1 S800000x64 [1] [0] [] [0] [] 1 ![1, 64]
  scatter_S150000x64_S800000x1_S800000x64_1_0_0_1_wf : ScatterDims.WF S150000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x5000x64.size a ≤ S3x50000x64.size a
  hwx0_0 : ∀ i : grid0.Coords, EltTy.bits .f32 = 32 ∨ (Rect.block (s := S3x50000x64) S3x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64x64.size a ≤ S3x64x64.size a
  hwx0_5 : ∀ i : grid0.Coords, EltTy.bits .f32 = 32 ∨ (Rect.block (s := S3x64x64) S3x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x5000x64.size a ≤ S3x50000x64.size a
  hwx0_9 : ∀ i : grid0.Coords, EltTy.bits .f32 = 32 ∨ (Rect.block (s := S3x50000x64) S3x5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S800000x64.size a
  hwx1_3 : ∀ i : grid1.Coords, EltTy.bits .f32 = 32 ∨ (Rect.block (s := S800000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x3x64.size a ≤ S50000x3x64.size a
  hwx2_0 : ∀ i : grid2.Coords, EltTy.bits .f32 = 32 ∨ (Rect.block (s := S50000x3x64) S1000x3x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x3x64.size a ≤ S50000x3x64.size a
  hwx2_1 : ∀ i : grid2.Coords, EltTy.bits .f32 = 32 ∨ (Rect.block (s := S50000x3x64) S1000x3x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .f32 = 32 ∨ (Rect.block (s := S50000x64) S1000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S50000x64.size a
  hwx2_3 : ∀ i : grid2.Coords, EltTy.bits .f32 = 32 ∨ (Rect.block (s := S50000x64) S1000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S150000x64_S800000x1_S800000x64_1_0_n_n_0_1_164 : GatherDims S150000x64 S800000x1 S800000x64 where
  offsetDims := [1]
  collapsedSliceDims := [0]
  operandBatchingDims := []
  startIndicesBatchingDims := []
  startIndexMap := [0]
  indexVectorDim := 1
  sliceSizes := ![1, 64]
  wf := gather_S150000x64_S800000x1_S800000x64_1_0_n_n_0_1_164_wf
def scatter_S150000x64_S800000x1_S800000x64_1_0_0_1 : ScatterDims S150000x64 S800000x1 S800000x64 where
  updateWindowDims := [1]
  insertedWindowDims := [0]
  scatterDimsToOperandDims := [0]
  indexVectorDim := 1
  wf := scatter_S150000x64_S800000x1_S800000x64_1_0_0_1_wf

abbrev win0_0 : Pipeline.Window sig grid0 :=
  Pipeline.Window.ofSpec (Memref.whole main_arg0) S3x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S3x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S3x5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S8000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13_1) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S1000x3x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1000x3x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S1000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25_0) S1000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v25_1) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25_2) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S3x50000x64 : Shape := ⟨3, ![3, 50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S3 : Shape := ⟨1, ![3]⟩
abbrev S1x50000x64 : Shape := ⟨3, ![1, 50000, 64]⟩
abbrev S50000x64 : Shape := ⟨2, ![50000, 64]⟩
abbrev S_ : Shape := ⟨0, ![]⟩
abbrev S3x1 : Shape := ⟨2, ![3, 1]⟩
abbrev S3x1x64 : Shape := ⟨3, ![3, 1, 64]⟩
abbrev S1x64 : Shape := ⟨2, ![1, 64]⟩
abbrev S1x800000 : Shape := ⟨2, ![1, 800000]⟩
abbrev S800000x1 : Shape := ⟨2, ![800000, 1]⟩
abbrev S800000x64 : Shape := ⟨2, ![800000, 64]⟩
abbrev S800000x2 : Shape := ⟨2, ![800000, 2]⟩
abbrev S150000x64 : Shape := ⟨2, ![150000, 64]⟩
abbrev S50000x3x64 : Shape := ⟨3, ![50000, 3, 64]⟩

abbrev nBuf : Space → Nat
  | .hbm => 168
  | .vmem => 0
  | .smem => 0
  | _ => 0

abbrev hbmTy0_0 (i : Nat) : BufTy := match i % 128 with
  | 0 => ⟨S3x50000x64, .f32⟩
  | 1 => ⟨S2x800000, .i32⟩
  | 2 => ⟨S800000, .i32⟩
  | 3 => ⟨S64x64, .f32⟩
  | 4 => ⟨S64, .f32⟩
  | 5 => ⟨S64x64, .f32⟩
  | 6 => ⟨S64, .f32⟩
  | 7 => ⟨S3x64x64, .f32⟩
  | 8 => ⟨S3x64, .f32⟩
  | 9 => ⟨S64, .f32⟩
  | 10 => ⟨S64, .f32⟩
  | 11 => ⟨S3, .i32⟩
  | 12 => ⟨S1x50000x64, .f32⟩
  | 13 => ⟨S50000x64, .f32⟩
  | 14 => ⟨S_, .i32⟩
  | 15 => ⟨S3, .i32⟩
  | 16 => ⟨S3, .i1⟩
  | 17 => ⟨S_, .i32⟩
  | 18 => ⟨S3, .i32⟩
  | 19 => ⟨S3, .i32⟩
  | 20 => ⟨S3, .i32⟩
  | 21 => ⟨S3x1, .i32⟩
  | 22 => ⟨S3x50000x64, .f32⟩
  | 23 => ⟨S3x50000x64, .f32⟩
  | 24 => ⟨S3x1x64, .f32⟩
  | 25 => ⟨S3x50000x64, .f32⟩
  | 26 => ⟨S3x50000x64, .f32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S1x800000, .i32⟩
  | 36 => ⟨S800000, .i32⟩
  | 37 => ⟨S1x800000, .i32⟩
  | 38 => ⟨S800000, .i32⟩
  | 39 => ⟨S_, .i32⟩
  | 40 => ⟨S800000, .i32⟩
  | 41 => ⟨S800000, .i32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x1, .i32⟩
  | 67 => ⟨S800000x2, .i32⟩
  | 68 => ⟨S800000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x1, .i32⟩
  | 85 => ⟨S800000x2, .i32⟩
  | 86 => ⟨S800000x64, .f32⟩
  | 87 => ⟨S800000x64, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S_, .i32⟩
  | 97 => ⟨S800000, .i32⟩
  | 98 => ⟨S800000, .i32⟩
  | 99 => ⟨S800000, .i32⟩
  | 100 => ⟨S800000x64, .f32⟩
  | 101 => ⟨S_, .f32⟩
  | 102 => ⟨S150000x64, .f32⟩
  | 103 => ⟨S800000x1, .i32⟩
  | 104 => ⟨S150000x64, .f32⟩
  | 105 => ⟨S50000x3x64, .f32⟩
  | 106 => ⟨S_, .f32⟩
  | 107 => ⟨S150000x64, .f32⟩
  | 108 => ⟨S800000x1, .i32⟩
  | 109 => ⟨S150000x64, .f32⟩
  | 110 => ⟨S50000x3x64, .f32⟩
  | 111 => ⟨S_, .f32⟩
  | 112 => ⟨S50000x3x64, .f32⟩
  | 113 => ⟨S50000x3x64, .f32⟩
  | 114 => ⟨S50000x3x64, .f32⟩
  | 115 => ⟨S_, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S_, .f32⟩
  | 122 => ⟨S64, .f32⟩
  | 123 => ⟨S_, .f32⟩
  | 124 => ⟨S64, .f32⟩
  | 125 => ⟨S64, .f32⟩
  | 126 => ⟨S_, .i32⟩
  | 127 => ⟨S_, .f32⟩
  | _ => ⟨S3x50000x64, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S50000x64, .f32⟩
  | 6 => ⟨S50000x64, .f32⟩
  | 7 => ⟨S50000x64, .f32⟩
  | 8 => ⟨S_, .f32⟩
  | 9 => ⟨S_, .f32⟩
  | 10 => ⟨S_, .f32⟩
  | 11 => ⟨S_, .f32⟩
  | 12 => ⟨S64, .f32⟩
  | 13 => ⟨S64, .f32⟩
  | 14 => ⟨S64, .f32⟩
  | 15 => ⟨S_, .f32⟩
  | 16 => ⟨S_, .i1⟩
  | 17 => ⟨S_, .f32⟩
  | 18 => ⟨S_, .f32⟩
  | 19 => ⟨S64, .f32⟩
  | 20 => ⟨S64, .f32⟩
  | 21 => ⟨S1x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S64, .f32⟩
  | 29 => ⟨S64, .f32⟩
  | 30 => ⟨S64, .f32⟩
  | 31 => ⟨S1x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S50000x64, .f32⟩
  | 39 => ⟨S50000x64, .f32⟩
  | _ => ⟨S3x50000x64, .f32⟩

abbrev hbmTy (i : Nat) : BufTy := match i / 128 with
  | 0 => hbmTy0_0 i
  | 1 => hbmTy0_1 i
  | _ => ⟨S3x50000x64, .f32⟩

abbrev bufTy : (tb : Table) → Fin (tcTables nBuf tb) → BufTy
  | .hbm, ⟨i, _⟩ => hbmTy i
  | _, _ => ⟨S3x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_cst_21 : Ref sig .tc := ⟨.hbm, 123, rfl⟩
abbrev main_v89 : Ref sig .tc := ⟨.hbm, 124, rfl⟩
abbrev main_v90 : Ref sig .tc := ⟨.hbm, 125, rfl⟩
abbrev main_c_22 : Ref sig .tc := ⟨.hbm, 126, rfl⟩
abbrev main_call0_cst : Ref sig .tc := ⟨.hbm, 127, rfl⟩
abbrev main_call0_v0 : Ref sig .tc := ⟨.hbm, 128, rfl⟩
abbrev main_call0_v1 : Ref sig .tc := ⟨.hbm, 129, rfl⟩
abbrev main_call0_cst_0 : Ref sig .tc := ⟨.hbm, 130, rfl⟩
abbrev main_call0_v2 : Ref sig .tc := ⟨.hbm, 131, rfl⟩
abbrev main_call0_v3 : Ref sig .tc := ⟨.hbm, 132, rfl⟩
abbrev main_call0_v4 : Ref sig .tc := ⟨.hbm, 133, rfl⟩
abbrev main_call0_v5 : Ref sig .tc := ⟨.hbm, 134, rfl⟩
abbrev main_call0_v6 : Ref sig .tc := ⟨.hbm, 135, rfl⟩
abbrev main_call0_v7 : Ref sig .tc := ⟨.hbm, 136, rfl⟩
abbrev main_call0_cst_1 : Ref sig .tc := ⟨.hbm, 137, rfl⟩
abbrev main_call0_v8 : Ref sig .tc := ⟨.hbm, 138, rfl⟩
abbrev main_call0_cst_2 : Ref sig .tc := ⟨.hbm, 139, rfl⟩
abbrev main_call0_v9 : Ref sig .tc := ⟨.hbm, 140, rfl⟩
abbrev main_call0_v10 : Ref sig .tc := ⟨.hbm, 141, rfl⟩
abbrev main_call0_v11 : Ref sig .tc := ⟨.hbm, 142, rfl⟩
abbrev main_call0_cst_3 : Ref sig .tc := ⟨.hbm, 143, rfl⟩
abbrev main_call0_v12 : Ref sig .tc := ⟨.hbm, 144, rfl⟩
abbrev main_call0_cst_4 : Ref sig .tc := ⟨.hbm, 145, rfl⟩
abbrev main_call0_call0_v0 : Ref sig .tc := ⟨.hbm, 146, rfl⟩
abbrev main_call0_call0_v1 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_23 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_call1_cst : Ref sig .tc := ⟨.hbm, 165, rfl⟩
abbrev main_call1_v0 : Ref sig .tc := ⟨.hbm, 166, rfl⟩
abbrev main_v107 : Ref sig .tc := ⟨.hbm, 167, rfl⟩

abbrev nD : Nat := 1
abbrev τ : Topo := Topo.v7x

variable {F : FTy → Type} [FloatOps F]

class Facts₀ : Prop where
  slices_S3x50000x64_S1x50000x64_2_0_0 : S3x50000x64.Slices ![2, 0, 0] S1x50000x64
  shapeCasts_S1x50000x64_S50000x64 : S1x50000x64.ShapeCasts S50000x64
  bcast_S_S3 : S_.BroadcastsInDim S3 (![] : Fin 0 → Fin S3.rank)
  bcast_S3_S3x1_0 : S3.BroadcastsInDim S3x1 (![0] : Fin 1 → Fin S3x1.rank)
  bcast_S3x64_S3x1x64_0_2 : S3x64.BroadcastsInDim S3x1x64 (![0, 2] : Fin 2 → Fin S3x1x64.rank)
  bcast_S3x1x64_S3x50000x64_0_1_2 : S3x1x64.BroadcastsInDim S3x50000x64 (![0, 1, 2] : Fin 3 → Fin S3x50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S_S800000x64 : S_.BroadcastsInDim S800000x64 (![] : Fin 0 → Fin S800000x64.rank)
  bcast_S_S150000x64 : S_.BroadcastsInDim S150000x64 (![] : Fin 0 → Fin S150000x64.rank)
  shapeCasts_S150000x64_S50000x3x64 : S150000x64.ShapeCasts S50000x3x64
  bcast_S_S50000x3x64 : S_.BroadcastsInDim S50000x3x64 (![] : Fin 0 → Fin S50000x3x64.rank)
  reducesTo_S50000x3x64_S50000x64_d1 : S50000x3x64.ReducesTo [1] S50000x64
  h_S_ : 0 < S_.numel
  bcast_S_S50000x64 : S_.BroadcastsInDim S50000x64 (![] : Fin 0 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  gather_S3x50000x64_S3x1_S3x50000x64_12_0_n_n_0_1_15000064_wf : GatherDims.WF S3x50000x64 S3x1 S3x50000x64 [1, 2] [0] [] [0] [] 1 ![1, 50000, 64]
  dot_S3x50000x64_S3x64x64_S3x50000x64_2_1_1_2_0_0_wf : DotDims.WF S3x50000x64 S3x64x64 S3x50000x64 [2] [1] [1] [2] [0] [0]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  gather_S3x50000x64_S800000x2_S800000x64_1_01_n_n_01_1_1164_wf : GatherDims.WF S3x50000x64 S800000x2 S800000x64 [1] [0, 1] [] [0, 1] [] 1 ![1, 1, 64]
  scatter_S150000x64_S800000x1_S800000x64_1_0_0_1_wf : ScatterDims.WF S150000x64 S800000x1 S800000x64 [1] [0] [0] 1

variable [Facts₀]

def gather_S3x50000x64_S3x1_S3x50000x64_12_0_n_n_0_1_15000064 : GatherDims S3x50000x64 S3x1 S3x50000x64 where
  offsetDims := [1, 2]
  collapsedSliceDims := [0]
  operandBatchingDims := []
  startIndicesBatchingDims := []
  startIndexMap := [0]
  indexVectorDim := 1
  sliceSizes := ![1, 50000, 64]
  wf := gather_S3x50000x64_S3x1_S3x50000x64_12_0_n_n_0_1_15000064_wf
def dot_S3x50000x64_S3x64x64_S3x50000x64_2_1_1_2_0_0 : DotDims S3x50000x64 S3x64x64 S3x50000x64 where
  lhsContracting := [2]
  rhsContracting := [1]
  lhsNonContracting := [1]
  rhsNonContracting := [2]
  lhsBatch := [0]
  rhsBatch := [0]
  wf := dot_S3x50000x64_S3x64x64_S3x50000x64_2_1_1_2_0_0_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S3x50000x64_S800000x2_S800000x64_1_01_n_n_01_1_1164 : GatherDims S3x50000x64 S800000x2 S800000x64 where
  offsetDims := [1]
  collapsedSliceDims := [0, 1]
  operandBatchingDims := []
  startIndicesBatchingDims := []
  startIndexMap := [0, 1]
  indexVectorDim := 1
  sliceSizes := ![1, 1, 64]
  wf := gather_S3x50000x64_S800000x2_S800000x64_1_01_n_n_01_1_1164_wf
def scatter_S150000x64_S800000x1_S800000x64_1_0_0_1 : ScatterDims S150000x64 S800000x1 S800000x64 where
  updateWindowDims := [1]
  insertedWindowDims := [0]
  scatterDimsToOperandDims := [0]
  indexVectorDim := 1
  wf := scatter_S150000x64_S800000x1_S800000x64_1_0_0_1_wf

class Facts : Prop extends Facts₀ where

variable [Facts]
-- ==== Proof.Spec.lean ====
/-
  The mathematics of one gated multi-hop aggregation layer, stage by stage and index by index, over the
  extended reals: the node-wise linear images, the edge gate, the per-(node, hop) quotient mixed into the
  node's own image, the column statistics, and the normalisation with its rectifier.
-/
import Idealize.ShloMosaic.PureOps.Ideal
import Idealize.ShloMosaic.Lib.ValueIdx

noncomputable section

namespace Cert.Gated

open Idealize.ShloMosaic Idealize.ShloMosaic.ValueIdx

/-! ## Shapes -/

abbrev Sx : Shape := ⟨3, ![3, 50000, 64]⟩
abbrev Sw : Shape := ⟨2, ![64, 64]⟩
abbrev Sb : Shape := ⟨1, ![64]⟩
abbrev Swb : Shape := ⟨3, ![3, 64, 64]⟩
abbrev Sbb : Shape := ⟨2, ![3, 64]⟩
abbrev Sn : Shape := ⟨2, ![50000, 64]⟩
abbrev Se : Shape := ⟨2, ![800000, 64]⟩
abbrev Snk : Shape := ⟨3, ![50000, 3, 64]⟩
abbrev Sr : Shape := ⟨2, ![1, 64]⟩
abbrev Sei : Shape := ⟨2, ![2, 800000]⟩
abbrev Sea : Shape := ⟨1, ![800000]⟩

/-! ## Finite values -/

/-- An extended real that is a real number. -/
def IsFin (x : EReal) : Prop := ∃ r : ℝ, x = (r : EReal)

/-! ## The node-wise linear images -/

/-- Row `n` of slab `s` of the states against a weight matrix, plus the bias, at column `o`. -/
def linAt (x : Sx.Idx → EReal) (s : Fin 3) (W : Sw.Idx → EReal) (b : Sb.Idx → EReal) (n : Fin 50000) (o : Fin 64) : EReal :=
  (∑ k : Fin 64, x (ix3 s n k) * W (ix2 k o)) + b (ix1 o)

/-- The linear image of slab `s` of the states, as an array over nodes and columns. -/
def lin (x : Sx.Idx → EReal) (s : Fin 3) (W : Sw.Idx → EReal) (b : Sb.Idx → EReal) : Sn.Idx → EReal :=
  fun i => linAt x s W b (i 0) (i 1)

/-- Hop `k`'s linear image of node `n` at column `o`: the state delayed by `k` steps (slab `2 - k`) against hop `k`'s
    weights, plus hop `k`'s bias. -/
def hopLinAt (x : Sx.Idx → EReal) (Wb : Swb.Idx → EReal) (bb : Sbb.Idx → EReal) (k : Fin 3) (n : Fin 50000) (o : Fin 64) : EReal :=
  (∑ d : Fin 64, x (ix3 k.rev n d) * Wb (ix3 k d o)) + bb (ix2 k o)

/-- The per-hop linear images as an array over hops, nodes and columns. -/
def hopLin (x : Sx.Idx → EReal) (Wb : Swb.Idx → EReal) (bb : Sbb.Idx → EReal) : Sx.Idx → EReal :=
  fun i => hopLinAt x Wb bb (i 0) (i 1) (i 2)

/-! ## The edges -/

/-- The edge list's words are node numbers and the edge attributes hop numbers `1 … 3`. -/
def InRange (ei : Sei.Idx → BitVec 32) (ea : Sea.Idx → BitVec 32) : Prop :=
  (∀ i, 0 ≤ (ei i).toInt ∧ (ei i).toInt < 50000) ∧ (∀ i, 1 ≤ (ea i).toInt ∧ (ea i).toInt ≤ 3)

/-- A word read as a row number of an array of `N` rows: signed, clamped into range. -/
def rowOf (N : Nat) (hN : 0 < N) (v : BitVec 32) : Fin N := ⟨min v.toInt.toNat (N - 1), by omega⟩

/-- Edge `e`'s destination node (row 1 of the edge list). -/
def dst (ei : Sei.Idx → BitVec 32) (e : Fin 800000) : Fin 50000 := rowOf 50000 (by decide) (ei (ix2 1 e))
/-- Edge `e`'s source node (row 0 of the edge list). -/
def src (ei : Sei.Idx → BitVec 32) (e : Fin 800000) : Fin 50000 := rowOf 50000 (by decide) (ei (ix2 0 e))
/-- Edge `e`'s hop, counted from zero. -/
def hop (ea : Sea.Idx → BitVec 32) (e : Fin 800000) : Fin 3 := rowOf 3 (by decide) (ea (ix1 e) - 1#32)

/-- The destination's rows of a node array, edge by edge. -/
def atDst (D : Sn.Idx → EReal) (ei : Sei.Idx → BitVec 32) : Se.Idx → EReal :=
  fun i => D (ix2 (dst ei (i 0)) (i 1))

/-- The source's rows of the per-hop array at the edge's hop, edge by edge. -/
def atSrc (B : Sx.Idx → EReal) (ei : Sei.Idx → BitVec 32) (ea : Sea.Idx → BitVec 32) : Se.Idx → EReal :=
  fun i => B (ix3 (hop ea (i 0)) (src ei (i 0)) (i 1))

/-- The gate of an edge: the logistic function of the two gathered rows' sum. -/
def gate (a b : Se.Idx → EReal) : Se.Idx → EReal := fun i => Ideal.logistic (a i + b i)

/-- The gated message of an edge. -/
def gated (a b : Se.Idx → EReal) : Se.Idx → EReal := fun i => Ideal.logistic (a i + b i) * b i

/-! ## The quotient per (node, hop), mixed into the node's own image -/

/-- The guard added to every denominator. -/
def aggEps : EReal := Ideal.ofBits .f32 0x358637BD#32
/-- The uniform mixing weight of the three hops. -/
def third : EReal := Ideal.ofBits .f32 0x3EAAAAAB#32

def mixAt (num den : Snk.Idx → EReal) (A : Sn.Idx → EReal) (n : Fin 50000) (d : Fin 64) : EReal :=
  A (ix2 n d) + third * ∑ k : Fin 3, Ideal.div (num (ix3 n k d)) (den (ix3 n k d) + aggEps)

/-- The node's new value: its own image plus the mean over the hops of (sum of gated messages) / (sum of gates + guard). -/
def mix (num den : Snk.Idx → EReal) (A : Sn.Idx → EReal) : Sn.Idx → EReal := fun i => mixAt num den A (i 0) (i 1)

/-! ## Column statistics -/

/-- The node count as a float. -/
def nodes : EReal := Ideal.ofBits .f32 0x47435000#32

/-- The sum of a column over all nodes. -/
def colSum (x : Sn.Idx → EReal) (d : Fin 64) : EReal := ∑ n : Fin 50000, x (ix2 n d)

/-- The column mean. -/
def colMean (x : Sn.Idx → EReal) (d : Fin 64) : EReal := Ideal.div (colSum x d) nodes

/-- The column variance as mean of squares minus squared mean. -/
def varMoments (x : Sn.Idx → EReal) (d : Fin 64) : EReal :=
  Ideal.div (colSum (fun i => x i * x i) d) nodes - colMean x d * colMean x d

/-- The column variance as mean of squared deviations. -/
def varCentered (x : Sn.Idx → EReal) (d : Fin 64) : EReal :=
  Ideal.div (colSum (fun i => (x i - colMean x (i 1)) * (x i - colMean x (i 1))) d) nodes

/-! ## Normalisation and rectifier -/

/-- The guard under the reciprocal square root. -/
def normEps : EReal := Ideal.ofBits .f32 0x3727C5AC#32

def normAt (x : Sn.Idx → EReal) (mean var : Fin 64 → EReal) (g b : Sb.Idx → EReal) (n : Fin 50000) (d : Fin 64) : EReal :=
  max (g (ix1 d) * (x (ix2 n d) - mean d) * Ideal.rsqrt (var d + normEps) + b (ix1 d)) (Ideal.ofBits .f32 0x00000000#32)

/-- Scale by the column's inverse deviation around its mean, shift, and clip below at zero. -/
def norm (x : Sn.Idx → EReal) (mean var : Fin 64 → EReal) (g b : Sb.Idx → EReal) : Sn.Idx → EReal :=
  fun i => normAt x mean var g b (i 0) (i 1)

end Cert.Gated

end
-- ==== Proof.Reg0.lean ====
/-
  The node-wise linear images, read off the first region's run: three result arrays, each filled block of 5000 rows by
  block of 5000 rows over a grid of ten points. At the extended reals rounding to the narrower format is the identity and
  a product into a zero accumulator is the plain sum over the contracted coordinate, so each stored value is a row of the
  states against a column of weights plus a bias; slab `s` of the third result reads slab `2 - s` of the states.
-/
import proofs.«410264_j48739288875406_2_alg».proof.Proof.Gen.KernelIdeal.Frame
import proofs.«410264_j48739288875406_2_alg».proof.Proof.Spec
import Idealize.ShloMosaic.Lib.Pipeline.Value
import Idealize.ShloMosaic.PureOps.Ideal.Laws
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Lin

open Cert.KernelIdeal Cert.KernelIdeal.Gen Cert.Gated

/-! ## The matrix product at an index -/

/-- The dimension numbers of the body's four products: rows by the contracted axis, times the contracted axis by columns. -/
abbrev dotRC : DotDims S5000x64 S64x64 S5000x64 := dot_S5000x64_S64x64_S5000x64_1_0_0_1_n_n

theorem dotRC_lhs_0 (j : S5000x64.Idx) (k : dotRC.contr.Idx) : (dotRC.lhsIdx j k 0).val = (j 0).val := by
  simp [DotDims.lhsIdx, dotRC, dot_S5000x64_S64x64_S5000x64_1_0_0_1_n_n]; rfl

theorem dotRC_lhs_1 (j : S5000x64.Idx) (k : dotRC.contr.Idx) : (dotRC.lhsIdx j k 1).val = (k ⟨0, by decide⟩).val :=
  dotRC.lhsIdx_val_of_single (cl := 1) rfl j k

theorem dotRC_rhs_0 (j : S5000x64.Idx) (k : dotRC.contr.Idx) : (dotRC.rhsIdx j k 0).val = (k ⟨0, by decide⟩).val :=
  dotRC.rhsIdx_val_of_single (cr := 0) rfl j k

theorem dotRC_rhs_1 (j : S5000x64.Idx) (k : dotRC.contr.Idx) : (dotRC.rhsIdx j k 1).val = (j 1).val := by
  simp [DotDims.rhsIdx, dotRC, dot_S5000x64_S64x64_S5000x64_1_0_0_1_n_n]; rfl

/-- A product into the zero accumulator, at row `p` and column `q`: the sum over the contracted coordinate. -/
theorem matmul_at (A : FVec Ideal S5000x64 .bf16) (B : FVec Ideal S64x64 .bf16) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  show FloatOps.matmul dotRC none A B (constant (F := Ideal) S5000x64 .f32 0x00000000#32) (ix2 p q) = _
  rw [Ideal.matmul_constant_zero_apply, ← Equiv.sum_comp (contrEquiv1 dotRC 64 rfl rfl).symm]
  refine Finset.sum_congr rfl fun c _ => ?_
  have hc := contrEquiv1_symm_val dotRC 64 rfl rfl c
  have hl : dotRC.lhsIdx (ix2 p q) ((contrEquiv1 dotRC 64 rfl rfl).symm c) = ix2 p c := by
    funext ax; apply Fin.ext
    match ax with
    | ⟨0, _⟩ => exact dotRC_lhs_0 _ _
    | ⟨1, _⟩ => exact (dotRC_lhs_1 _ _).trans hc
  have hr : dotRC.rhsIdx (ix2 p q) ((contrEquiv1 dotRC 64 rfl rfl).symm c) = ix2 c q := by
    funext ax; apply Fin.ext
    match ax with
    | ⟨0, _⟩ => exact (dotRC_rhs_0 _ _).trans hc
    | ⟨1, _⟩ => exact dotRC_rhs_1 _ _
  rw [hl, hr]

/-! ## The body's arithmetic at an index

Rounding to the narrower format is the identity on the extended reals, the zero accumulator contributes nothing, and the
shape casts only add or drop a unit axis: each stored value is, at row `p` and column `q`, the sum over the contracted
coordinate of the block's row against the weights' column, plus the bias at the column. -/

/-- The image under the first pair of weights. -/
theorem pay2_at (v0 : Vec Ideal S1x5000x64 .f32) (v3 : Vec Ideal S64x64 .f32) (v8 : Vec Ideal S64 .f32) (p : Fin 5000) (q : Fin 64) :
    (k0_pay2 (F := Ideal) v0 v3 v8) (ix2 p q) = (∑ k : Fin 64, v0 (ix3 (0 : Fin 1) p k) * v3 (ix2 k q)) + v8 (ix1 q) := by
  unfold k0_pay2 k0_pay1
  refine (addf_apply _ _ _).trans ?_
  refine congrArg₂ (· + ·) ?_ ?_
  · refine (matmul_at _ _ p q).trans ?_
    refine Finset.sum_congr rfl fun k _ => ?_
    refine congrArg₂ (· * ·) ?_ rfl
    exact shapeCast_1ab_ab_apply v0 _ p k
  · exact (broadcastTo_1b_ab_apply _ _ p q).trans (shapeCast_a_1a_apply v8 _ 0 q)

/-- The image under the second pair of weights. -/
theorem pay3_at (v0 : Vec Ideal S1x5000x64 .f32) (v5 : Vec Ideal S64x64 .f32) (v14 : Vec Ideal S64 .f32) (p : Fin 5000) (q : Fin 64) :
    (k0_pay3 (F := Ideal) v0 v5 v14) (ix2 p q) = (∑ k : Fin 64, v0 (ix3 (0 : Fin 1) p k) * v5 (ix2 k q)) + v14 (ix1 q) := by
  unfold k0_pay3 k0_pay1
  refine (addf_apply _ _ _).trans ?_
  refine congrArg₂ (· + ·) ?_ ?_
  · refine (matmul_at _ _ p q).trans ?_
    refine Finset.sum_congr rfl fun k _ => ?_
    refine congrArg₂ (· * ·) ?_ rfl
    exact shapeCast_1ab_ab_apply v0 _ p k
  · exact (broadcastTo_1b_ab_apply _ _ p q).trans (shapeCast_a_1a_apply v14 _ 0 q)

/-- A hop's image, before it is stored as a slab: one slab of the states against one slab of the stacked weights, plus one
    row of the stacked biases. -/
theorem pay4_at (v19 : Vec Ideal S1x5000x64 .f32) (v22 : Vec Ideal S1x64x64 .f32) (v26 : Vec Ideal S1x64 .f32) (p : Fin 5000) (q : Fin 64) :
    (k0_pay4 (F := Ideal) v19 v22 v26) (ix2 p q)
      = (∑ k : Fin 64, v19 (ix3 (0 : Fin 1) p k) * v22 (ix3 (0 : Fin 1) k q)) + v26 (ix2 (0 : Fin 1) q) := by
  unfold k0_pay4
  refine (addf_apply _ _ _).trans ?_
  refine congrArg₂ (· + ·) ?_ ?_
  · refine (matmul_at _ _ p q).trans ?_
    refine Finset.sum_congr rfl fun k _ => ?_
    refine congrArg₂ (· * ·) ?_ ?_
    · exact shapeCast_1ab_ab_apply v19 _ p k
    · exact shapeCast_1ab_ab_apply v22 _ k q
  · exact (broadcastTo_1b_ab_apply _ _ p q).trans
      ((shapeCast_a_1a_apply _ _ 0 q).trans (shapeCast_1a_a_apply v26 _ q))

/-- Stored as a slab with a unit leading axis. -/
theorem pay5_at (v30 : FVec Ideal S5000x64 .f32) (u : Fin 1) (p : Fin 5000) (q : Fin 64) :
    (k0_pay5 (F := Ideal) v30) (ix3 u p q) = v30 (ix2 p q) := by
  unfold k0_pay5
  exact shapeCast_ab_1ab_apply v30 _ u p q

theorem pay6_at (v34 : Vec Ideal S1x5000x64 .f32) (v37 : Vec Ideal S1x64x64 .f32) (v41 : Vec Ideal S1x64 .f32) (u : Fin 1) (p : Fin 5000) (q : Fin 64) :
    (k0_pay6 (F := Ideal) v34 v37 v41) (ix3 u p q)
      = (∑ k : Fin 64, v34 (ix3 (0 : Fin 1) p k) * v37 (ix3 (0 : Fin 1) k q)) + v41 (ix2 (0 : Fin 1) q) := by
  unfold k0_pay6
  refine (shapeCast_ab_1ab_apply _ _ u p q).trans ?_
  refine (addf_apply _ _ _).trans ?_
  refine congrArg₂ (· + ·) ?_ ?_
  · refine (matmul_at _ _ p q).trans ?_
    refine Finset.sum_congr rfl fun k _ => ?_
    refine congrArg₂ (· * ·) ?_ ?_
    · exact shapeCast_1ab_ab_apply v34 _ p k
    · exact shapeCast_1ab_ab_apply v37 _ k q
  · exact (broadcastTo_1b_ab_apply _ _ p q).trans
      ((shapeCast_a_1a_apply _ _ 0 q).trans (shapeCast_1a_a_apply v41 _ q))

theorem pay7_at (v49 : Vec Ideal S1x5000x64 .f32) (v52 : Vec Ideal S1x64x64 .f32) (v56 : Vec Ideal S1x64 .f32) (u : Fin 1) (p : Fin 5000) (q : Fin 64) :
    (k0_pay7 (F := Ideal) v49 v52 v56) (ix3 u p q)
      = (∑ k : Fin 64, v49 (ix3 (0 : Fin 1) p k) * v52 (ix3 (0 : Fin 1) k q)) + v56 (ix2 (0 : Fin 1) q) := by
  unfold k0_pay7
  refine (shapeCast_ab_1ab_apply _ _ u p q).trans ?_
  refine (addf_apply _ _ _).trans ?_
  refine congrArg₂ (· + ·) ?_ ?_
  · refine (matmul_at _ _ p q).trans ?_
    refine Finset.sum_congr rfl fun k _ => ?_
    refine congrArg₂ (· * ·) ?_ ?_
    · exact shapeCast_1ab_ab_apply v49 _ p k
    · exact shapeCast_1ab_ab_apply v52 _ k q
  · exact (broadcastTo_1b_ab_apply _ _ p q).trans
      ((shapeCast_a_1a_apply _ _ 0 q).trans (shapeCast_1a_a_apply v56 _ q))

/-! ## The stores read back

Windows 7 and 8 each receive one store of the whole block; window 9 receives three, one per slab. The loads through
whole-buffer rectangles read the buffer; a load of slab `s` reads the buffer at leading coordinate `s`. -/

theorem zeros2 : (![0, 0] : Fin 2 → Nat) = fun _ => 0 := funext fun a => by fin_cases a <;> rfl
theorem zeros1 : (![0] : Fin 1 → Nat) = fun _ => 0 := funext fun a => by fin_cases a <;> rfl

/-- A slab of a block of the states. -/
theorem ld_states_slab (X : Vec Ideal S3x5000x64 .f32) (o : Fin 3 → Nat) (inb : ∀ a, o a + S1x5000x64.size a ≤ S3x5000x64.size a)
    (s : Fin 3) (ho : o = ![s.val, 0, 0]) (u : Fin 1) (p : Fin 5000) (k : Fin 64) :
    View.ld X (Rect.unit (s := S3x5000x64) o S1x5000x64.size inb) (ix3 u p k) = X (ix3 s p k) := by
  subst ho
  show X _ = X _
  refine congrArg X (funext fun a => Fin.ext ?_)
  have hu : u.val = 0 := by omega
  match a with
  | ⟨0, _⟩ => show s.val + 1 * u.val = s.val; omega
  | ⟨1, _⟩ => show 0 + 1 * p.val = p.val; omega
  | ⟨2, _⟩ => show 0 + 1 * k.val = k.val; omega

/-- A slab of the stacked weights. -/
theorem ld_weights_slab (X : Vec Ideal S3x64x64 .f32) (o : Fin 3 → Nat) (inb : ∀ a, o a + S1x64x64.size a ≤ S3x64x64.size a)
    (s : Fin 3) (ho : o = ![s.val, 0, 0]) (u : Fin 1) (k : Fin 64) (q : Fin 64) :
    View.ld X (Rect.unit (s := S3x64x64) o S1x64x64.size inb) (ix3 u k q) = X (ix3 s k q) := by
  subst ho
  show X _ = X _
  refine congrArg X (funext fun a => Fin.ext ?_)
  have hu : u.val = 0 := by omega
  match a with
  | ⟨0, _⟩ => show s.val + 1 * u.val = s.val; omega
  | ⟨1, _⟩ => show 0 + 1 * k.val = k.val; omega
  | ⟨2, _⟩ => show 0 + 1 * q.val = q.val; omega

/-- A row of the stacked biases. -/
theorem ld_bias_row (X : Vec Ideal S3x64 .f32) (o : Fin 2 → Nat) (inb : ∀ a, o a + S1x64.size a ≤ S3x64.size a)
    (s : Fin 3) (ho : o = ![s.val, 0]) (u : Fin 1) (q : Fin 64) :
    View.ld X (Rect.unit (s := S3x64) o S1x64.size inb) (ix2 u q) = X (ix2 s q) := by
  subst ho
  show X _ = X _
  refine congrArg X (funext fun a => Fin.ext ?_)
  have hu : u.val = 0 := by omega
  match a with
  | ⟨0, _⟩ => show s.val + 1 * u.val = s.val; omega
  | ⟨1, _⟩ => show 0 + 1 * q.val = q.val; omega

/-- Window 7's buffer after the body, at row `p` and column `q`: the newest slab's row against the first weights. -/
theorem out7_at (x0 : Vec Ideal S3x5000x64 .f32) (x1 : Vec Ideal S64x64 .f32) (x2 : Vec Ideal S64 .f32) (x3 : Vec Ideal S64x64 .f32)
    (x4 : Vec Ideal S64 .f32) (x5 : Vec Ideal S3x64x64 .f32) (x6 : Vec Ideal S3x64 .f32) (p : Fin 5000) (q : Fin 64) :
    out0_7 (F := Ideal) x0 x1 x2 x3 x4 x5 x6 (ix2 p q) = (∑ k : Fin 64, x0 (ix3 (2 : Fin 3) p k) * x1 (ix2 k q)) + x2 (ix1 q) := by
  unfold out0_7
  rw [View.canon_unit_zero zeros2, View.ld_unit_zero (S := S64x64) zeros2, View.ld_unit_zero (S := S64) zeros1]
  refine (pay2_at _ _ _ p q).trans ?_
  refine congrArg (· + x2 (ix1 q)) (Finset.sum_congr rfl fun k _ => congrArg (· * x1 (ix2 k q)) ?_)
  exact ld_states_slab x0 _ _ 2 rfl 0 p k

/-- Window 8's likewise, against the second weights. -/
theorem out8_at (x0 : Vec Ideal S3x5000x64 .f32) (x1 : Vec Ideal S64x64 .f32) (x2 : Vec Ideal S64 .f32) (x3 : Vec Ideal S64x64 .f32)
    (x4 : Vec Ideal S64 .f32) (x5 : Vec Ideal S3x64x64 .f32) (x6 : Vec Ideal S3x64 .f32) (p : Fin 5000) (q : Fin 64) :
    out0_8 (F := Ideal) x0 x1 x2 x3 x4 x5 x6 (ix2 p q) = (∑ k : Fin 64, x0 (ix3 (2 : Fin 3) p k) * x3 (ix2 k q)) + x4 (ix1 q) := by
  unfold out0_8
  rw [View.canon_unit_zero zeros2, View.ld_unit_zero (S := S64x64) zeros2, View.ld_unit_zero (S := S64) zeros1]
  refine (pay3_at _ _ _ p q).trans ?_
  refine congrArg (· + x4 (ix1 q)) (Finset.sum_congr rfl fun k _ => congrArg (· * x3 (ix2 k q)) ?_)
  exact ld_states_slab x0 _ _ 2 rfl 0 p k

/-- One block of the per-hop images from one block of the states: slab `s` of the result reads slab `2 - s` of the states
    against slab `s` of the weights and row `s` of the biases. -/
def hopBlock (x0 : Vec Ideal S3x5000x64 .f32) (x5 : Vec Ideal S3x64x64 .f32) (x6 : Vec Ideal S3x64 .f32) : Vec Ideal S3x5000x64 .f32 :=
  fun i => (∑ k : Fin 64, x0 (ix3 (Fin.rev (i 0)) (i 1) k) * x5 (ix3 (i 0) k (i 2))) + x6 (ix2 (i 0) (i 2))

theorem hopBlock_at (x0 : Vec Ideal S3x5000x64 .f32) (x5 : Vec Ideal S3x64x64 .f32) (x6 : Vec Ideal S3x64 .f32) (s : Fin 3) (p : Fin 5000) (q : Fin 64) :
    hopBlock x0 x5 x6 (ix3 s p q) = (∑ k : Fin 64, x0 (ix3 s.rev p k) * x5 (ix3 s k q)) + x6 (ix2 s q) := rfl

/-- The place of a slab's element in the block. -/
theorem slab_emb (o : Fin 3 → Nat) (inb : ∀ a, o a + S1x5000x64.size a ≤ S3x5000x64.size a)
    (s : Fin 3) (ho : o = ![s.val, 0, 0]) (u : Fin 1) (p : Fin 5000) (q : Fin 64) :
    (Rect.unit (s := S3x5000x64) o S1x5000x64.size inb).emb (ix3 u p q) = ix3 s p q := by
  subst ho
  refine funext fun a => Fin.ext ?_
  have hu : u.val = 0 := by omega
  match a with
  | ⟨0, _⟩ => show s.val + 1 * u.val = s.val; omega
  | ⟨1, _⟩ => show 0 + 1 * p.val = p.val; omega
  | ⟨2, _⟩ => show 0 + 1 * q.val = q.val; omega

/-- Window 9's buffer after the body's three stores is that block. -/
theorem out9_eq (x0 : Vec Ideal S3x5000x64 .f32) (x1 : Vec Ideal S64x64 .f32) (x2 : Vec Ideal S64 .f32) (x3 : Vec Ideal S64x64 .f32)
    (x4 : Vec Ideal S64 .f32) (x5 : Vec Ideal S3x64x64 .f32) (x6 : Vec Ideal S3x64 .f32) :
    out0_9 (F := Ideal) x0 x1 x2 x3 x4 x5 x6 = hopBlock x0 x5 x6 := by
  funext y
  unfold out0_9
  refine View.canon_apply_of_pieces (Val := Elt Ideal) (hopBlock x0 x5 x6) _ ?_ y (cover0_9 _ _ _ y)
  intro pc hpc
  simp only [List.mem_cons, List.mem_singleton, List.not_mem_nil, or_false] at hpc
  rcases hpc with rfl | rfl | rfl <;> intro (x : S1x5000x64.Idx) <;>
    obtain ⟨u, p, q, rfl⟩ : ∃ (u : Fin 1) (p : Fin 5000) (q : Fin 64), x = ix3 u p q := ⟨x 0, x 1, x 2, eq_ix3 x⟩
  · have e : r0_0.emb (ix3 u p q) = ix3 (2 : Fin 3) p q := slab_emb _ _ 2 rfl u p q
    dsimp only
    rw [e, hopBlock_at]
    refine (pay7_at _ _ _ u p q).trans ?_
    refine congrArg₂ (· + ·) (Finset.sum_congr rfl fun k _ => congrArg₂ (· * ·) ?_ ?_) ?_
    · exact ld_states_slab x0 _ _ 0 rfl 0 p k
    · exact ld_weights_slab x5 _ _ 2 rfl 0 k q
    · exact ld_bias_row x6 _ _ 2 rfl 0 q
  · have e : r0_7.emb (ix3 u p q) = ix3 (1 : Fin 3) p q := slab_emb _ _ 1 rfl u p q
    dsimp only
    rw [e, hopBlock_at]
    refine (pay6_at _ _ _ u p q).trans ?_
    refine congrArg₂ (· + ·) (Finset.sum_congr rfl fun k _ => congrArg₂ (· * ·) ?_ ?_) ?_
    · exact ld_states_slab x0 _ _ 1 rfl 0 p k
    · exact ld_weights_slab x5 _ _ 1 rfl 0 k q
    · exact ld_bias_row x6 _ _ 1 rfl 0 q
  · have e : r0_6.emb (ix3 u p q) = ix3 (0 : Fin 3) p q := slab_emb _ _ 0 rfl u p q
    dsimp only
    rw [e, hopBlock_at]
    refine (pay5_at _ u p q).trans ?_
    refine (pay4_at _ _ _ p q).trans ?_
    refine congrArg₂ (· + ·) (Finset.sum_congr rfl fun k _ => congrArg₂ (· * ·) ?_ ?_) ?_
    · exact ld_states_slab x0 _ _ 2 rfl 0 p k
    · exact ld_weights_slab x5 _ _ 0 rfl 0 k q
    · exact ld_bias_row x6 _ _ 0 rfl 0 q

/-! ## The blocks of the operands

The grid has one axis of ten points. At point `t` the first window holds rows `5000 t … 5000 t + 4999` of every slab of
the states, the three result windows write back the same rows, and the six parameter windows hold their whole arrays. -/

variable (V : (c : Dev nD) → (b : Ref sig .tc) → Buf (Elt Ideal) ((c : Thread nD τ).loc b))

/-- The index maps over the grid: the row-block index is the point, every other block index is zero. -/
theorem index_facts : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 3) = 0 ∧ win0_9.index t (1 : Fin 3) = t.val ∧ win0_9.index t (2 : Fin 3) = 0) :=
  (by decide +kernel : ∀ t : Fin grid0.N, _)

/-- The states' block at point `t`, at slab `s`, row `p`, column `k`: the array at row `5000 t + p`. -/
theorem states_block (c : Dev nD) (t : Fin cfg0.N) (s : Fin 3) (p : Fin 5000) (k : Fin 64) (n : Fin 50000)
    (hn : n.val = 5000 * t.val + p.val) :
    (iblk0 (F := Ideal) V c 0 t : Vec Ideal S3x5000x64 .f32) (ix3 s p k) = (V c main_arg0 : Sx.Idx → EReal) (ix3 s n k) := by
  obtain ⟨⟨e0, e1, e2⟩, -⟩ := index_facts t
  unfold iblk0
  rw [View.read_apply]
  show V c main_arg0 _ = V c main_arg0 _
  refine congrArg (V c main_arg0) (funext fun a => Fin.ext ?_)
  match a with
  | ⟨0, _⟩ => show win0_0.index t (0 : Fin 3) * 3 + 1 * s.val = s.val; rw [e0]; omega
  | ⟨1, _⟩ => show win0_0.index t (1 : Fin 3) * 5000 + 1 * p.val = n.val; rw [e1, hn]; omega
  | ⟨2, _⟩ => show win0_0.index t (2 : Fin 3) * 64 + 1 * k.val = k.val; rw [e2]; omega

/-- The first weights' block is the whole matrix. -/
theorem weights1_block (c : Dev nD) (t : Fin cfg0.N) : (iblk0 (F := Ideal) V c 1 t : Vec Ideal S64x64 .f32) = V c main_arg3 := by
  obtain ⟨-, ⟨e0, e1⟩, -⟩ := index_facts t
  funext j
  unfold iblk0
  rw [View.read_apply]
  show V c main_arg3 _ = V c main_arg3 _
  refine congrArg (V c main_arg3) (funext fun a => Fin.ext ?_)
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

/-- The first bias's block is the whole vector. -/
theorem bias1_block (c : Dev nD) (t : Fin cfg0.N) : (iblk0 (F := Ideal) V c 2 t : Vec Ideal S64 .f32) = V c main_arg4 := by
  obtain ⟨-, -, e0, -⟩ := index_facts t
  funext j
  unfold iblk0
  rw [View.read_apply]
  show V c main_arg4 _ = V c main_arg4 _
  refine congrArg (V c main_arg4) (funext fun a => Fin.ext ?_)
  match a with
  | ⟨0, _⟩ => show win0_2.index t (0 : Fin 1) * 64 + 1 * (j 0).val = (j 0).val; rw [e0]; omega

/-- The second weights' block is the whole matrix. -/
theorem weights2_block (c : Dev nD) (t : Fin cfg0.N) : (iblk0 (F := Ideal) V c 3 t : Vec Ideal S64x64 .f32) = V c main_arg5 := by
  obtain ⟨-, -, -, ⟨e0, e1⟩, -⟩ := index_facts t
  funext j
  unfold iblk0
  rw [View.read_apply]
  show V c main_arg5 _ = V c main_arg5 _
  refine congrArg (V c main_arg5) (funext fun a => Fin.ext ?_)
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-- The second bias's block is the whole vector. -/
theorem bias2_block (c : Dev nD) (t : Fin cfg0.N) : (iblk0 (F := Ideal) V c 4 t : Vec Ideal S64 .f32) = V c main_arg6 := by
  obtain ⟨-, -, -, -, e0, -⟩ := index_facts t
  funext j
  unfold iblk0
  rw [View.read_apply]
  show V c main_arg6 _ = V c main_arg6 _
  refine congrArg (V c main_arg6) (funext fun a => Fin.ext ?_)
  match a with
  | ⟨0, _⟩ => show win0_4.index t (0 : Fin 1) * 64 + 1 * (j 0).val = (j 0).val; rw [e0]; omega

/-- The stacked weights' block is the whole stack. -/
theorem hopWeights_block (c : Dev nD) (t : Fin cfg0.N) : (iblk0 (F := Ideal) V c 5 t : Vec Ideal S3x64x64 .f32) = V c main_arg7 := by
  obtain ⟨-, -, -, -, -, ⟨e0, e1, e2⟩, -⟩ := index_facts t
  funext j
  unfold iblk0
  rw [View.read_apply]
  show V c main_arg7 _ = V c main_arg7 _
  refine congrArg (V c main_arg7) (funext fun a => Fin.ext ?_)
  match a with
  | ⟨0, _⟩ => show win0_5.index t (0 : Fin 3) * 3 + 1 * (j 0).val = (j 0).val; rw [e0]; omega
  | ⟨1, _⟩ => show win0_5.index t (1 : Fin 3) * 64 + 1 * (j 1).val = (j 1).val; rw [e1]; omega
  | ⟨2, _⟩ => show win0_5.index t (2 : Fin 3) * 64 + 1 * (j 2).val = (j 2).val; rw [e2]; omega

/-- The stacked biases' block is the whole stack. -/
theorem hopBias_block (c : Dev nD) (t : Fin cfg0.N) : (iblk0 (F := Ideal) V c 6 t : Vec Ideal S3x64 .f32) = V c main_arg8 := by
  obtain ⟨-, -, -, -, -, -, ⟨e0, e1⟩, -⟩ := index_facts t
  funext j
  unfold iblk0
  rw [View.read_apply]
  show V c main_arg8 _ = V c main_arg8 _
  refine congrArg (V c main_arg8) (funext fun a => Fin.ext ?_)
  match a with
  | ⟨0, _⟩ => show win0_6.index t (0 : Fin 2) * 3 + 1 * (j 0).val = (j 0).val; rw [e0]; omega
  | ⟨1, _⟩ => show win0_6.index t (1 : Fin 2) * 64 + 1 * (j 1).val = (j 1).val; rw [e1]; omega

/-! ## What each point writes back, the cover, and the arrays after the run -/

/-- Point `t` writes back, into window 7's array, block `t` of the image of the newest states under the first weights. -/
theorem own_flushed (c : Dev nD) (t : Fin cfg0.N) :
    (dat0 (F := Ideal) V c).flushed 7 t
      = ((cfg0.win 7).blk t).view.read (Elt Ideal) (lin (V c main_arg0) 2 (V c main_arg3) (V c main_arg4)) := by
  obtain ⟨-, -, -, -, -, -, -, ⟨e0, e1⟩, -⟩ := index_facts t
  have ht : t.val < 10 := t.isLt
  show (cfg0.win 7).cut (grid0.coords t) ((dat0 (F := Ideal) V c).after 7 t) = _
  rw [after0_7]
  funext (j : S5000x64.Idx)
  obtain ⟨p, q, rfl⟩ : ∃ (p : Fin 5000) (q : Fin 64), j = ix2 p q := ⟨j 0, j 1, eq_ix2 j⟩
  have hemb : ((cfg0.win 7).blk t).view.emb (ix2 p q) = (ix2 (⟨5000 * t.val + p.val, by omega⟩ : Fin 50000) q : Sn.Idx) := by
    refine funext fun a => Fin.ext ?_
    match a with
    | ⟨0, _⟩ => show win0_7.index t (0 : Fin 2) * 5000 + 1 * p.val = 5000 * t.val + p.val; rw [e0]; omega
    | ⟨1, _⟩ => show win0_7.index t (1 : Fin 2) * 64 + 1 * q.val = q.val; rw [e1]; omega
  show out0_7 (F := Ideal) (iblk0 V c 0 t) (iblk0 V c 1 t) (iblk0 V c 2 t) (iblk0 V c 3 t) (iblk0 V c 4 t) (iblk0 V c 5 t) (iblk0 V c 6 t) (ix2 p q)
    = lin (V c main_arg0) 2 (V c main_arg3) (V c main_arg4) (((cfg0.win 7).blk t).view.emb (ix2 p q))
  rw [hemb]
  refine (out7_at (iblk0 V c 0 t) (iblk0 V c 1 t) (iblk0 V c 2 t) (iblk0 V c 3 t) (iblk0 V c 4 t) (iblk0 V c 5 t) (iblk0 V c 6 t) p q).trans ?_
  rw [weights1_block, bias1_block]
  show _ = linAt (V c main_arg0) 2 (V c main_arg3) (V c main_arg4) ⟨5000 * t.val + p.val, by omega⟩ q
  unfold linAt
  refine congrArg (· + _) (Finset.sum_congr rfl fun k _ => congrArg (· * _) ?_)
  exact states_block V c t 2 p k _ rfl

/-- Point `t` writes back, into window 8's array, block `t` of the image of the newest states under the second weights. -/
theorem gate_flushed (c : Dev nD) (t : Fin cfg0.N) :
    (dat0 (F := Ideal) V c).flushed 8 t
      = ((cfg0.win 8).blk t).view.read (Elt Ideal) (lin (V c main_arg0) 2 (V c main_arg5) (V c main_arg6)) := by
  obtain ⟨-, -, -, -, -, -, -, -, ⟨e0, e1⟩, -⟩ := index_facts t
  have ht : t.val < 10 := t.isLt
  show (cfg0.win 8).cut (grid0.coords t) ((dat0 (F := Ideal) V c).after 8 t) = _
  rw [after0_8]
  funext (j : S5000x64.Idx)
  obtain ⟨p, q, rfl⟩ : ∃ (p : Fin 5000) (q : Fin 64), j = ix2 p q := ⟨j 0, j 1, eq_ix2 j⟩
  have hemb : ((cfg0.win 8).blk t).view.emb (ix2 p q) = (ix2 (⟨5000 * t.val + p.val, by omega⟩ : Fin 50000) q : Sn.Idx) := by
    refine funext fun a => Fin.ext ?_
    match a with
    | ⟨0, _⟩ => show win0_8.index t (0 : Fin 2) * 5000 + 1 * p.val = 5000 * t.val + p.val; rw [e0]; omega
    | ⟨1, _⟩ => show win0_8.index t (1 : Fin 2) * 64 + 1 * q.val = q.val; rw [e1]; omega
  show out0_8 (F := Ideal) (iblk0 V c 0 t) (iblk0 V c 1 t) (iblk0 V c 2 t) (iblk0 V c 3 t) (iblk0 V c 4 t) (iblk0 V c 5 t) (iblk0 V c 6 t) (ix2 p q)
    = lin (V c main_arg0) 2 (V c main_arg5) (V c main_arg6) (((cfg0.win 8).blk t).view.emb (ix2 p q))
  rw [hemb]
  refine (out8_at (iblk0 V c 0 t) (iblk0 V c 1 t) (iblk0 V c 2 t) (iblk0 V c 3 t) (iblk0 V c 4 t) (iblk0 V c 5 t) (iblk0 V c 6 t) p q).trans ?_
  rw [weights2_block, bias2_block]
  show _ = linAt (V c main_arg0) 2 (V c main_arg5) (V c main_arg6) ⟨5000 * t.val + p.val, by omega⟩ q
  unfold linAt
  refine congrArg (· + _) (Finset.sum_congr rfl fun k _ => congrArg (· * _) ?_)
  exact states_block V c t 2 p k _ rfl

/-- Point `t` writes back, into window 9's array, rows `5000 t … 5000 t + 4999` of every slab of the per-hop images. -/
theorem hop_flushed (c : Dev nD) (t : Fin cfg0.N) :
    (dat0 (F := Ideal) V c).flushed 9 t
      = ((cfg0.win 9).blk t).view.read (Elt Ideal) (hopLin (V c main_arg0) (V c main_arg7) (V c main_arg8)) := by
  obtain ⟨-, -, -, -, -, -, -, -, -, ⟨e0, e1, e2⟩⟩ := index_facts t
  have ht : t.val < 10 := t.isLt
  show (cfg0.win 9).cut (grid0.coords t) ((dat0 (F := Ideal) V c).after 9 t) = _
  rw [after0_9, out9_eq]
  funext (j : S3x5000x64.Idx)
  obtain ⟨s, p, q, rfl⟩ : ∃ (s : Fin 3) (p : Fin 5000) (q : Fin 64), j = ix3 s p q := ⟨j 0, j 1, j 2, eq_ix3 j⟩
  have hemb : ((cfg0.win 9).blk t).view.emb (ix3 s p q) = (ix3 s (⟨5000 * t.val + p.val, by omega⟩ : Fin 50000) q : Sx.Idx) := by
    refine funext fun a => Fin.ext ?_
    match a with
    | ⟨0, _⟩ => show win0_9.index t (0 : Fin 3) * 3 + 1 * s.val = s.val; rw [e0]; omega
    | ⟨1, _⟩ => show win0_9.index t (1 : Fin 3) * 5000 + 1 * p.val = 5000 * t.val + p.val; rw [e1]; omega
    | ⟨2, _⟩ => show win0_9.index t (2 : Fin 3) * 64 + 1 * q.val = q.val; rw [e2]; omega
  show hopBlock (iblk0 V c 0 t) (iblk0 V c 5 t) (iblk0 V c 6 t) (ix3 s p q)
    = hopLin (V c main_arg0) (V c main_arg7) (V c main_arg8) (((cfg0.win 9).blk t).view.emb (ix3 s p q))
  rw [hemb, hopBlock_at, hopWeights_block, hopBias_block]
  show _ = hopLinAt (V c main_arg0) (V c main_arg7) (V c main_arg8) s ⟨5000 * t.val + p.val, by omega⟩ q
  unfold hopLinAt
  refine congrArg (· + _) (Finset.sum_congr rfl fun k _ => congrArg (· * _) ?_)
  exact states_block V c t s.rev p k _ rfl

/-- Row `r` of a result array lies in the block of point `r / 5000`. -/
theorem own_cover (i : Sn.Idx) : ∃ t : Fin cfg0.N, (cfg0.win 7).flush t = true ∧ i ∈ ((cfg0.win 7).blk t).view.set := by
  have hi0 : (i 0).val < 50000 := (i 0).isLt
  have hi1 : (i 1).val < 64 := (i 1).isLt
  have hlt : (i 0).val / 5000 < cfg0.N := by show _ < grid0.N; rw [N_0]; omega
  obtain ⟨-, -, -, -, -, -, -, ⟨e0, e1⟩, -⟩ := index_facts ⟨(i 0).val / 5000, hlt⟩
  refine ⟨⟨(i 0).val / 5000, hlt⟩, flush0_7 _, ?_⟩
  show i ∈ ((View.whole main_v0_0).slice (win0_7.rect ⟨(i 0).val / 5000, hlt⟩)).set
  rw [View.set_slice_whole, Rect.mem_set_unit]
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hlt⟩ (1 : Fin 2) * 64 ≤ (i 1).val
      ∧ (i 1).val < win0_7.index ⟨(i 0).val / 5000, hlt⟩ (1 : Fin 2) * 64 + 64
    rw [e1]; omega

theorem gate_cover (i : Sn.Idx) : ∃ t : Fin cfg0.N, (cfg0.win 8).flush t = true ∧ i ∈ ((cfg0.win 8).blk t).view.set := by
  have hi0 : (i 0).val < 50000 := (i 0).isLt
  have hi1 : (i 1).val < 64 := (i 1).isLt
  have hlt : (i 0).val / 5000 < cfg0.N := by show _ < grid0.N; rw [N_0]; omega
  obtain ⟨-, -, -, -, -, -, -, -, ⟨e0, e1⟩, -⟩ := index_facts ⟨(i 0).val / 5000, hlt⟩
  refine ⟨⟨(i 0).val / 5000, hlt⟩, flush0_8 _, ?_⟩
  show i ∈ ((View.whole main_v0_1).slice (win0_8.rect ⟨(i 0).val / 5000, hlt⟩)).set
  rw [View.set_slice_whole, Rect.mem_set_unit]
  intro a
  match a with
  | ⟨0, _⟩ =>
    show win0_8.index ⟨(i 0).val / 5000, hlt⟩ (0 : Fin 2) * 5000 ≤ (i 0).val
      ∧ (i 0).val < win0_8.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, hlt⟩ (1 : Fin 2) * 64 ≤ (i 1).val
      ∧ (i 1).val < win0_8.index ⟨(i 0).val / 5000, hlt⟩ (1 : Fin 2) * 64 + 64
    rw [e1]; omega

theorem hop_cover (i : Sx.Idx) : ∃ t : Fin cfg0.N, (cfg0.win 9).flush t = true ∧ i ∈ ((cfg0.win 9).blk t).view.set := by
  have hi0 : (i 0).val < 3 := (i 0).isLt
  have hi1 : (i 1).val < 50000 := (i 1).isLt
  have hi2 : (i 2).val < 64 := (i 2).isLt
  have hlt : (i 1).val / 5000 < cfg0.N := by show _ < grid0.N; rw [N_0]; omega
  obtain ⟨-, -, -, -, -, -, -, -, -, ⟨e0, e1, e2⟩⟩ := index_facts ⟨(i 1).val / 5000, hlt⟩
  refine ⟨⟨(i 1).val / 5000, hlt⟩, flush0_9 _, ?_⟩
  show i ∈ ((View.whole main_v0_2).slice (win0_9.rect ⟨(i 1).val / 5000, hlt⟩)).set
  rw [View.set_slice_whole, Rect.mem_set_unit]
  intro a
  match a with
  | ⟨0, _⟩ =>
    show win0_9.index ⟨(i 1).val / 5000, hlt⟩ (0 : Fin 3) * 3 ≤ (i 0).val
      ∧ (i 0).val < win0_9.index ⟨(i 1).val / 5000, hlt⟩ (0 : Fin 3) * 3 + 3
    rw [e0]; omega
  | ⟨1, _⟩ =>
    show win0_9.index ⟨(i 1).val / 5000, hlt⟩ (1 : Fin 3) * 5000 ≤ (i 1).val
      ∧ (i 1).val < win0_9.index ⟨(i 1).val / 5000, hlt⟩ (1 : Fin 3) * 5000 + 5000
    rw [e1]; show (i 1).val / 5000 * 5000 ≤ (i 1).val ∧ (i 1).val < (i 1).val / 5000 * 5000 + 5000; omega
  | ⟨2, _⟩ =>
    show win0_9.index ⟨(i 1).val / 5000, hlt⟩ (2 : Fin 3) * 64 ≤ (i 2).val
      ∧ (i 2).val < win0_9.index ⟨(i 1).val / 5000, hlt⟩ (2 : Fin 3) * 64 + 64
    rw [e2]; omega

/-- The first output array of the linear-map region after its run: the current state's image under `Wa`, `ba`. -/
theorem own_image (c : Dev nD) :
    (dat0 (F := Ideal) V c).arrAt 7 cfg0.N = lin (V c main_arg0) 2 (V c main_arg3) (V c main_arg4) :=
  (dat0 (F := Ideal) V c).arrAt_eq_of_cover 7 (lin (V c main_arg0) 2 (V c main_arg3) (V c main_arg4))
    (fun t _ => own_flushed V c t) own_cover

/-- The second output array: the current state's image under `Wd`, `bd`. -/
theorem gate_image (c : Dev nD) :
    (dat0 (F := Ideal) V c).arrAt 8 cfg0.N = lin (V c main_arg0) 2 (V c main_arg5) (V c main_arg6) :=
  (dat0 (F := Ideal) V c).arrAt_eq_of_cover 8 (lin (V c main_arg0) 2 (V c main_arg5) (V c main_arg6))
    (fun t _ => gate_flushed V c t) gate_cover

/-- The third output array: the per-hop images of the delayed states. -/
theorem hop_image (c : Dev nD) :
    (dat0 (F := Ideal) V c).arrAt 9 cfg0.N = hopLin (V c main_arg0) (V c main_arg7) (V c main_arg8) :=
  (dat0 (F := Ideal) V c).arrAt_eq_of_cover 9 (hopLin (V c main_arg0) (V c main_arg7) (V c main_arg8))
    (fun t _ => hop_flushed V c t) hop_cover

end Cert.KernelIdeal.Lin

end
-- ==== Proof.Reg1.lean ====
import proofs.«410264_j48739288875406_2_alg».proof.Proof.Gen.KernelIdeal.Frame
import proofs.«410264_j48739288875406_2_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Gate

open Cert.KernelIdeal Cert.KernelIdeal.Gen Cert.Gated

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The first stored value, entry by entry: the logistic function of the two loaded blocks' sum (the
    same-shape casts are identities). -/
theorem pay2_eq (x0 x1 : Vec Ideal S8000x64 .f32) :
    k1_pay2 (F := Ideal) x0 x1 = fun j => Ideal.logistic (x0 j + x1 j) := by
  unfold k1_pay2 k1_pay1
  simp only [shapeCast_self]
  rfl

/-- The second stored value, entry by entry: the first one times the second loaded block. -/
theorem pay3_eq (x0 x1 : Vec Ideal S8000x64 .f32) :
    k1_pay3 (F := Ideal) x0 x1 = fun j => Ideal.logistic (x0 j + x1 j) * x1 j := by
  unfold k1_pay3 k1_pay2 k1_pay1
  simp only [shapeCast_self]
  rfl

/-- All four windows move together: at grid point `t` each one's block is number `t` along the rows and
    number `0` along the columns (decided over the hundred points). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry `j` of the first operand's block at point `t` sits in its array where entry `j` of the first
    output's block sits in its. -/
theorem emb_0_2 (t : Fin cfg1.N) (j : S8000x64.Idx) :
    ((cfg1.win 0).blk t).view.emb j = ((cfg1.win 2).blk t).view.emb j := by
  obtain ⟨e00, e01, -, -, e20, e21, -, -⟩ := idx_facts t
  funext a; apply Fin.ext
  match a with
  | ⟨0, _⟩ => show win1_0.index t (0 : Fin 2) * 8000 + 1 * (j 0).val = win1_2.index t (0 : Fin 2) * 8000 + 1 * (j 0).val; omega
  | ⟨1, _⟩ => show win1_0.index t (1 : Fin 2) * 64 + 1 * (j 1).val = win1_2.index t (1 : Fin 2) * 64 + 1 * (j 1).val; omega

/-- The same for the second operand's block. -/
theorem emb_1_2 (t : Fin cfg1.N) (j : S8000x64.Idx) :
    ((cfg1.win 1).blk t).view.emb j = ((cfg1.win 2).blk t).view.emb j := by
  obtain ⟨-, -, e10, e11, e20, e21, -, -⟩ := idx_facts t
  funext a; apply Fin.ext
  match a with
  | ⟨0, _⟩ => show win1_1.index t (0 : Fin 2) * 8000 + 1 * (j 0).val = win1_2.index t (0 : Fin 2) * 8000 + 1 * (j 0).val; omega
  | ⟨1, _⟩ => show win1_1.index t (1 : Fin 2) * 64 + 1 * (j 1).val = win1_2.index t (1 : Fin 2) * 64 + 1 * (j 1).val; omega

/-- The two operands' blocks against the second output's block. -/
theorem emb_0_3 (t : Fin cfg1.N) (j : S8000x64.Idx) :
    ((cfg1.win 0).blk t).view.emb j = ((cfg1.win 3).blk t).view.emb j := by
  obtain ⟨e00, e01, -, -, -, -, e30, e31⟩ := idx_facts t
  funext a; apply Fin.ext
  match a with
  | ⟨0, _⟩ => show win1_0.index t (0 : Fin 2) * 8000 + 1 * (j 0).val = win1_3.index t (0 : Fin 2) * 8000 + 1 * (j 0).val; omega
  | ⟨1, _⟩ => show win1_0.index t (1 : Fin 2) * 64 + 1 * (j 1).val = win1_3.index t (1 : Fin 2) * 64 + 1 * (j 1).val; omega

theorem emb_1_3 (t : Fin cfg1.N) (j : S8000x64.Idx) :
    ((cfg1.win 1).blk t).view.emb j = ((cfg1.win 3).blk t).view.emb j := by
  obtain ⟨-, -, e10, e11, -, -, e30, e31⟩ := idx_facts t
  funext a; apply Fin.ext
  match a with
  | ⟨0, _⟩ => show win1_1.index t (0 : Fin 2) * 8000 + 1 * (j 0).val = win1_3.index t (0 : Fin 2) * 8000 + 1 * (j 0).val; omega
  | ⟨1, _⟩ => show win1_1.index t (1 : Fin 2) * 64 + 1 * (j 1).val = win1_3.index t (1 : Fin 2) * 64 + 1 * (j 1).val; omega

/-- The two operand arrays as the region finds them, at their literal type. -/
abbrev opA (c : Dev nD) : Se.Idx → EReal := V c main_v7
abbrev opB (c : Dev nD) : Se.Idx → EReal := V c main_v12

/-- What point `t` writes back to the first output array is block `t` of the gate array. -/
theorem gate_flushed (c : Dev nD) (t : Fin cfg1.N) :
    (dat1 (F := Ideal) V c).flushed 2 t
      = ((cfg1.win 2).blk t).view.read (Elt Ideal) (gate (V c main_v7) (V c main_v12)) := by
  show (cfg1.win 2).cut (grid1.coords t) ((dat1 (F := Ideal) V c).after 2 t) = _
  rw [after1_2]
  unfold out1_2
  rw [View.canon_unit_zero hz]
  simp only [View.ld_unit_zero (S := S8000x64) hz]
  rw [pay2_eq]
  funext j
  show Ideal.logistic (opA V c (((cfg1.win 0).blk t).view.emb j) + opB V c (((cfg1.win 1).blk t).view.emb j))
    = Ideal.logistic (opA V c (((cfg1.win 2).blk t).view.emb j) + opB V c (((cfg1.win 2).blk t).view.emb j))
  rw [emb_0_2 t j, emb_1_2 t j]

/-- What point `t` writes back to the second output array is block `t` of the gated-message array. -/
theorem gated_flushed (c : Dev nD) (t : Fin cfg1.N) :
    (dat1 (F := Ideal) V c).flushed 3 t
      = ((cfg1.win 3).blk t).view.read (Elt Ideal) (gated (V c main_v7) (V c main_v12)) := by
  show (cfg1.win 3).cut (grid1.coords t) ((dat1 (F := Ideal) V c).after 3 t) = _
  rw [after1_3]
  unfold out1_3
  rw [View.canon_unit_zero hz]
  simp only [View.ld_unit_zero (S := S8000x64) hz]
  rw [pay3_eq]
  funext j
  show Ideal.logistic (opA V c (((cfg1.win 0).blk t).view.emb j) + opB V c (((cfg1.win 1).blk t).view.emb j))
      * opB V c (((cfg1.win 1).blk t).view.emb j)
    = Ideal.logistic (opA V c (((cfg1.win 3).blk t).view.emb j) + opB V c (((cfg1.win 3).blk t).view.emb j))
      * opB V c (((cfg1.win 3).blk t).view.emb j)
  rw [emb_0_3 t j, emb_1_3 t j]

/-- An index of the first output array lies in point `t`'s block iff each coordinate lies in the block's
    range on its axis. -/
theorem mem_blk2 (t : Fin cfg1.N) (i : S800000x64.Idx) :
    i ∈ ((cfg1.win 2).blk t).view.set ↔ ∀ a : Fin 2, win1_2.index t a * S8000x64.size a ≤ (i a).val
      ∧ (i a).val < win1_2.index t a * S8000x64.size a + S8000x64.size a := by
  show i ∈ ((View.whole main_v13_0).slice (win1_2.rect t)).set ↔ _
  rw [View.set_slice_whole, Rect.mem_set_unit]
  exact Iff.rfl

/-- The same for the second output array. -/
theorem mem_blk3 (t : Fin cfg1.N) (i : S800000x64.Idx) :
    i ∈ ((cfg1.win 3).blk t).view.set ↔ ∀ a : Fin 2, win1_3.index t a * S8000x64.size a ≤ (i a).val
      ∧ (i a).val < win1_3.index t a * S8000x64.size a + S8000x64.size a := by
  show i ∈ ((View.whole main_v13_1).slice (win1_3.rect t)).set ↔ _
  rw [View.set_slice_whole, Rect.mem_set_unit]
  exact Iff.rfl

/-- Row `r` has a grid point: number `r / 8000` of the hundred. -/
theorem point_of (i : S800000x64.Idx) : ∃ t : Fin cfg1.N, t.val = (i 0).val / 8000 := by
  have hi0 : (i 0).val < 800000 := (i 0).isLt
  have hN : grid1.N = 100 := N_1
  exact ⟨⟨(i 0).val / 8000, by show (i 0).val / 8000 < grid1.N; rw [hN]; omega⟩, rfl⟩

/-- The blocks of the first output tile its array: row `r` is written by point `r / 8000`. -/
theorem cover2 (i : S800000x64.Idx) :
    ∃ t : Fin cfg1.N, (cfg1.win 2).flush t = true ∧ i ∈ ((cfg1.win 2).blk t).view.set := by
  have hi1 : (i 1).val < 64 := (i 1).isLt
  obtain ⟨t, ht⟩ := point_of i
  obtain ⟨-, -, -, -, e20, e21, -, -⟩ := idx_facts t
  refine ⟨t, flush1_2 t, ?_⟩
  rw [mem_blk2]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- The blocks of the second output tile its array in the same way. -/
theorem cover3 (i : S800000x64.Idx) :
    ∃ t : Fin cfg1.N, (cfg1.win 3).flush t = true ∧ i ∈ ((cfg1.win 3).blk t).view.set := by
  have hi1 : (i 1).val < 64 := (i 1).isLt
  obtain ⟨t, ht⟩ := point_of i
  obtain ⟨-, -, -, -, -, -, e30, e31⟩ := idx_facts t
  refine ⟨t, flush1_3 t, ?_⟩
  rw [mem_blk3]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 64 ≤ (i 1).val ∧ (i 1).val < win1_3.index t (1 : Fin 2) * 64 + 64; omega

/-- The gate region's first output array after its run: the logistic function of the two operand arrays' sum. -/
theorem gate_val (c : Dev nD) :
    (dat1 (F := Ideal) V c).arrAt 2 cfg1.N = gate (V c main_v7) (V c main_v12) :=
  (dat1 (F := Ideal) V c).arrAt_eq_of_cover 2 _ (fun t _ => gate_flushed V c t) cover2

/-- Its second output array: the gate times the second operand. -/
theorem gated_val (c : Dev nD) :
    (dat1 (F := Ideal) V c).arrAt 3 cfg1.N = gated (V c main_v7) (V c main_v12) :=
  (dat1 (F := Ideal) V c).arrAt_eq_of_cover 3 _ (fun t _ => gated_flushed V c t) cover3

end Cert.KernelIdeal.Gate

end
-- ==== Proof.Reg2.lean ====
import proofs.«410264_j48739288875406_2_alg».proof.Proof.Gen.KernelIdeal.Frame
import proofs.«410264_j48739288875406_2_alg».proof.Proof.Spec
import Idealize.ShloMosaic.Lib.Pipeline.Value
import Idealize.ShloMosaic.PureOps.Ideal.Laws
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Mix

open Cert.KernelIdeal Cert.KernelIdeal.Gen Cert.Gated

variable (V : (c : Dev nD) → (b : Ref sig .tc) → Buf (Elt Ideal) ((c : Thread nD τ).loc b))

/-! ## What each control case leaves in the three output buffers

Every load and store of the body goes through the whole staging buffer, so each buffer ends at the payload of
its last store, the loads reading the buffers' contents. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point: the mixed block. -/
theorem out_A_3 (c : Dev nD) (i : grid2.Coords) (a1 : Memref sig .tc .vmem S1000x3x64 .f32) (h1 : a1.IsWhole) (a2 : Memref sig .tc .vmem S1000x3x64 .f32) (h2 : a2.IsWhole) (a3 : Memref sig .tc .vmem S1000x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : cond2_0 i) (x0 x1 : Vec F S1000x3x64 .f32) (x2 : Vec F S1000x64 .f32) :
    out2_A_3 c i a1 h1 a2 h2 a3 h3 a4 h4 a5 h5 a6 h6 hc x0 x1 x2 = k2_pay5 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  sl_unfold_words
  rw [View.canon_unit_zero hz2]
  simp only [View.readAt_eq_ld, h1.read_unread, h2.read_unread, h3.read_unread,
    View.ld_unit_zero (S := S1000x3x64) hz3, View.ld_unit_zero (S := S1000x64) hz2]

/-- First point: the row of sums starts from the zero row just stored. -/
theorem out_A_4 (c : Dev nD) (i : grid2.Coords) (a1 : Memref sig .tc .vmem S1000x3x64 .f32) (h1 : a1.IsWhole) (a2 : Memref sig .tc .vmem S1000x3x64 .f32) (h2 : a2.IsWhole) (a3 : Memref sig .tc .vmem S1000x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : cond2_0 i) (x0 x1 : Vec F S1000x3x64 .f32) (x2 : Vec F S1000x64 .f32) :
    out2_A_4 c i a1 h1 a2 h2 a3 h3 a4 h4 a5 h5 a6 h6 hc x0 x1 x2 = k2_pay1 (k2_pay5 x0 x1 x2) (k2_pay6 (k2_pay3 (F := F))) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x64) hz2, View.readCov_unit_zero (S := S1x64) _ hz2]
  simp only [View.readAt_eq_ld, h1.read_unread, h2.read_unread, h3.read_unread,
    View.ld_unit_zero (S := S1000x3x64) hz3, View.ld_unit_zero (S := S1000x64) hz2]

/-- First point: the row of sums of squares starts from the zero row just stored. -/
theorem out_A_5 (c : Dev nD) (i : grid2.Coords) (a1 : Memref sig .tc .vmem S1000x3x64 .f32) (h1 : a1.IsWhole) (a2 : Memref sig .tc .vmem S1000x3x64 .f32) (h2 : a2.IsWhole) (a3 : Memref sig .tc .vmem S1000x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : cond2_0 i) (x0 x1 : Vec F S1000x3x64 .f32) (x2 : Vec F S1000x64 .f32) :
    out2_A_5 c i a1 h1 a2 h2 a3 h3 a4 h4 a5 h5 a6 h6 hc x0 x1 x2 = k2_pay2 (k2_pay5 x0 x1 x2) (k2_pay4 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x64) hz2, View.readCov_unit_zero (S := S1x64) _ hz2]
  simp only [View.readAt_eq_ld, h1.read_unread, h2.read_unread, h3.read_unread,
    View.ld_unit_zero (S := S1000x3x64) hz3, View.ld_unit_zero (S := S1000x64) hz2]

/-- Later points: the mixed block. -/
theorem out_B_3 (c : Dev nD) (i : grid2.Coords) (a1 : Memref sig .tc .vmem S1000x3x64 .f32) (h1 : a1.IsWhole) (a2 : Memref sig .tc .vmem S1000x3x64 .f32) (h2 : a2.IsWhole) (a3 : Memref sig .tc .vmem S1000x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : ¬cond2_0 i) (x0 x1 : Vec F S1000x3x64 .f32) (x2 : Vec F S1000x64 .f32) (xo4 xo5 : Vec F S1x64 .f32) :
    out2_B_3 c i a1 h1 a2 h2 a3 h3 a4 h4 a5 h5 a6 h6 hc x0 x1 x2 xo4 xo5 = k2_pay5 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  sl_unfold_words
  rw [View.canon_unit_zero hz2]
  simp only [View.readAt_eq_ld, h1.read_unread, h2.read_unread, h3.read_unread,
    View.ld_unit_zero (S := S1000x3x64) hz3, View.ld_unit_zero (S := S1000x64) hz2]

/-- Later points: the row of sums grows from what the point before left. -/
theorem out_B_4 (c : Dev nD) (i : grid2.Coords) (a1 : Memref sig .tc .vmem S1000x3x64 .f32) (h1 : a1.IsWhole) (a2 : Memref sig .tc .vmem S1000x3x64 .f32) (h2 : a2.IsWhole) (a3 : Memref sig .tc .vmem S1000x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : ¬cond2_0 i) (x0 x1 : Vec F S1000x3x64 .f32) (x2 : Vec F S1000x64 .f32) (xo4 xo5 : Vec F S1x64 .f32) :
    out2_B_4 c i a1 h1 a2 h2 a3 h3 a4 h4 a5 h5 a6 h6 hc x0 x1 x2 xo4 xo5 = k2_pay1 (k2_pay5 x0 x1 x2) (k2_pay6 xo4) := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  sl_unfold_words
  rw [View.canon_unit_zero hz2]
  simp only [View.readAt_eq_ld, h1.read_unread, h2.read_unread, h3.read_unread, h5.read_unread,
    View.ld_unit_zero (S := S1000x3x64) hz3, View.ld_unit_zero (S := S1000x64) hz2, View.ld_unit_zero (S := S1x64) hz2]

/-- Later points: the row of sums of squares grows from what the point before left. -/
theorem out_B_5 (c : Dev nD) (i : grid2.Coords) (a1 : Memref sig .tc .vmem S1000x3x64 .f32) (h1 : a1.IsWhole) (a2 : Memref sig .tc .vmem S1000x3x64 .f32) (h2 : a2.IsWhole) (a3 : Memref sig .tc .vmem S1000x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : ¬cond2_0 i) (x0 x1 : Vec F S1000x3x64 .f32) (x2 : Vec F S1000x64 .f32) (xo4 xo5 : Vec F S1x64 .f32) :
    out2_B_5 c i a1 h1 a2 h2 a3 h3 a4 h4 a5 h5 a6 h6 hc x0 x1 x2 xo4 xo5 = k2_pay2 (k2_pay5 x0 x1 x2) xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  sl_unfold_words
  rw [View.canon_unit_zero hz2]
  simp only [View.readAt_eq_ld, h1.read_unread, h2.read_unread, h3.read_unread, h6.read_unread,
    View.ld_unit_zero (S := S1000x3x64) hz3, View.ld_unit_zero (S := S1000x64) hz2, View.ld_unit_zero (S := S1x64) hz2]

end Pieces

/-! ## The body's arithmetic at an index, over the extended reals -/

section Payload

/-- Slab `k` of a [1000,3,64] block viewed as [1000,64] reads the block at (r, k, d). -/
theorem slab_apply (x : Vec Ideal S1000x3x64 .f32) (k : Fin 3) (off : Fin 3 → Nat) (hoff : off = ![0, k.val, 0])
    (hs : S1000x3x64.Slices off S1000x1x64)
    (hc : S1000x1x64.ShapeCasts S1000x64) (r : Fin 1000) (d : Fin 64) :
    shapeCast S1000x64 (extractStridedSlice S1000x1x64 off x hs) hc (ix2 r d) = x (ix3 r k d) := by
  subst hoff
  refine (shapeCast_apply _ _ (ix2 r d) (ix3 r (0 : Fin 1) d) ?_).trans ?_
  · rw [Shape.rowMajor_val_three, Shape.rowMajor_val_two]
    show (r.val * 1 + 0) * 64 + d.val = r.val * 64 + d.val
    omega
  · exact extractStridedSlice_apply _ _ _ _ (ix3 r k d) (fun a => match a with
      | ⟨0, _⟩ => by show r.val = 0 + r.val; omega
      | ⟨1, _⟩ => by show k.val = k.val + 0; omega
      | ⟨2, _⟩ => by show d.val = 0 + d.val; omega)

/-- The mixed block at (r, d): the own image plus a third of the three hops' quotients. -/
theorem pay5_apply (x0 x1 : Vec Ideal S1000x3x64 .f32) (x2 : Vec Ideal S1000x64 .f32) (r : Fin 1000) (d : Fin 64) :
    k2_pay5 (F := Ideal) x0 x1 x2 (ix2 r d)
      = x2 (ix2 r d) + third * ∑ k : Fin 3, Ideal.div (x0 (ix3 r k d)) (x1 (ix3 r k d) + aggEps) := by
  rw [Fin.sum_univ_three]
  unfold k2_pay5
  simp only [addf_apply, mulf_apply, divf_apply, broadcast_apply, shapeCast_self,
    slab_apply x0 0 ![0, 0, 0] rfl, slab_apply x0 1 ![0, 1, 0] rfl, slab_apply x0 2 ![0, 2, 0] rfl,
    slab_apply x1 0 ![0, 0, 0] rfl, slab_apply x1 1 ![0, 1, 0] rfl, slab_apply x1 2 ![0, 2, 0] rfl]
  rfl

end Payload

section PayloadSums

/-- Inserting row `k` before column `d` gives the index (k, d). -/
theorem lift_row (h : S1000x64.Reduces [0] S64) (d : Fin 64) (k : Fin 1000) : h.lift (ix1 d) k = ix2 k d := by
  funext a; apply Fin.ext
  match a with
  | ⟨0, _⟩ => rfl
  | ⟨1, _⟩ => rfl

/-- The sum over the rows of a [1000,64] block, viewed as one row, at column `d`. -/
theorem rowsum_apply (v : FVec Ideal S1000x64 .f32) (h : S1000x64.Reduces [0] S64) (hφ : FKind.Formats .f32)
    (hacc : (0x00000000#32 : BitVec 32) = FKind.add.neutral .f32 hφ) (hc : S64.ShapeCasts S1x64) (d : Fin 64) :
    shapeCast S1x64 (multiReduction .add [0] S64 v 0x00000000#32 h hφ hacc) hc (ix2 (0 : Fin 1) d)
      = ∑ r : Fin 1000, v (ix2 r d) := by
  refine (shapeCast_apply _ _ (ix2 (0 : Fin 1) d) (ix1 d) ?_).trans ?_
  · rw [Shape.rowMajor_val_one, Shape.rowMajor_val_two]
    show d.val = 0 * 64 + d.val
    omega
  · refine (Ideal.multiReduction_add_single v 0x00000000#32 h hφ hacc (ix1 d)).trans ?_
    exact Finset.sum_congr rfl fun k _ => congrArg v (lift_row h d k)

/-- The row of sums after a point: what it held plus the block's column sums. -/
theorem pay1_apply (v34 : FVec Ideal S1000x64 .f32) (v37 : FVec Ideal S1x64 .f32) (d : Fin 64) :
    k2_pay1 (F := Ideal) v34 v37 (ix2 (0 : Fin 1) d) = v37 (ix2 (0 : Fin 1) d) + ∑ r : Fin 1000, v34 (ix2 r d) := by
  unfold k2_pay1
  exact congrArg (v37 (ix2 (0 : Fin 1) d) + ·) (rowsum_apply v34 _ _ _ _ d)

/-- The row of sums of squares after a point: what it held plus the column sums of the block's squares. -/
theorem pay2_apply (v34 : FVec Ideal S1000x64 .f32) (v42 : Vec Ideal S1x64 .f32) (d : Fin 64) :
    k2_pay2 (F := Ideal) v34 v42 (ix2 (0 : Fin 1) d)
      = v42 (ix2 (0 : Fin 1) d) + ∑ r : Fin 1000, v34 (ix2 r d) * v34 (ix2 r d) := by
  unfold k2_pay2
  show shapeCast S1x64 v42 _ (ix2 (0 : Fin 1) d) + _ = _
  rw [shapeCast_self]
  exact congrArg (v42 (ix2 (0 : Fin 1) d) + ·) (rowsum_apply (mulf v34 v34) _ _ _ _ d)

/-- The two reset rows are zero. -/
theorem pay3_apply (j : S1x64.Idx) : k2_pay3 (F := Ideal) j = 0 := Ideal.ofBits_zero_f32
theorem pay4_apply (j : S1x64.Idx) : k2_pay4 (F := Ideal) j = 0 := Ideal.ofBits_zero_f32
/-- The row of sums is read as it is. -/
theorem pay6_eq (v : Vec Ideal S1x64 .f32) : k2_pay6 (F := Ideal) v = v := shapeCast_self v _

end PayloadSums

/-! ## The input blocks of a point are rows `1000 t … 1000 t + 999` of their arrays -/

/-- The three input blocks of point `t` and the three arrays they are cut from, at their literal shapes. -/
abbrev numBlk (c : Dev nD) (t : Fin cfg2.N) : Vec Ideal S1000x3x64 .f32 := iblk2 V c 0 t
abbrev denBlk (c : Dev nD) (t : Fin cfg2.N) : Vec Ideal S1000x3x64 .f32 := iblk2 V c 1 t
abbrev ownBlk (c : Dev nD) (t : Fin cfg2.N) : Vec Ideal S1000x64 .f32 := iblk2 V c 2 t
abbrev numArr (c : Dev nD) : Snk.Idx → EReal := V c main_v20
abbrev denArr (c : Dev nD) : Snk.Idx → EReal := V c main_v24
abbrev ownArr (c : Dev nD) : Sn.Idx → EReal := V c main_v0_0

theorem lt50 (t : Fin cfg2.N) : t.val < 50 := lt_of_lt_of_eq t.isLt (show cfg2.N = 50 from N_2)
theorem row_lt (t : Fin cfg2.N) (r : Fin 1000) : 1000 * t.val + r.val < 50000 := by
  have := lt50 t; have := r.isLt; omega

/-- The block index of every window at point `t`: row block `t` for the four tiled windows, the one block for the two rows. -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem numBlk_apply (c : Dev nD) (t : Fin cfg2.N) (r : Fin 1000) (k : Fin 3) (d : Fin 64) :
    numBlk V c t (ix3 r k d) = numArr V c (ix3 ⟨1000 * t.val + r.val, row_lt t r⟩ k d) := by
  obtain ⟨e0, e1, e2, -⟩ := idx_facts t
  show V c main_v20 (((cfg2.win 0).blk t).view.emb (ix3 r k d)) = V c main_v20 _
  refine congrArg (V c main_v20) (funext fun a => Fin.ext ?_)
  match a with
  | ⟨0, _⟩ => show win2_0.index t (0 : Fin 3) * 1000 + 1 * r.val = 1000 * t.val + r.val; rw [e0]; omega
  | ⟨1, _⟩ => show win2_0.index t (1 : Fin 3) * 3 + 1 * k.val = k.val; rw [e1]; omega
  | ⟨2, _⟩ => show win2_0.index t (2 : Fin 3) * 64 + 1 * d.val = d.val; rw [e2]; omega

theorem denBlk_apply (c : Dev nD) (t : Fin cfg2.N) (r : Fin 1000) (k : Fin 3) (d : Fin 64) :
    denBlk V c t (ix3 r k d) = denArr V c (ix3 ⟨1000 * t.val + r.val, row_lt t r⟩ k d) := by
  obtain ⟨-, -, -, e0, e1, e2, -⟩ := idx_facts t
  show V c main_v24 (((cfg2.win 1).blk t).view.emb (ix3 r k d)) = V c main_v24 _
  refine congrArg (V c main_v24) (funext fun a => Fin.ext ?_)
  match a with
  | ⟨0, _⟩ => show win2_1.index t (0 : Fin 3) * 1000 + 1 * r.val = 1000 * t.val + r.val; rw [e0]; omega
  | ⟨1, _⟩ => show win2_1.index t (1 : Fin 3) * 3 + 1 * k.val = k.val; rw [e1]; omega
  | ⟨2, _⟩ => show win2_1.index t (2 : Fin 3) * 64 + 1 * d.val = d.val; rw [e2]; omega

theorem ownBlk_apply (c : Dev nD) (t : Fin cfg2.N) (r : Fin 1000) (d : Fin 64) :
    ownBlk V c t (ix2 r d) = ownArr V c (ix2 ⟨1000 * t.val + r.val, row_lt t r⟩ d) := by
  obtain ⟨-, -, -, -, -, -, e0, e1, -⟩ := idx_facts t
  show V c main_v0_0 (((cfg2.win 2).blk t).view.emb (ix2 r d)) = V c main_v0_0 _
  refine congrArg (V c main_v0_0) (funext fun a => Fin.ext ?_)
  match a with
  | ⟨0, _⟩ => show win2_2.index t (0 : Fin 2) * 1000 + 1 * r.val = 1000 * t.val + r.val; rw [e0]; omega
  | ⟨1, _⟩ => show win2_2.index t (1 : Fin 2) * 64 + 1 * d.val = d.val; rw [e1]; omega

/-- The mixed block of point `t` at (r, d) is the mixed array at row `1000 t + r`. -/
theorem blk_mix (c : Dev nD) (t : Fin cfg2.N) (r : Fin 1000) (d : Fin 64) :
    k2_pay5 (F := Ideal) (numBlk V c t) (denBlk V c t) (ownBlk V c t) (ix2 r d)
      = mix (numArr V c) (denArr V c) (ownArr V c) (ix2 ⟨1000 * t.val + r.val, row_lt t r⟩ d) := by
  refine (pay5_apply (numBlk V c t) (denBlk V c t) (ownBlk V c t) r d).trans ?_
  show _ = ownArr V c (ix2 ⟨1000 * t.val + r.val, row_lt t r⟩ d) + third * ∑ k : Fin 3,
    Ideal.div (numArr V c (ix3 ⟨1000 * t.val + r.val, row_lt t r⟩ k d))
      (denArr V c (ix3 ⟨1000 * t.val + r.val, row_lt t r⟩ k d) + aggEps)
  rw [ownBlk_apply V c t r d]
  refine congrArg (fun s => _ + third * s) (Finset.sum_congr rfl fun k _ => ?_)
  rw [numBlk_apply V c t r k d, denBlk_apply V c t r k d]

/-! ## The two carried rows: column sums over the rows met so far -/

/-- The mixed array. -/
abbrev mixArr (c : Dev nD) : Sn.Idx → EReal := mix (numArr V c) (denArr V c) (ownArr V c)
/-- Its squares. -/
abbrev sqArr (c : Dev nD) : Sn.Idx → EReal := fun j => mixArr V c j * mixArr V c j

/-- A column of a node array read at a natural number: zero past the last node. -/
def colAt (G : Sn.Idx → EReal) (d : Fin 64) (n : ℕ) : EReal := if h : n < 50000 then G (ix2 ⟨n, h⟩ d) else 0

theorem colAt_lt (G : Sn.Idx → EReal) (d : Fin 64) (n : ℕ) (h : n < 50000) : colAt G d n = G (ix2 ⟨n, h⟩ d) := dif_pos h

/-- The column sum over all nodes is the sum of the column over the first 50000 naturals. -/
theorem colSum_eq_range (G : Sn.Idx → EReal) (d : Fin 64) : colSum G d = ∑ n ∈ Finset.range 50000, colAt G d n := by
  unfold colSum
  rw [Finset.sum_range]
  exact Finset.sum_congr rfl fun n _ => (colAt_lt G d n.val n.isLt).symm

/-- The column sum over the 1000 rows of block `t`. -/
theorem blockSum_eq_range (G : Sn.Idx → EReal) (d : Fin 64) (t : ℕ) (hb : ∀ r : Fin 1000, 1000 * t + r.val < 50000) :
    ∑ r : Fin 1000, G (ix2 ⟨1000 * t + r.val, hb r⟩ d) = ∑ r ∈ Finset.range 1000, colAt G d (1000 * t + r) := by
  rw [Finset.sum_range]
  exact Finset.sum_congr rfl fun r _ => (colAt_lt G d _ (hb r)).symm

/-- What a point adds to the row of sums: the column sums of its mixed block, rows `1000 t … 1000 t + 999`. -/
theorem blk_sum (c : Dev nD) (t : Fin cfg2.N) (d : Fin 64) :
    ∑ r : Fin 1000, k2_pay5 (F := Ideal) (numBlk V c t) (denBlk V c t) (ownBlk V c t) (ix2 r d)
      = ∑ r ∈ Finset.range 1000, colAt (mixArr V c) d (1000 * t.val + r) :=
  (Finset.sum_congr rfl fun r _ => blk_mix V c t r d).trans (blockSum_eq_range (mixArr V c) d t.val (row_lt t))

/-- What a point adds to the row of sums of squares. -/
theorem blk_sq_sum (c : Dev nD) (t : Fin cfg2.N) (d : Fin 64) :
    ∑ r : Fin 1000, k2_pay5 (F := Ideal) (numBlk V c t) (denBlk V c t) (ownBlk V c t) (ix2 r d)
        * k2_pay5 (F := Ideal) (numBlk V c t) (denBlk V c t) (ownBlk V c t) (ix2 r d)
      = ∑ r ∈ Finset.range 1000, colAt (sqArr V c) d (1000 * t.val + r) :=
  (Finset.sum_congr rfl fun r _ => by rw [blk_mix V c t r d]).trans (blockSum_eq_range (sqArr V c) d t.val (row_lt t))

/-- At the first point the two rows are zeroed and then take the first block's sums. -/
theorem first_apply (c : Dev nD) (t : Fin cfg2.N) (h0 : t.val % 50 = 0) (d : Fin 64) :
    (outsAt2 V c t.val t.isLt).2.1 (ix2 (0 : Fin 1) d) = ∑ r ∈ Finset.range 1000, colAt (mixArr V c) d (1000 * t.val + r)
    ∧ (outsAt2 V c t.val t.isLt).2.2 (ix2 (0 : Fin 1) d) = ∑ r ∈ Finset.range 1000, colAt (sqArr V c) d (1000 * t.val + r) := by
  rw [outsAt2_A V c t h0]
  dsimp only
  rw [out_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (numBlk V c t) (denBlk V c t) (ownBlk V c t),
    out_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (numBlk V c t) (denBlk V c t) (ownBlk V c t)]
  constructor
  · refine (pay1_apply _ _ d).trans ?_
    rw [pay6_eq, pay3_apply, zero_add]
    exact blk_sum V c t d
  · refine (pay2_apply _ _ d).trans ?_
    rw [pay4_apply, zero_add]
    exact blk_sq_sum V c t d

/-- At a later point each row is what the point before left plus the block's sums. -/
theorem next_apply (c : Dev nD) (t : Fin cfg2.N) (h0 : ¬t.val % 50 = 0) (d : Fin 64) :
    (outsAt2 V c t.val t.isLt).2.1 (ix2 (0 : Fin 1) d)
      = (outsAt2 V c (t.val - 1) (Nat.lt_of_le_of_lt (Nat.sub_le _ _) t.isLt)).2.1 (ix2 (0 : Fin 1) d)
        + ∑ r ∈ Finset.range 1000, colAt (mixArr V c) d (1000 * t.val + r)
    ∧ (outsAt2 V c t.val t.isLt).2.2 (ix2 (0 : Fin 1) d)
      = (outsAt2 V c (t.val - 1) (Nat.lt_of_le_of_lt (Nat.sub_le _ _) t.isLt)).2.2 (ix2 (0 : Fin 1) d)
        + ∑ r ∈ Finset.range 1000, colAt (sqArr V c) d (1000 * t.val + r) := by
  rw [outsAt2_B V c t h0]
  dsimp only
  rw [out_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (numBlk V c t) (denBlk V c t) (ownBlk V c t)
      (outsAt2 V c (t.val - 1) (Nat.lt_of_le_of_lt (Nat.sub_le _ _) t.isLt)).2.1
      (outsAt2 V c (t.val - 1) (Nat.lt_of_le_of_lt (Nat.sub_le _ _) t.isLt)).2.2,
    out_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (numBlk V c t) (denBlk V c t) (ownBlk V c t)
      (outsAt2 V c (t.val - 1) (Nat.lt_of_le_of_lt (Nat.sub_le _ _) t.isLt)).2.1
      (outsAt2 V c (t.val - 1) (Nat.lt_of_le_of_lt (Nat.sub_le _ _) t.isLt)).2.2]
  constructor
  · refine (pay1_apply _ _ d).trans ?_
    rw [pay6_eq, blk_sum V c t d]
  · refine (pay2_apply _ _ d).trans ?_
    rw [blk_sq_sum V c t d]

/-- After point `n` the two rows hold the column sums over the rows below `1000 (n + 1)`. -/
theorem sums_eq (c : Dev nD) : ∀ (n : ℕ) (h : n < cfg2.N) (d : Fin 64),
    (outsAt2 V c n h).2.1 (ix2 (0 : Fin 1) d) = ∑ x ∈ Finset.range (1000 * (n + 1)), colAt (mixArr V c) d x
    ∧ (outsAt2 V c n h).2.2 (ix2 (0 : Fin 1) d) = ∑ x ∈ Finset.range (1000 * (n + 1)), colAt (sqArr V c) d x
  | 0, h, d => by
    obtain ⟨e4, e5⟩ := first_apply V c ⟨0, h⟩ rfl d
    rw [show 1000 * (0 + 1) = 0 + 1000 from rfl, Finset.sum_range_add, Finset.sum_range_add, Finset.range_zero,
      Finset.sum_empty, Finset.sum_empty, zero_add, zero_add]
    exact ⟨e4, e5⟩
  | n + 1, h, d => by
    have h' : n + 1 < 50 := lt_of_lt_of_eq h (show cfg2.N = 50 from N_2)
    have hB : ¬(⟨n + 1, h⟩ : Fin cfg2.N).val % 50 = 0 := by dsimp only; omega
    obtain ⟨e4, e5⟩ := next_apply V c ⟨n + 1, h⟩ hB d
    obtain ⟨i4, i5⟩ := sums_eq c n (Nat.lt_of_succ_lt h) d
    rw [show 1000 * (n + 1 + 1) = 1000 * (n + 1) + 1000 from by omega, Finset.sum_range_add, Finset.sum_range_add,
      ← i4, ← i5]
    exact ⟨e4, e5⟩

/-! ## The first output: every point writes back its mixed block, and the blocks tile the array -/

/-- What point `t` leaves in the first output's buffer is its mixed block, in both cases. -/
theorem blk3_eq (c : Dev nD) (t : Fin cfg2.N) :
    (outsAt2 V c t.val t.isLt).1 = k2_pay5 (numBlk V c t) (denBlk V c t) (ownBlk V c t) := by
  by_cases h0 : t.val % 50 = 0
  · rw [outsAt2_A V c t h0]
    dsimp only
    exact out_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (numBlk V c t) (denBlk V c t) (ownBlk V c t)
  · rw [outsAt2_B V c t h0]
    dsimp only
    exact out_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (numBlk V c t) (denBlk V c t) (ownBlk V c t)
      (outsAt2 V c (t.val - 1) (Nat.lt_of_le_of_lt (Nat.sub_le _ _) t.isLt)).2.1 (outsAt2 V c (t.val - 1) (Nat.lt_of_le_of_lt (Nat.sub_le _ _) t.isLt)).2.2

/-- The mixed block at a block index is the mixed array at the array index under it. -/
theorem mix_at_emb (c : Dev nD) (t : Fin cfg2.N) (y : S1000x64.Idx) :
    k2_pay5 (F := Ideal) (numBlk V c t) (denBlk V c t) (ownBlk V c t) y
      = mixArr V c (((cfg2.win 3).blk t).view.emb y) := by
  obtain ⟨r, d, rfl⟩ : ∃ (r : Fin 1000) (d : Fin 64), y = ix2 r d := ⟨y 0, y 1, eq_ix2 y⟩
  refine (blk_mix V c t r d).trans (congrArg (mixArr V c) ?_)
  obtain ⟨-, -, -, -, -, -, -, -, e0, e1, -⟩ := idx_facts t
  funext a; apply Fin.ext
  match a with
  | ⟨0, _⟩ => show 1000 * t.val + r.val = win2_3.index t (0 : Fin 2) * 1000 + 1 * r.val; rw [e0]; omega
  | ⟨1, _⟩ => show d.val = win2_3.index t (1 : Fin 2) * 64 + 1 * d.val; rw [e1]; omega

/-- What point `t` writes back to the first output is block `t` of the mixed array. -/
theorem flushed3 (c : Dev nD) (t : Fin cfg2.N) :
    (dat2 V c).flushed 3 t = ((cfg2.win 3).blk t).view.read (Elt Ideal) (mixArr V c) := by
  show (cfg2.win 3).cut (grid2.coords t) ((dat2 V c).after 3 t) = _
  rw [after2_3, blk3_eq V c t]
  funext y
  exact mix_at_emb V c t y

/-- An index of the first output's array is in point `t`'s block iff each coordinate is in the block's range. -/
theorem mem_blk3 (t : Fin cfg2.N) (i : S50000x64.Idx) :
    i ∈ ((cfg2.win 3).blk t).view.set ↔ ∀ a : Fin 2, win2_3.index t a * S1000x64.size a ≤ (i a).val
      ∧ (i a).val < win2_3.index t a * S1000x64.size a + S1000x64.size a := by
  show i ∈ ((View.whole main_v25_0).slice (win2_3.rect t)).set ↔ _
  rw [View.set_slice_whole, Rect.mem_set_unit]
  exact Iff.rfl

/-- Row `n` lies in the block of point `n / 1000`. -/
theorem cover3 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 50 := N_2
  have hq : (i 0).val / 1000 < cfg2.N := by rw [hN]; omega
  refine ⟨⟨(i 0).val / 1000, hq⟩, flush2_3 _, ?_⟩
  obtain ⟨-, -, -, -, -, -, -, -, e0, e1, -⟩ := idx_facts ⟨(i 0).val / 1000, hq⟩
  rw [mem_blk3]
  intro a
  match a with
  | ⟨0, _⟩ =>
    show win2_3.index ⟨(i 0).val / 1000, hq⟩ (0 : Fin 2) * 1000 ≤ (i 0).val
      ∧ (i 0).val < win2_3.index ⟨(i 0).val / 1000, hq⟩ (0 : Fin 2) * 1000 + 1000
    rw [e0]
    show (i 0).val / 1000 * 1000 ≤ (i 0).val ∧ (i 0).val < (i 0).val / 1000 * 1000 + 1000
    omega
  | ⟨1, _⟩ =>
    show win2_3.index ⟨(i 0).val / 1000, hq⟩ (1 : Fin 2) * 64 ≤ (i 1).val
      ∧ (i 1).val < win2_3.index ⟨(i 0).val / 1000, hq⟩ (1 : Fin 2) * 64 + 64
    rw [e1]
    omega

/-! ## The two rows: written back once, after the last point, when they hold the sums over all rows -/

theorem last_of_mod (t : Fin cfg2.N) (h : t.val % 50 = 49) : t.val = 49 := by have := lt50 t; omega

/-- The last point. -/
abbrev tLast : Fin cfg2.N := ⟨49, by rw [show cfg2.N = 50 from N_2]; decide⟩

/-- The array index under a block index of a one-row window keeps its column. -/
theorem emb4_col (t : Fin cfg2.N) (z : Fin 1) (d : Fin 64) : (((cfg2.win 4).blk t).view.emb (ix2 z d)) 1 = d := by
  obtain ⟨-, -, -, -, -, -, -, -, -, -, -, e1, -⟩ := idx_facts t
  apply Fin.ext
  show win2_4.index t (1 : Fin 2) * 64 + 1 * d.val = d.val
  rw [e1]; omega

theorem emb5_col (t : Fin cfg2.N) (z : Fin 1) (d : Fin 64) : (((cfg2.win 5).blk t).view.emb (ix2 z d)) 1 = d := by
  obtain ⟨-, -, -, -, -, -, -, -, -, -, -, -, -, e1⟩ := idx_facts t
  apply Fin.ext
  show win2_5.index t (1 : Fin 2) * 64 + 1 * d.val = d.val
  rw [e1]; omega

/-- After the last point the row of sums holds every column's sum over all nodes. -/
theorem row4_at (c : Dev nD) (t : Fin cfg2.N) (h49 : t.val = 49) (y : S1x64.Idx) :
    (outsAt2 V c t.val t.isLt).2.1 y = colSum (mixArr V c) ((((cfg2.win 4).blk t).view.emb y) 1) := by
  obtain ⟨z, d, rfl⟩ : ∃ (z : Fin 1) (d : Fin 64), y = ix2 z d := ⟨y 0, y 1, eq_ix2 y⟩
  obtain rfl : z = 0 := Subsingleton.elim _ _
  rw [emb4_col t 0 d, colSum_eq_range, (sums_eq V c t.val t.isLt d).1, h49]

theorem row5_at (c : Dev nD) (t : Fin cfg2.N) (h49 : t.val = 49) (y : S1x64.Idx) :
    (outsAt2 V c t.val t.isLt).2.2 y = colSum (sqArr V c) ((((cfg2.win 5).blk t).view.emb y) 1) := by
  obtain ⟨z, d, rfl⟩ : ∃ (z : Fin 1) (d : Fin 64), y = ix2 z d := ⟨y 0, y 1, eq_ix2 y⟩
  obtain rfl : z = 0 := Subsingleton.elim _ _
  rw [emb5_col t 0 d, colSum_eq_range, (sums_eq V c t.val t.isLt d).2, h49]

/-- A row that is, index by index, a function of the array index under it is the block read of that function
    (stated for an arbitrary function, so that nothing under it is opened). -/
theorem cut_eq_read4 (t : Fin cfg2.N) (X : Vec Ideal S1x64 .f32) (G : S1x64.Idx → EReal)
    (h : ∀ y : S1x64.Idx, X y = G (((cfg2.win 4).blk t).view.emb y)) :
    (cfg2.win 4).cut (grid2.coords t) X = ((cfg2.win 4).blk t).view.read (Elt Ideal) G := by
  funext y
  exact h y

theorem cut_eq_read5 (t : Fin cfg2.N) (X : Vec Ideal S1x64 .f32) (G : S1x64.Idx → EReal)
    (h : ∀ y : S1x64.Idx, X y = G (((cfg2.win 5).blk t).view.emb y)) :
    (cfg2.win 5).cut (grid2.coords t) X = ((cfg2.win 5).blk t).view.read (Elt Ideal) G := by
  funext y
  exact h y

/-- The one write-back of the row of sums writes the column sums of the mixed array. -/
theorem flushed4 (c : Dev nD) (t : Fin cfg2.N) (hf : (cfg2.win 4).flush t = true) :
    (dat2 V c).flushed 4 t = ((cfg2.win 4).blk t).view.read (Elt Ideal) (fun i => colSum (mixArr V c) (i 1)) := by
  have h49 : t.val = 49 := last_of_mod t ((flush2_4 t).mp hf)
  show (cfg2.win 4).cut (grid2.coords t) ((dat2 V c).after 4 t) = _
  rw [after2_4]
  exact cut_eq_read4 t _ (fun i => colSum (mixArr V c) (i 1)) (row4_at V c t h49)

theorem flushed5 (c : Dev nD) (t : Fin cfg2.N) (hf : (cfg2.win 5).flush t = true) :
    (dat2 V c).flushed 5 t = ((cfg2.win 5).blk t).view.read (Elt Ideal) (fun i => colSum (sqArr V c) (i 1)) := by
  have h49 : t.val = 49 := last_of_mod t ((flush2_5 t).mp hf)
  show (cfg2.win 5).cut (grid2.coords t) ((dat2 V c).after 5 t) = _
  rw [after2_5]
  exact cut_eq_read5 t _ (fun i => colSum (sqArr V c) (i 1)) (row5_at V c t h49)

theorem mem_blk4 (t : Fin cfg2.N) (i : S1x64.Idx) :
    i ∈ ((cfg2.win 4).blk t).view.set ↔ ∀ a : Fin 2, win2_4.index t a * S1x64.size a ≤ (i a).val
      ∧ (i a).val < win2_4.index t a * S1x64.size a + S1x64.size a := by
  show i ∈ ((View.whole main_v25_1).slice (win2_4.rect t)).set ↔ _
  rw [View.set_slice_whole, Rect.mem_set_unit]
  exact Iff.rfl

theorem mem_blk5 (t : Fin cfg2.N) (i : S1x64.Idx) :
    i ∈ ((cfg2.win 5).blk t).view.set ↔ ∀ a : Fin 2, win2_5.index t a * S1x64.size a ≤ (i a).val
      ∧ (i a).val < win2_5.index t a * S1x64.size a + S1x64.size a := by
  show i ∈ ((View.whole main_v25_2).slice (win2_5.rect t)).set ↔ _
  rw [View.set_slice_whole, Rect.mem_set_unit]
  exact Iff.rfl

/-- The last point's one block is the whole row. -/
theorem cover4 (i : S1x64.Idx) :
    ∃ t : Fin cfg2.N, (cfg2.win 4).flush t = true ∧ i ∈ ((cfg2.win 4).blk t).view.set := by
  have hi0 : (i 0).val < 1 := (i 0).isLt
  have hi1 : (i 1).val < 64 := (i 1).isLt
  refine ⟨tLast, (flush2_4 tLast).mpr rfl, ?_⟩
  obtain ⟨-, -, -, -, -, -, -, -, -, -, e0, e1, -⟩ := idx_facts tLast
  rw [mem_blk4]
  intro a
  match a with
  | ⟨0, _⟩ =>
    show win2_4.index tLast (0 : Fin 2) * 1 ≤ (i 0).val ∧ (i 0).val < win2_4.index tLast (0 : Fin 2) * 1 + 1
    rw [e0]; omega
  | ⟨1, _⟩ =>
    show win2_4.index tLast (1 : Fin 2) * 64 ≤ (i 1).val ∧ (i 1).val < win2_4.index tLast (1 : Fin 2) * 64 + 64
    rw [e1]; omega

theorem cover5 (i : S1x64.Idx) :
    ∃ t : Fin cfg2.N, (cfg2.win 5).flush t = true ∧ i ∈ ((cfg2.win 5).blk t).view.set := by
  have hi0 : (i 0).val < 1 := (i 0).isLt
  have hi1 : (i 1).val < 64 := (i 1).isLt
  refine ⟨tLast, (flush2_5 tLast).mpr rfl, ?_⟩
  obtain ⟨-, -, -, -, -, -, -, -, -, -, -, -, e0, e1⟩ := idx_facts tLast
  rw [mem_blk5]
  intro a
  match a with
  | ⟨0, _⟩ =>
    show win2_5.index tLast (0 : Fin 2) * 1 ≤ (i 0).val ∧ (i 0).val < win2_5.index tLast (0 : Fin 2) * 1 + 1
    rw [e0]; omega
  | ⟨1, _⟩ =>
    show win2_5.index tLast (1 : Fin 2) * 64 ≤ (i 1).val ∧ (i 1).val < win2_5.index tLast (1 : Fin 2) * 64 + 64
    rw [e1]; omega

/-! ## The three output arrays after the run -/

/-- The mixing region's first output array after its run: each node's own image plus the hops' mean quotient. -/
theorem mixed (c : Dev nD) :
    (dat2 (F := Ideal) V c).arrAt 3 cfg2.N = mix (V c main_v20) (V c main_v24) (V c main_v0_0) :=
  (dat2 V c).arrAt_eq_of_cover 3 (mixArr V c) (fun t _ => flushed3 V c t) cover3

/-- Its second output array, one row: the column sums of the first output over all nodes. -/
theorem col_sums (c : Dev nD) :
    (dat2 (F := Ideal) V c).arrAt 4 cfg2.N = fun i => colSum (mix (V c main_v20) (V c main_v24) (V c main_v0_0)) (i 1) :=
  (dat2 V c).arrAt_eq_of_cover 4 (fun i => colSum (mixArr V c) (i 1)) (flushed4 V c) cover4

/-- Its third output array, one row: the column sums of the first output's squares. -/
theorem col_sq_sums (c : Dev nD) :
    (dat2 (F := Ideal) V c).arrAt 5 cfg2.N = fun i => colSum (fun j => mix (V c main_v20) (V c main_v24) (V c main_v0_0) j * mix (V c main_v20) (V c main_v24) (V c main_v0_0) j) (i 1) :=
  (dat2 V c).arrAt_eq_of_cover 5 (fun i => colSum (sqArr V c) (i 1)) (flushed5 V c) cover5

end Cert.KernelIdeal.Mix

end
-- ==== Proof.Reg3.lean ====
import proofs.«410264_j48739288875406_2_alg».proof.Proof.Gen.KernelIdeal.Frame
import proofs.«410264_j48739288875406_2_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Norm

open Cert.KernelIdeal Cert.KernelIdeal.Gen Cert.Gated

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The stored value at row `p`, column `q` of a block: the four one-row operands are read at column `q`
    (a row broadcast over the block's rows), the same-shape casts are identities, and the result is
    `max (g · (x − μ) · rsqrt (σ² + ε) + β) 0`. -/
theorem pay_at (x : Vec Ideal S5000x64 .f32) (g mu vr b : Vec Ideal S1x64 .f32) (p : Fin 5000) (q : Fin 64) :
    k3_pay1 (F := Ideal) x g mu vr b (ix2 p q)
      = max (g (ix2 0 q) * (x (ix2 p q) - mu (ix2 0 q)) * Ideal.rsqrt (vr (ix2 0 q) + normEps) + b (ix2 0 q))
          (Ideal.ofBits .f32 0x00000000#32) := by
  unfold k3_pay1
  simp only [shapeCast_self]
  show max (broadcastTo S5000x64 g broadcasts_S1x64_S5000x64 (ix2 p q)
        * (x (ix2 p q) - broadcastTo S5000x64 mu broadcasts_S1x64_S5000x64 (ix2 p q))
        * broadcastTo S5000x64 (fun k : S1x64.Idx => Ideal.rsqrt (vr k + normEps)) broadcasts_S1x64_S5000x64 (ix2 p q)
        + broadcastTo S5000x64 b broadcasts_S1x64_S5000x64 (ix2 p q)) (Ideal.ofBits .f32 0x00000000#32) = _
  rw [broadcastTo_1b_ab_apply g, broadcastTo_1b_ab_apply mu, broadcastTo_1b_ab_apply b,
    broadcastTo_1b_ab_apply (fun k : S1x64.Idx => Ideal.rsqrt (vr k + normEps))]

/-- The normalised array at node `n`, column `d`, with the column statistics and the scale and shift given
    as one-row arrays. -/
theorem norm_at (X : Sn.Idx → EReal) (M Vr G B : Sr.Idx → EReal) (n : Fin 50000) (d : Fin 64) :
    norm X (fun d => M (ix2 0 d)) (fun d => Vr (ix2 0 d)) (fun i => G (ix2 0 (i 0))) (fun i => B (ix2 0 (i 0))) (ix2 n d)
      = max (G (ix2 0 d) * (X (ix2 n d) - M (ix2 0 d)) * Ideal.rsqrt (Vr (ix2 0 d) + normEps) + B (ix2 0 d))
          (Ideal.ofBits .f32 0x00000000#32) := rfl

/-- The arrays as the region finds them, at their literal types: the node values, and the one-row arrays of
    column means, column variances, scales and shifts. -/
abbrev xs (c : Dev nD) : Sn.Idx → EReal := V c main_v25_0
abbrev mus (c : Dev nD) : Sr.Idx → EReal := V c main_v27
abbrev vrs (c : Dev nD) : Sr.Idx → EReal := V c main_v31
abbrev gms (c : Dev nD) : Sr.Idx → EReal := V c main_v32
abbrev bts (c : Dev nD) : Sr.Idx → EReal := V c main_v33

/-- At grid point `t` the node window and the output window are at block `t` along the rows, and each
    one-row window stays at its only block (decided over the ten points). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry `(p, q)` of the node window's block at point `t` is entry `(5000 t + p, q)` of the node array. -/
theorem emb0_at (t : Fin cfg3.N) (p : Fin 5000) (q : Fin 64) (h : t.val * 5000 + p.val < 50000) :
    ((cfg3.win 0).blk t).view.emb (ix2 p q : S5000x64.Idx) = ix2 ⟨t.val * 5000 + p.val, h⟩ q := by
  obtain ⟨e0, e1, -⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

/-- The same for the output window's block. -/
theorem emb5_at (t : Fin cfg3.N) (p : Fin 5000) (q : Fin 64) (h : t.val * 5000 + p.val < 50000) :
    ((cfg3.win 5).blk t).view.emb (ix2 p q : S5000x64.Idx) = ix2 ⟨t.val * 5000 + p.val, h⟩ q := by
  obtain ⟨-, -, -, -, -, -, -, -, -, -, e0, e1⟩ := idx_facts t
  funext a; apply Fin.ext
  match a with
  | ⟨0, _⟩ => show win3_5.index t (0 : Fin 2) * 5000 + 1 * p.val = t.val * 5000 + p.val; omega
  | ⟨1, _⟩ => show win3_5.index t (1 : Fin 2) * 64 + 1 * q.val = q.val; omega

/-- A one-row window's block is its whole array at every point: entry `(0, q)` is entry `(0, q)`. -/
theorem emb1_at (t : Fin cfg3.N) (q : Fin 64) :
    ((cfg3.win 1).blk t).view.emb (ix2 (0 : Fin 1) q : S1x64.Idx) = ix2 (0 : Fin 1) q := by
  obtain ⟨-, -, e0, e1, -⟩ := idx_facts t
  funext a; apply Fin.ext
  match a with
  | ⟨0, _⟩ => show win3_1.index t (0 : Fin 2) * 1 + 1 * 0 = 0; omega
  | ⟨1, _⟩ => show win3_1.index t (1 : Fin 2) * 64 + 1 * q.val = q.val; omega

theorem emb2_at (t : Fin cfg3.N) (q : Fin 64) :
    ((cfg3.win 2).blk t).view.emb (ix2 (0 : Fin 1) q : S1x64.Idx) = ix2 (0 : Fin 1) q := by
  obtain ⟨-, -, -, -, e0, e1, -⟩ := idx_facts t
  funext a; apply Fin.ext
  match a with
  | ⟨0, _⟩ => show win3_2.index t (0 : Fin 2) * 1 + 1 * 0 = 0; omega
  | ⟨1, _⟩ => show win3_2.index t (1 : Fin 2) * 64 + 1 * q.val = q.val; omega

theorem emb3_at (t : Fin cfg3.N) (q : Fin 64) :
    ((cfg3.win 3).blk t).view.emb (ix2 (0 : Fin 1) q : S1x64.Idx) = ix2 (0 : Fin 1) q := by
  obtain ⟨-, -, -, -, -, -, e0, e1, -⟩ := idx_facts t
  funext a; apply Fin.ext
  match a with
  | ⟨0, _⟩ => show win3_3.index t (0 : Fin 2) * 1 + 1 * 0 = 0; omega
  | ⟨1, _⟩ => show win3_3.index t (1 : Fin 2) * 64 + 1 * q.val = q.val; omega

theorem emb4_at (t : Fin cfg3.N) (q : Fin 64) :
    ((cfg3.win 4).blk t).view.emb (ix2 (0 : Fin 1) q : S1x64.Idx) = ix2 (0 : Fin 1) q := by
  obtain ⟨-, -, -, -, -, -, -, -, e0, e1, -⟩ := idx_facts t
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- What point `t` writes back to the output array is block `t` of the normalised array. In the body's
    operand order the scale is window 3, the mean window 1, the variance window 2 and the shift window 4. -/
theorem norm_flushed (c : Dev nD) (t : Fin cfg3.N) :
    (dat3 (F := Ideal) V c).flushed 5 t
      = ((cfg3.win 5).blk t).view.read (Elt Ideal)
          (norm (xs V c) (fun d => mus V c (ix2 0 d)) (fun d => vrs V c (ix2 0 d))
            (fun i => gms V c (ix2 0 (i 0))) (fun i => bts V c (ix2 0 (i 0)))) := by
  show (cfg3.win 5).cut (grid3.coords t) ((dat3 (F := Ideal) V c).after 5 t) = _
  rw [after3_5]
  unfold out3_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_at (iblk3 V c 0 t) (iblk3 V c 3 t) (iblk3 V c 1 t) (iblk3 V c 2 t) (iblk3 V c 4 t) p q).trans ?_
  have ht : t.val < 10 := lt_of_lt_of_eq t.isLt N_3
  have hb : t.val * 5000 + p.val < 50000 := by have := p.isLt; omega
  show max (gms V c (((cfg3.win 3).blk t).view.emb (ix2 (0 : Fin 1) q : S1x64.Idx))
        * (xs V c (((cfg3.win 0).blk t).view.emb (ix2 p q : S5000x64.Idx))
            - mus V c (((cfg3.win 1).blk t).view.emb (ix2 (0 : Fin 1) q : S1x64.Idx)))
        * Ideal.rsqrt (vrs V c (((cfg3.win 2).blk t).view.emb (ix2 (0 : Fin 1) q : S1x64.Idx)) + normEps)
        + bts V c (((cfg3.win 4).blk t).view.emb (ix2 (0 : Fin 1) q : S1x64.Idx)))
      (Ideal.ofBits .f32 0x00000000#32)
    = norm (xs V c) (fun d => mus V c (ix2 0 d)) (fun d => vrs V c (ix2 0 d))
        (fun i => gms V c (ix2 0 (i 0))) (fun i => bts V c (ix2 0 (i 0)))
        (((cfg3.win 5).blk t).view.emb (ix2 p q : S5000x64.Idx))
  rw [emb0_at t p q hb, emb1_at t q, emb2_at t q, emb3_at t q, emb4_at t q, emb5_at t p q hb]
  exact (norm_at (xs V c) (mus V c) (vrs V c) (gms V c) (bts V c) ⟨t.val * 5000 + p.val, hb⟩ q).symm

/-- An index of the output array lies in point `t`'s block iff each coordinate lies in the block's range on
    its axis. -/
theorem mem_blk5 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v34).slice (win3_5.rect t)).set ↔ _
  rw [View.set_slice_whole, Rect.mem_set_unit]
  exact Iff.rfl

/-- The output's blocks tile its array: row `r` is written by point `r / 5000` of the ten. -/
theorem cover5 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : grid3.N = 10 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, -, -, -, -, -, -, e0, e1⟩ := idx_facts t
  refine ⟨t, flush3_5 t, ?_⟩
  rw [mem_blk5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The normalising region's output array after its run. -/
theorem normed (c : Dev nD) :
    (dat3 (F := Ideal) V c).arrAt 5 cfg3.N
      = norm (V c main_v25_0) (fun d => V c main_v27 (ix2 0 d)) (fun d => V c main_v31 (ix2 0 d))
          (fun i => V c main_v32 (ix2 0 (i 0))) (fun i => V c main_v33 (ix2 0 (i 0))) :=
  (dat3 (F := Ideal) V c).arrAt_eq_of_cover 5 _ (fun t _ => norm_flushed V c t) cover5

end Cert.KernelIdeal.Norm

end
-- ==== Proof.Gather.lean ====
import proofs.«410264_j48739288875406_2_alg».proof.Proof.Gen.KernelIdeal
import proofs.«410264_j48739288875406_2_alg».proof.Proof.Gen.ReferenceIdeal
import proofs.«410264_j48739288875406_2_alg».proof.Proof.Spec
import Idealize.ShloMosaic.Lib.ValueIdx

noncomputable section

open Idealize.ShloMosaic Idealize.ShloMosaic.TcCoe Idealize.SL.Sem
open Idealize.ShloMosaic.ValueIdx

namespace Cert.Gated

/-! ## Axes off a short list of axes -/

/-- An axis whose number differs from `b`'s is not in `[b]`. -/
theorem not_mem_axis₁ {n : Nat} {a b : Fin n} (h : a.val ≠ b.val) : a ∉ [b] :=
  fun hm => h (congrArg Fin.val (List.mem_singleton.mp hm))

/-- An axis whose number differs from `b`'s and from `c`'s is not in `[b, c]`. -/
theorem not_mem_axis₂ {n : Nat} {a b c : Fin n} (hb : a.val ≠ b.val) (hc : a.val ≠ c.val) : a ∉ [b, c] := by
  intro hm
  rcases List.mem_cons.mp hm with h | h
  · exact hb (congrArg Fin.val h)
  · exact hc (congrArg Fin.val (List.mem_singleton.mp h))

/-! ## A row gather: operand `[N, C]`, start indices `[E, 1]`, result `[E, C]`

Axis 0 of the operand is named by the start index map and collapsed, so its coordinate is the clamped start index
alone; axis 1 is the one offset axis, so its coordinate is the result's column. -/

section Row
variable {α : Type}

/-- The dimension numbers of a row gather over symbolic extents. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at `(e, c)`: column `c` of the operand's row `idx[e, 0]`, read signed and clamped into `[0, N − 1]`. -/
theorem gather_row_apply {N E C : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (c : Fin C) :
    Host.gather (rowDims N E C wf) x idx (ix2 e c) = x (ix2 (rowOf N hN (idx (ix2 e 0))) c) := by
  unfold Host.gather
  congr 1
  funext a
  refine Fin.ext ?_
  match a with
  | ⟨0, _⟩ =>
    -- the collapsed axis: no batching part, no offset part, the start index's only component
    show (rowDims N E C wf).start (ix2 e c) idx 0 + (rowDims N E C wf).batchCoord (ix2 e c) 0
      + (rowDims N E C wf).offCoord (ix2 e c) 0 = _
    have h0 : (0 : Fin 2) ∈ (rowDims N E C wf).startIndexMap := List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hsi : (rowDims N E C wf).siIdx (ix2 e c) ⟨List.idxOf (0 : Fin 2) (rowDims N E C wf).startIndexMap,
        List.idxOf_lt_length_iff.2 h0⟩ = ix2 e 0 := by
      funext b; refine Fin.ext ?_
      match b with
      | ⟨0, _⟩ => rfl
      | ⟨1, _⟩ => rfl
    rw [hsi]
    rfl
  | ⟨1, _⟩ =>
    -- the offset axis: the start is zero, the offset part is the result's column
    show (rowDims N E C wf).start (ix2 e c) idx 1 + (rowDims N E C wf).batchCoord (ix2 e c) 1
      + (rowDims N E C wf).offCoord (ix2 e c) 1 = _
    have h1 : (1 : Fin 2) ∉ (rowDims N E C wf).startIndexMap :=
      not_mem_axis₁ (show (1 : Nat) ≠ 0 from Nat.one_ne_zero)
    have hk : (1 : Fin 2) ∈ (rowDims N E C wf).sKept :=
      (GatherDims.mem_sKept _ _).mpr ⟨not_mem_axis₁ (show (1 : Nat) ≠ 0 from Nat.one_ne_zero), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Row

/-! ## A pair gather: operand `[S, N, C]`, start indices `[E, 2]`, result `[E, C]`

Axes 0 and 1 of the operand are named by the start index map (components 0 and 1 of the start index) and collapsed;
axis 2 is the one offset axis. -/

section Pair
variable {α : Type}

/-- The dimension numbers of a pair gather over symbolic extents. -/
abbrev pairDims (S N E C : Nat)
    (wf : GatherDims.WF ⟨3, ![S, N, C]⟩ ⟨2, ![E, 2]⟩ ⟨2, ![E, C]⟩ [1] [0, 1] [] [0, 1] [] 1 ![1, 1, C]) :
    GatherDims ⟨3, ![S, N, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

/-- The pair gather at `(e, c)`: column `c` of row `idx[e, 1]` of slab `idx[e, 0]`, each start index read signed and
    clamped into its axis. -/
theorem gather_pair_apply {S N E C : Nat} (hS : 0 < S) (hN : 0 < N)
    (wf : GatherDims.WF ⟨3, ![S, N, C]⟩ ⟨2, ![E, 2]⟩ ⟨2, ![E, C]⟩ [1] [0, 1] [] [0, 1] [] 1 ![1, 1, C])
    (x : (⟨3, ![S, N, C]⟩ : Shape).Idx → α) (idx : IVec ⟨2, ![E, 2]⟩ 32) (e : Fin E) (c : Fin C) :
    Host.gather (pairDims S N E C wf) x idx (ix2 e c)
      = x (ix3 (rowOf S hS (idx (ix2 e 0))) (rowOf N hN (idx (ix2 e 1))) c) := by
  unfold Host.gather
  congr 1
  funext a
  refine Fin.ext ?_
  match a with
  | ⟨0, _⟩ =>
    -- a collapsed axis: component 0 of the start index
    show (pairDims S N E C wf).start (ix2 e c) idx 0 + (pairDims S N E C wf).batchCoord (ix2 e c) 0
      + (pairDims S N E C wf).offCoord (ix2 e c) 0 = _
    have h0 : (0 : Fin 3) ∈ (pairDims S N E C wf).startIndexMap := List.mem_cons_self
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos h0]
    have hsi : (pairDims S N E C wf).siIdx (ix2 e c) ⟨List.idxOf (0 : Fin 3) (pairDims S N E C wf).startIndexMap,
        List.idxOf_lt_length_iff.2 h0⟩ = ix2 e 0 := by
      funext b; refine Fin.ext ?_
      match b with
      | ⟨0, _⟩ => rfl
      | ⟨1, _⟩ => rfl
    rw [hsi]
    rfl
  | ⟨1, _⟩ =>
    -- a collapsed axis: component 1 of the start index
    show (pairDims S N E C wf).start (ix2 e c) idx 1 + (pairDims S N E C wf).batchCoord (ix2 e c) 1
      + (pairDims S N E C wf).offCoord (ix2 e c) 1 = _
    have h1 : (1 : Fin 3) ∈ (pairDims S N E C wf).startIndexMap :=
      List.mem_cons_of_mem _ (List.mem_singleton.mpr rfl)
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    simp only [Nat.add_zero]
    unfold GatherDims.start
    rw [dif_pos h1]
    have hsi : (pairDims S N E C wf).siIdx (ix2 e c) ⟨List.idxOf (1 : Fin 3) (pairDims S N E C wf).startIndexMap,
        List.idxOf_lt_length_iff.2 h1⟩ = ix2 e 1 := by
      funext b; refine Fin.ext ?_
      match b with
      | ⟨0, _⟩ => rfl
      | ⟨1, _⟩ => rfl
    rw [hsi]
    rfl
  | ⟨2, _⟩ =>
    -- the offset axis: the start is zero, the offset part is the result's column
    show (pairDims S N E C wf).start (ix2 e c) idx 2 + (pairDims S N E C wf).batchCoord (ix2 e c) 2
      + (pairDims S N E C wf).offCoord (ix2 e c) 2 = _
    have h2 : (2 : Fin 3) ∉ (pairDims S N E C wf).startIndexMap :=
      not_mem_axis₂ (show (2 : Nat) ≠ 0 by decide) (show (2 : Nat) ≠ 1 by decide)
    have hk : (2 : Fin 3) ∈ (pairDims S N E C wf).sKept :=
      (GatherDims.mem_sKept _ _).mpr
        ⟨not_mem_axis₂ (show (2 : Nat) ≠ 0 by decide) (show (2 : Nat) ≠ 1 by decide), List.not_mem_nil⟩
    rw [GatherDims.batchCoord_eq_zero _ _ _ List.not_mem_nil]
    unfold GatherDims.start GatherDims.offCoord
    rw [dif_neg h2, dif_pos hk]
    simp only [Nat.add_zero, Nat.zero_add]
    rfl

end Pair

/-! ## A slab gather: operand `[S, N, C]`, start indices `[K, 1]`, result `[K, N, C]`

Axis 0 of the operand is named by the start index map and collapsed; axes 1 and 2 are the offset axes, whole. -/

section Slab
variable {α : Type}

/-- The dimension numbers of a slab gather over symbolic extents. -/
abbrev slabDims (S K N C : Nat)
    (wf : GatherDims.WF ⟨3, ![S, N, C]⟩ ⟨2, ![K, 1]⟩ ⟨3, ![K, N, C]⟩ [1, 2] [0] [] [0] [] 1 ![1, N, C]) :
    GatherDims ⟨3, ![S, N, C]⟩ ⟨2, ![K, 1]⟩ ⟨3, ![K, N, C]⟩ where
  offsetDims := [1, 2]
  collapsedSliceDims := [0]
  operandBatchingDims := []
  startIndicesBatchingDims := []
  startIndexMap := [0]
  indexVectorDim := 1
  sliceSizes := ![1, N, C]
  wf := wf

/-- The slab gather at `(k, n, d)`: element `(n, d)` of the operand's slab `idx[k, 0]`, read signed and clamped into
    `[0, S − 1]`. -/
theorem gather_slab_apply {S K N C : Nat} (hS : 0 < S)
    (wf : GatherDims.WF ⟨3, ![S, N, C]⟩ ⟨2, ![K, 1]⟩ ⟨3, ![K, N, C]⟩ [1, 2] [0] [] [0] [] 1 ![1, N, C])
    (x : (⟨3, ![S, N, C]⟩ : Shape).Idx → α) (idx : IVec ⟨2, ![K, 1]⟩ 32) (k : Fin K) (n : Fin N) (d : Fin C) :
    Host.gather (slabDims S K N C wf) x idx (ix3 k n d) = x (ix3 (rowOf S hS (idx (ix2 k 0))) n d) := by
  unfold Host.gather
  congr 1
  funext a
  refine Fin.ext ?_
  match a with
  | ⟨0, _⟩ =>
    -- the collapsed axis: the start index's only component
    show (slabDims S K N C wf).start (ix3 k n d) idx 0 + (slabDims S K N C wf).batchCoord (ix3 k n d) 0
      + (slabDims S K N C wf).offCoord (ix3 k n d) 0 = _
    have h0 : (0 : Fin 3) ∈ (slabDims S K N C wf).startIndexMap := List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hsi : (slabDims S K N C wf).siIdx (ix3 k n d) ⟨List.idxOf (0 : Fin 3) (slabDims S K N C wf).startIndexMap,
        List.idxOf_lt_length_iff.2 h0⟩ = ix2 k 0 := by
      funext b; refine Fin.ext ?_
      match b with
      | ⟨0, _⟩ => rfl
      | ⟨1, _⟩ => rfl
    rw [hsi]
    rfl
  | ⟨1, _⟩ =>
    -- the first offset axis: the result's middle coordinate
    show (slabDims S K N C wf).start (ix3 k n d) idx 1 + (slabDims S K N C wf).batchCoord (ix3 k n d) 1
      + (slabDims S K N C wf).offCoord (ix3 k n d) 1 = _
    have h1 : (1 : Fin 3) ∉ (slabDims S K N C wf).startIndexMap :=
      not_mem_axis₁ (show (1 : Nat) ≠ 0 from Nat.one_ne_zero)
    have hk : (1 : Fin 3) ∈ (slabDims S K N C wf).sKept :=
      (GatherDims.mem_sKept _ _).mpr ⟨not_mem_axis₁ (show (1 : Nat) ≠ 0 from Nat.one_ne_zero), List.not_mem_nil⟩
    rw [GatherDims.batchCoord_eq_zero _ _ _ List.not_mem_nil]
    unfold GatherDims.start GatherDims.offCoord
    rw [dif_neg h1, dif_pos hk]
    simp only [Nat.add_zero, Nat.zero_add]
    rfl
  | ⟨2, _⟩ =>
    -- the second offset axis: the result's last coordinate
    show (slabDims S K N C wf).start (ix3 k n d) idx 2 + (slabDims S K N C wf).batchCoord (ix3 k n d) 2
      + (slabDims S K N C wf).offCoord (ix3 k n d) 2 = _
    have h2 : (2 : Fin 3) ∉ (slabDims S K N C wf).startIndexMap :=
      not_mem_axis₁ (show (2 : Nat) ≠ 0 by decide)
    have hk : (2 : Fin 3) ∈ (slabDims S K N C wf).sKept :=
      (GatherDims.mem_sKept _ _).mpr ⟨not_mem_axis₁ (show (2 : Nat) ≠ 0 by decide), List.not_mem_nil⟩
    rw [GatherDims.batchCoord_eq_zero _ _ _ List.not_mem_nil]
    unfold GatherDims.start GatherDims.offCoord
    rw [dif_neg h2, dif_pos hk]
    simp only [Nat.add_zero, Nat.zero_add]
    rfl

end Slab

/-! ## The programs' gathers, read at an index: the operand at the start index read signed and clamped -/

/-- Rows of a 50000-row array (the kernel program's record). -/
theorem k_gather_rows {α : Type} (x : Cert.KernelIdeal.S50000x64.Idx → α) (idx : IVec Cert.KernelIdeal.S800000x1 32) (e : Fin 800000) (c : Fin 64) :
    Host.gather Cert.KernelIdeal.gather_S50000x64_S800000x1_S800000x64_1_0_n_n_0_1_164 x idx (ix2 e c)
      = x (ix2 (rowOf 50000 (by decide) (idx (ix2 e 0))) c) :=
  gather_row_apply _ _ x idx e c

/-- Rows of a 150000-row array (the kernel program's record). -/
theorem k_gather_flat {α : Type} (x : Cert.KernelIdeal.S150000x64.Idx → α) (idx : IVec Cert.KernelIdeal.S800000x1 32) (e : Fin 800000) (c : Fin 64) :
    Host.gather Cert.KernelIdeal.gather_S150000x64_S800000x1_S800000x64_1_0_n_n_0_1_164 x idx (ix2 e c)
      = x (ix2 (rowOf 150000 (by decide) (idx (ix2 e 0))) c) :=
  gather_row_apply _ _ x idx e c

/-- Rows of a 50000-row array (the reference program's record). -/
theorem r_gather_rows {α : Type} (x : Cert.ReferenceIdeal.S50000x64.Idx → α) (idx : IVec Cert.ReferenceIdeal.S800000x1 32) (e : Fin 800000) (c : Fin 64) :
    Host.gather Cert.ReferenceIdeal.gather_S50000x64_S800000x1_S800000x64_1_0_n_n_0_1_164 x idx (ix2 e c)
      = x (ix2 (rowOf 50000 (by decide) (idx (ix2 e 0))) c) :=
  gather_row_apply _ _ x idx e c

/-- A row of a [3, 50000, 64] array by a pair (slab, row) of start indices (the reference program's record). -/
theorem r_gather_pair {α : Type} (x : Cert.ReferenceIdeal.S3x50000x64.Idx → α) (idx : IVec Cert.ReferenceIdeal.S800000x2 32) (e : Fin 800000) (c : Fin 64) :
    Host.gather Cert.ReferenceIdeal.gather_S3x50000x64_S800000x2_S800000x64_1_01_n_n_01_1_1164 x idx (ix2 e c)
      = x (ix3 (rowOf 3 (by decide) (idx (ix2 e 0))) (rowOf 50000 (by decide) (idx (ix2 e 1))) c) :=
  gather_pair_apply _ _ _ x idx e c

/-- Whole slabs of a [3, 50000, 64] array by a slab start index (the reference program's record). -/
theorem r_gather_slab {α : Type} (x : Cert.ReferenceIdeal.S3x50000x64.Idx → α) (idx : IVec Cert.ReferenceIdeal.S3x1 32) (k : Fin 3) (n : Fin 50000) (d : Fin 64) :
    Host.gather Cert.ReferenceIdeal.gather_S3x50000x64_S3x1_S3x50000x64_12_0_n_n_0_1_15000064 x idx (ix3 k n d)
      = x (ix3 (rowOf 3 (by decide) (idx (ix2 k 0))) n d) :=
  gather_slab_apply _ _ x idx k n d

end Cert.Gated

end
-- ==== Proof.SpecFin.lean ====
/-
  Finiteness through the stages of the layer, and the one algebraic law the statistics need: over real
  numbers the mean of squared deviations is the mean of squares minus the squared mean.
-/
import proofs.«410264_j48739288875406_2_alg».proof.Proof.Spec
import Idealize.ShloMosaic.PureOps.Ideal
import Idealize.ShloMosaic.PureOps.Ideal.Laws
import Idealize.ShloMosaic.Lib.ValueIdx

noncomputable section

namespace Cert.Gated

open Idealize.ShloMosaic Idealize.ShloMosaic.ValueIdx

/-! ## Closure of the real numbers inside the extended reals -/

theorem IsFin.add {x y : EReal} (hx : IsFin x) (hy : IsFin y) : IsFin (x + y) := by
  obtain ⟨a, rfl⟩ := hx
  obtain ⟨b, rfl⟩ := hy
  exact ⟨a + b, (EReal.coe_add a b).symm⟩

theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- A finite sum of coerced real numbers is the coercion of the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsFin.sum {ι : Type*} (s : Finset ι) (f : ι → EReal) (h : ∀ i ∈ s, IsFin (f i)) : IsFin (∑ i ∈ s, f i) := by
  classical
  induction s using Finset.induction_on with
  | empty => exact ⟨0, by simp⟩
  | insert a s ha ih =>
    rw [Finset.sum_insert ha]
    exact (h a (Finset.mem_insert_self a s)).add (ih (fun i hi => h i (Finset.mem_insert_of_mem hi)))

/-- A finite sum of nonnegative extended reals is nonnegative. -/
theorem sum_nonneg' {ι : Type*} (s : Finset ι) (f : ι → EReal) (h : ∀ i ∈ s, 0 ≤ f i) : 0 ≤ ∑ i ∈ s, f i := by
  classical
  induction s using Finset.induction_on with
  | empty => simp
  | insert a s ha ih =>
    rw [Finset.sum_insert ha]
    exact add_nonneg (h a (Finset.mem_insert_self a s)) (ih (fun i hi => h i (Finset.mem_insert_of_mem hi)))

/-- The logistic function takes every extended real to a real number in `[0, 1]`. -/
theorem logistic_fin (x : EReal) : IsFin (Ideal.logistic x) ∧ 0 ≤ Ideal.logistic x := by
  induction x using EReal.rec with
  | bot => rw [Ideal.logistic_bot]; exact ⟨⟨0, rfl⟩, le_refl _⟩
  | coe r =>
    rw [Ideal.logistic_coe]
    exact ⟨⟨_, rfl⟩, EReal.coe_nonneg.mpr (inv_nonneg.mpr (by positivity))⟩
  | top => rw [Ideal.logistic_top]; exact ⟨⟨1, rfl⟩, zero_le_one⟩

/-! ## The literals -/

theorem aggEps_pos : ∃ r : ℝ, 0 < r ∧ aggEps = (r : EReal) := by
  unfold aggEps
  simp [Ideal.ofBits, Ideal.ieee, -EReal.coe_mul]

theorem third_fin : IsFin third := by
  unfold third IsFin
  simp [Ideal.ofBits, Ideal.ieee, -EReal.coe_mul]

theorem nodes_eq : nodes = ((50000 : ℝ) : EReal) := by
  unfold nodes
  simp [Ideal.ofBits, Ideal.ieee, -EReal.coe_mul]; norm_num

/-! ## The stages -/

theorem lin_fin (x : Sx.Idx → EReal) (s : Fin 3) (W : Sw.Idx → EReal) (b : Sb.Idx → EReal)
    (hx : ∀ i, IsFin (x i)) (hW : ∀ i, IsFin (W i)) (hb : ∀ i, IsFin (b i)) : ∀ i, IsFin (lin x s W b i) := by
  intro i
  exact (IsFin.sum _ _ (fun k _ => (hx _).mul (hW _))).add (hb _)

theorem hopLin_fin (x : Sx.Idx → EReal) (Wb : Swb.Idx → EReal) (bb : Sbb.Idx → EReal)
    (hx : ∀ i, IsFin (x i)) (hW : ∀ i, IsFin (Wb i)) (hb : ∀ i, IsFin (bb i)) : ∀ i, IsFin (hopLin x Wb bb i) := by
  intro i
  exact (IsFin.sum _ _ (fun k _ => (hx _).mul (hW _))).add (hb _)

theorem atSrc_fin (B : Sx.Idx → EReal) (ei : Sei.Idx → BitVec 32) (ea : Sea.Idx → BitVec 32) (hB : ∀ i, IsFin (B i)) :
    ∀ i, IsFin (atSrc B ei ea i) := by
  intro i
  exact hB _

theorem gate_fin (a b : Se.Idx → EReal) : ∀ i, IsFin (gate a b i) ∧ 0 ≤ gate a b i := by
  intro i
  exact logistic_fin _

theorem gated_fin (a b : Se.Idx → EReal) (hb : ∀ i, IsFin (b i)) : ∀ i, IsFin (gated a b i) := by
  intro i
  exact (logistic_fin _).1.mul (hb i)

/-- A zero-based scatter-add of real numbers is a real number at every index. -/
theorem scatterAdd_fin {s si su : Shape} (dd : ScatterDims s si su) {w : Nat} (x0 : s.Idx → EReal) (idx : IVec si w)
    (u : su.Idx → EReal) (h0 : ∀ i, IsFin (x0 i)) (hu : ∀ j, IsFin (u j)) :
    ∀ i, IsFin (Ideal.hostScatterAdd dd x0 idx u i) := by
  intro i
  exact (h0 i).add (IsFin.sum _ _ (fun j _ => hu j))

/-- A scatter-add of nonnegative real numbers onto nonnegative real numbers is a nonnegative real number. -/
theorem scatterAdd_nonneg {s si su : Shape} (dd : ScatterDims s si su) {w : Nat} (x0 : s.Idx → EReal) (idx : IVec si w)
    (u : su.Idx → EReal) (h0 : ∀ i, IsFin (x0 i) ∧ 0 ≤ x0 i) (hu : ∀ j, IsFin (u j) ∧ 0 ≤ u j) :
    ∀ i, IsFin (Ideal.hostScatterAdd dd x0 idx u i) ∧ 0 ≤ Ideal.hostScatterAdd dd x0 idx u i := by
  intro i
  exact ⟨(h0 i).1.add (IsFin.sum _ _ (fun j _ => (hu j).1)),
    add_nonneg (h0 i).2 (sum_nonneg' _ _ (fun j _ => (hu j).2))⟩

/-- A real numerator over a nonnegative real denominator plus the guard is a real number. -/
theorem div_guard_fin {p q : EReal} (hp : IsFin p) (hq : IsFin q) (hq0 : 0 ≤ q) : IsFin (Ideal.div p (q + aggEps)) := by
  obtain ⟨a, rfl⟩ := hp
  obtain ⟨b, rfl⟩ := hq
  obtain ⟨e, he0, he⟩ := aggEps_pos
  have hb0 : 0 ≤ b := EReal.coe_nonneg.mp hq0
  have hne : b + e ≠ 0 := by positivity
  rw [he, ← EReal.coe_add, Ideal.div_coe hne, ← EReal.coe_mul]
  exact ⟨_, rfl⟩

/-- The mixed value is a real number when the numerators are, the denominators are nonnegative real numbers
    (so that the guard keeps them off zero) and the node's own image is. -/
theorem mix_fin (num den : Snk.Idx → EReal) (A : Sn.Idx → EReal) (hn : ∀ i, IsFin (num i))
    (hd : ∀ i, IsFin (den i) ∧ 0 ≤ den i) (hA : ∀ i, IsFin (A i)) : ∀ i, IsFin (mix num den A i) := by
  intro i
  exact (hA _).add (third_fin.mul (IsFin.sum _ _ (fun k _ => div_guard_fin (hn _) (hd _).1 (hd _).2)))

/-! ## The two variances -/

/-- Over real numbers, with `μ` the mean `(Σ r) / N`: `(Σ r²) / N - μ² = (Σ (r - μ)²) / N`, at `N = 50000`. -/
theorem real_var_eq (r : Fin 50000 → ℝ) :
    (∑ n, r n * r n) * (1 / 50000) - (∑ n, r n) * (1 / 50000) * ((∑ n, r n) * (1 / 50000)) =
      (∑ n, (r n - (∑ m, r m) * (1 / 50000)) * (r n - (∑ m, r m) * (1 / 50000))) * (1 / 50000) := by
  generalize hμ : (∑ m, r m) * (1 / 50000 : ℝ) = μ
  have h : ∀ n, (r n - μ) * (r n - μ) = r n * r n - 2 * μ * r n + μ * μ := by intro n; ring
  simp only [h, Finset.sum_add_distrib, Finset.sum_sub_distrib, ← Finset.mul_sum, Finset.sum_const, Finset.card_univ,
    Fintype.card_fin, nsmul_eq_mul]
  rw [← hμ]
  push_cast
  ring

/-- Over a column of real numbers the two variance formulas agree. -/
theorem var_eq (x : Sn.Idx → EReal) (hx : ∀ i, IsFin (x i)) (d : Fin 64) : varMoments x d = varCentered x d := by
  choose r hr using hx
  obtain rfl : x = fun i => ((r i : ℝ) : EReal) := funext hr
  have h5 : (50000 : ℝ) ≠ 0 := by norm_num
  have hd : ∀ n : Fin 50000, (ix2 n d : Sn.Idx) 1 = d := fun _ => rfl
  simp only [varMoments, varCentered, colMean, colSum, nodes_eq, Ideal.div_coe h5, hd, ← EReal.coe_mul, ← EReal.coe_sub,
    coe_sum]
  rw [real_var_eq (fun n => r (ix2 n d))]

end Cert.Gated

end
-- ==== Proof.KHostDst.lean ====
import proofs.«410264_j48739288875406_2_alg».proof.Proof.Gen.KernelIdeal.Frame
import proofs.«410264_j48739288875406_2_alg».proof.Proof.Spec
import proofs.«410264_j48739288875406_2_alg».proof.Proof.Gather
import Idealize.ShloMosaic.Lib.StableHlo.Run
import Idealize.ShloMosaic.Lib.StableHlo.Predicate
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HostVals

open Cert.KernelIdeal Cert.KernelIdeal.Gen Cert.Gated

variable (m : (ℓ : Loc nD τ sig) → Buf (Elt Ideal) ℓ) (ρ : Dev nD → PrngReg)

/-- A buffer that no operation of a stretch writes keeps its contents across the stretch. -/
local macro "keeps_through" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## The take of rows, as one function of the table and the index words -/

/-- The index words wrapped from the end: a negative word has the row count added. -/
def wrapIdx (w : IVec S800000 32) : IVec S800000 32 :=
  select (cmpi .slt w (broadcastInDim S800000 ![] bcast_S_S800000 (constantI S_ 32 0#32)))
    (addi w (broadcastInDim S800000 ![] bcast_S_S800000 (constantI S_ 32 50000#32))) w

/-- The wrapped index words as the gather's one-column table of start indices. -/
def idxCol (w : IVec S800000 32) : IVec S800000x1 32 :=
  broadcastInDim S800000x1 ![0] bcast_S800000_S800000x1_0 (wrapIdx w)

/-- The range mask per edge: every start index of the edge lies in `[0, 49999]`. -/
def inRows (w : IVec S800000 32) : IVec S800000 1 :=
  Host.reduce IntOp.andi
    (andi (cmpi .sge (idxCol w) (broadcastInDim S800000x1 ![] bcast_S_S800000x1 (constantI S_ 32 0#32)))
      (cmpi .sle (idxCol w) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take of rows of a 50000-row table at 800000 index words, as the program computes it: the gather at the
    wrapped indices where the range mask holds, the fill value elsewhere. -/
def takeRows (x : FVec Ideal S50000x64 .f32) (w : IVec S800000 32) : FVec Ideal S800000x64 .f32 :=
  select (broadcastInDim S800000x64 ![0] bcast_S800000_S800000x64_0 (inRows w))
    (Host.gather gather_S50000x64_S800000x1_S800000x64_1_0_n_n_0_1_164 x (idxCol w))
    (broadcastInDim S800000x64 ![] bcast_S_S800000x64 (constant (F := Ideal) S_ .f32 0x7FC00000#32))

/-- Row 1 of the edge list as a vector of words: the slice, then the unit axis dropped. -/
def edgeRow1 (a : IVec S2x800000 32) : IVec S800000 32 :=
  shapeCast S800000 (extractStridedSlice S1x800000 ![1, 0] a slices_S2x800000_S1x800000_1_0) shapeCasts_S1x800000_S800000

/-! ## Words in range -/

/-- A word whose signed value lies in `[0, 50000)` is not below zero, is at least zero and is at most 49999. -/
theorem rowWord_facts (v : BitVec 32) (h0 : 0 ≤ v.toInt) (h1 : v.toInt < 50000) :
    IntOp.cmpi .slt v 0#32 = 0#1 ∧ IntOp.cmpi .sge v 0#32 = 1#1 ∧ IntOp.cmpi .sle v 49999#32 = 1#1 := by
  have e0 : (0#32 : BitVec 32).toInt = 0 := by decide
  have e1 : (49999#32 : BitVec 32).toInt = 49999 := by decide
  refine ⟨?_, ?_, ?_⟩
  · show BitVec.ofBool (v.slt 0#32) = 0#1
    rw [BitVec.slt_eq_decide, e0, decide_eq_false (by omega)]; rfl
  · show BitVec.ofBool ((0#32 : BitVec 32).sle v) = 1#1
    rw [BitVec.sle_eq_decide, e0, decide_eq_true h0]; rfl
  · show BitVec.ofBool (v.sle 49999#32) = 1#1
    rw [BitVec.sle_eq_decide, e1, decide_eq_true (by omega)]; rfl

/-- A word that is not negative is its own wrapped index. -/
theorem wrapIdx_apply (w : IVec S800000 32) (k : S800000.Idx) (h0 : 0 ≤ (w k).toInt) (h1 : (w k).toInt < 50000) :
    wrapIdx w k = w k := by
  show Scalar.select (IntOp.cmpi .slt (w k) 0#32) (IntOp.addi (w k) 50000#32) (w k) = w k
  rw [(rowWord_facts (w k) h0 h1).1, select_zero]

/-- The start index of edge `e` is its wrapped index word. -/
theorem idxCol_apply (w : IVec S800000 32) (e : Fin 800000) : idxCol w (ix2 e 0) = wrapIdx w (ix1 e) := by
  unfold idxCol
  refine broadcastInDim_apply _ _ _ _ (ix1 e) fun a => ?_
  match a with
  | ⟨0, _⟩ => rfl

/-- A conjunction of ones, folded from one, is one. -/
theorem andi_foldl_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact andi_foldl_ones f l fun n hn => h n (List.mem_cons_of_mem _ hn)

/-- With every index word in range the range mask is all ones. -/
theorem inRows_one (w : IVec S800000 32) (hw : ∀ k, 0 ≤ (w k).toInt ∧ (w k).toInt < 50000) (j : S800000.Idx) :
    inRows w j = 1#1 := by
  unfold inRows
  rw [Host.reduce_eq_foldl]
  refine andi_foldl_ones _ _ fun i _ => ?_
  -- element `i` of the mask: the two compares of one wrapped index word
  obtain ⟨k, hk⟩ : ∃ k : S800000.Idx, idxCol w i = wrapIdx w k := ⟨_, rfl⟩
  show IntOp.andi (IntOp.cmpi .sge (idxCol w i) 0#32) (IntOp.cmpi .sle (idxCol w i) 49999#32) = 1#1
  rw [hk, wrapIdx_apply w k (hw k).1 (hw k).2, (rowWord_facts (w k) (hw k).1 (hw k).2).2.1,
    (rowWord_facts (w k) (hw k).1 (hw k).2).2.2]
  rfl

/-- With every index word in range, the take at `(e, d)` is column `d` of the table's row `w e`. -/
theorem takeRows_apply (x : FVec Ideal S50000x64 .f32) (w : IVec S800000 32)
    (hw : ∀ k, 0 ≤ (w k).toInt ∧ (w k).toInt < 50000) (e : Fin 800000) (d : Fin 64) :
    takeRows x w (ix2 e d) = x (ix2 (rowOf 50000 (by decide) (w (ix1 e))) d) := by
  have hm : broadcastInDim S800000x64 ![0] bcast_S800000_S800000x64_0 (inRows w) (ix2 e d) = 1#1 :=
    inRows_one w hw _
  unfold takeRows
  rw [select_apply, hm, select_one, k_gather_rows x (idxCol w) e d, idxCol_apply, wrapIdx_apply w (ix1 e) (hw _).1 (hw _).2]

/-- Row 1 of the edge list at edge `e`. -/
theorem edgeRow1_apply (a : IVec S2x800000 32) (e : Fin 800000) : edgeRow1 a (ix1 e) = a (ix2 1 e) := by
  unfold edgeRow1
  rw [shapeCast_1a_a_apply]
  refine extractStridedSlice_apply _ _ _ _ (ix2 1 e) fun b => ?_
  match b with
  | ⟨0, _⟩ => rfl
  | ⟨1, _⟩ => show e.val = 0 + e.val; omega

/-! ## The stretches -/

/-- A value stored at a typed reference and read back at the same reference is the value. -/
theorem tref_roundtrip {T : BufTy} (x : StableHlo.TRef sig T) (v : T.Contents (Elt Ideal)) :
    x.ofBuf (x.toBuf v) = v := by
  obtain ⟨r, rfl, h1, h2⟩ := x
  rfl

/-- Contents moved between a buffer's own type and its value's type are unchanged: for these three buffers the two types
    are the same by evaluation. -/
theorem cast_at_v2 (h : (main_v2 : Ref sig .tc).ty.Contents (Elt Ideal) = (⟨S800000, .i32⟩ : BufTy).Contents (Elt Ideal))
    (v : (main_v2 : Ref sig .tc).ty.Contents (Elt Ideal)) : cast h v = v := rfl
theorem cast_at_v0_1 (h : (main_v0_1 : Ref sig .tc).ty.Contents (Elt Ideal) = (⟨S50000x64, .f32⟩ : BufTy).Contents (Elt Ideal))
    (v : (main_v0_1 : Ref sig .tc).ty.Contents (Elt Ideal)) : cast h v = v := rfl
theorem cast_at_v7 (h : (⟨S800000x64, .f32⟩ : BufTy).Contents (Elt Ideal) = (main_v7 : Ref sig .tc).ty.Contents (Elt Ideal))
    (v : (⟨S800000x64, .f32⟩ : BufTy).Contents (Elt Ideal)) : cast h v = v := rfl

set_option maxHeartbeats 2000000 in
/-- The inlined take's stretch leaves, in its result buffer, the take of the table it finds at the index words it finds. -/
theorem take_stretch (W : Valuation τ sig (Elt Ideal)) :
    StableHlo.after hostOps1_1 W (Proc.devRef .tc main_v7)
      = takeRows (W (Proc.devRef .tc main_v0_1)) (W (Proc.devRef .tc main_v2)) := by
  after_results_simp
  simp only [tref_roundtrip]
  simp only [StableHlo.TRef.ofBuf, StableHlo.TRef.toBuf]
  simp only [cast_at_v2, cast_at_v0_1, cast_at_v7]
  unfold takeRows inRows idxCol wrapIdx
  rfl

/-- The gathered array is still in place when the gate region is entered: the two later stretches write elsewhere. -/
theorem v7_kept (c : Dev nD) : W5 m ρ c (Proc.devRef .tc main_v7) = W3 m ρ c (Proc.devRef .tc main_v7) :=
  calc W5 m ρ c (Proc.devRef .tc main_v7)
    _ = W4 m ρ c (Proc.devRef .tc main_v7) := by keeps_through hostOps1_3
    _ = W3 m ρ c (Proc.devRef .tc main_v7) := by keeps_through hostOps1_2

/-- The table the take reads is the linear-map region's second output, untouched by the first stretch. -/
theorem table_kept (c : Dev nD) : W2 m ρ c (Proc.devRef .tc main_v0_1) = W1 m ρ c (Proc.devRef .tc main_v0_1) := by
  keeps_through hostOps1

/-- The index words the take reads are row 1 of the edge list as launched. -/
theorem words_val (c : Dev nD) :
    W2 m ρ c (Proc.devRef .tc main_v2) = edgeRow1 (m ((c : Thread nD τ).loc main_arg1)) := by
  show StableHlo.after hostOps1 (W1 m ρ c) (Proc.devRef .tc main_v2) = _
  after_results
  rw [W1_of_ne m ρ c main_arg1 (by decide)]
  rfl

/-! ## The gate region's first operand -/

/-- The gate region's first operand: the destination's rows of the linear-map region's second output. -/
theorem dst_rows (c : Dev nD)
    (h : InRange (m ((c : Thread nD τ).loc main_arg1)) (m ((c : Thread nD τ).loc main_arg2))) :
    V5 m ρ c main_v7 = atDst (V1 m ρ c main_v0_1) (m ((c : Thread nD τ).loc main_arg1)) := by
  have hv : V5 m ρ c main_v7
      = takeRows (V1 m ρ c main_v0_1) (edgeRow1 (m ((c : Thread nD τ).loc main_arg1))) :=
    calc W5 m ρ c (Proc.devRef .tc main_v7)
      _ = StableHlo.after hostOps1_1 (W2 m ρ c) (Proc.devRef .tc main_v7) := v7_kept m ρ c
      _ = takeRows (W2 m ρ c (Proc.devRef .tc main_v0_1)) (W2 m ρ c (Proc.devRef .tc main_v2)) := take_stretch (W2 m ρ c)
      _ = _ := by rw [table_kept, words_val]
  have hw : ∀ k : S800000.Idx, 0 ≤ (edgeRow1 (m ((c : Thread nD τ).loc main_arg1)) k).toInt
      ∧ (edgeRow1 (m ((c : Thread nD τ).loc main_arg1)) k).toInt < 50000 := fun k => by
    obtain ⟨e, rfl⟩ : ∃ e : Fin 800000, k = ix1 e := ⟨k 0, eq_ix1 k⟩
    rw [edgeRow1_apply]; exact h.1 _
  rw [hv]
  funext i
  obtain ⟨e, d, rfl⟩ : ∃ (e : Fin 800000) (d : Fin 64), i = ix2 e d := ⟨i 0, i 1, eq_ix2 i⟩
  rw [takeRows_apply _ _ hw e d, edgeRow1_apply]
  rfl

end Cert.KernelIdeal.HostVals

end
-- ==== Proof.ReduceOnes.lean ====
/-
  A conjunction over any family of ones, begun at one, is one.
-/
import Idealize.ShloMosaic.Lib.ReduceAll
import Idealize.ShloMosaic.PureOps.Reduce

namespace Cert.Gated

open Idealize.ShloMosaic

/-- A left fold by `and` over one-bit words that are all one, begun at one, is one. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => foldl_andi_ones f hf l _ (IntOp.andi_eq_one.2 ⟨h, hf a⟩)

/-- An and-reduction of a mask that is one everywhere, from an initial value that is one, is one everywhere,
    whatever the shapes and the reduced axes. -/
theorem reduce_andi_ones {s t u : Shape} {axes : List (Fin s.rank)} (x : IVec s 1) (init : IVec u 1)
    (h : s.ReducesTo axes t) (hu : 0 < u.numel) (hx : ∀ i, x i = 1#1) (hi : ∀ i, init i = 1#1) :
    ∀ j, Host.reduce IntOp.andi x init h hu j = 1#1 := by
  intro j
  rw [Host.reduce_eq_foldl]
  exact foldl_andi_ones x hx _ _ (hi _)

end Cert.Gated
-- ==== Proof.KTake.lean ====
/-
  The row take of the per-hop array between the linear maps and the gate, as a pure term of the arrays it reads: the
  source and hop words sliced out of the edge list and the edge attributes, the flat row number of a (hop, source)
  pair, and the take itself — wrap a negative index, test it against the table's bounds, gather the row, and keep it
  where the test holds. With every word of the edge list a node number and every edge attribute a hop number the test
  holds everywhere, and the take is the source's rows at the edge's hop.
-/
import proofs.«410264_j48739288875406_2_alg».proof.Proof.Gen.KernelIdeal
import proofs.«410264_j48739288875406_2_alg».proof.Proof.Spec
import proofs.«410264_j48739288875406_2_alg».proof.Proof.Gather
import proofs.«410264_j48739288875406_2_alg».proof.Proof.ReduceOnes
import Idealize.ShloMosaic.Lib.Affine
import Idealize.ShloMosaic.Lib.ValueIdx
import Idealize.ShloMosaic.Lib.Pipeline.Value

noncomputable section

namespace Cert.KernelIdeal.HostVals

open Cert.KernelIdeal Cert.KernelIdeal.Gen Cert.Gated Idealize.ShloMosaic Idealize.ShloMosaic.ValueIdx

/-! ## The edge words -/

/-- %4: the edges' source words (row 0 of the edge list). -/
def kSrc (a1 : IVec S2x800000 32) : IVec S800000 32 :=
  shapeCast S800000 (extractStridedSlice S1x800000 ![0, 0] a1 slices_S2x800000_S1x800000_0_0) shapeCasts_S1x800000_S800000

/-- %6: the edges' hop words, counted from zero. -/
def kHopIdx (a2 : IVec S800000 32) : IVec S800000 32 :=
  subi a2 (broadcastInDim S800000 ![] bcast_S_S800000 (constantI S_ 32 1#32))

/-- %11: the flat row number of an edge's (hop, source) pair, `hop * 50000 + source`. -/
def kFlatIdx (a1 : IVec S2x800000 32) (a2 : IVec S800000 32) : IVec S800000 32 :=
  addi (muli (kHopIdx a2) (broadcastInDim S800000 ![] bcast_S_S800000 (constantI S_ 32 50000#32))) (kSrc a1)

/-- %8: the per-hop array with its hop and node axes merged into one axis of rows. -/
def kFlat (B : FVec Ideal S3x50000x64 .f32) : FVec Ideal S150000x64 .f32 :=
  shapeCast S150000x64 B shapeCasts_S3x50000x64_S150000x64

/-! ## The take -/

/-- %5 of a take: the index with its negative entries wrapped by `n`, as a one-column index table. -/
def kWrapCol (n : BitVec 32) (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 n))) idx)

/-- %12 of a take: per edge, whether the index lies in `[0, hi]`. -/
def kInBounds (hi : BitVec 32) (col : IVec S800000x1 32) : IVec S800000 1 :=
  Host.reduce IntOp.andi
    (andi (cmpi .sge col (broadcastInDim S800000x1 ![] bcast_S_S800000x1 (constantI S_ 32 0#32)))
      (cmpi .sle col
        (broadcastInDim S800000x1 ![0, 1] bcast_S1x1_S800000x1_0_1
          (broadcastInDim S1x1 ![1] bcast_S1_S1x1_1 (constantI S1 32 hi)))))
    (constantI S_ 1 1#1) reducesTo_S800000x1_S800000_d1 h_S_

/-- %16 of the take over 150000 rows: the row each edge's index names, where the index is in bounds. -/
def kTakeFlat (Bf : FVec Ideal S150000x64 .f32) (idx : IVec S800000 32) : FVec Ideal S800000x64 .f32 :=
  select (broadcastInDim S800000x64 ![0] bcast_S800000_S800000x64_0 (kInBounds 149999#32 (kWrapCol 150000#32 idx)))
    (Host.gather gather_S150000x64_S800000x1_S800000x64_1_0_n_n_0_1_164 Bf (kWrapCol 150000#32 idx))
    (broadcastInDim S800000x64 ![] bcast_S_S800000x64 (constant (F := Ideal) S_ .f32 0x7FC00000#32))

/-! ## The pieces at one edge -/

/-- The source word of edge `e` is row 0 of the edge list at `e`. -/
theorem kSrc_apply (a1 : IVec S2x800000 32) (e : Fin 800000) : kSrc a1 (ix1 e) = a1 (ix2 0 e) := by
  unfold kSrc
  refine (shapeCast_apply _ _ _ (ix2 (0 : Fin 1) e) (by rw [Shape.rowMajor_val_two, Shape.rowMajor_val_one]; show 0 * 800000 + e.val = e.val; omega)).trans ?_
  exact extractStridedSlice_apply _ _ _ _ (ix2 0 e) (fun a => match a with
    | ⟨0, _⟩ => by show 0 = 0 + 0; rfl
    | ⟨1, _⟩ => by show e.val = 0 + e.val; omega)

/-- The flat row word of edge `e`: the edge attribute less one, times 50000, plus the source word. -/
theorem kFlatIdx_apply (a1 : IVec S2x800000 32) (a2 : IVec S800000 32) (e : Fin 800000) :
    kFlatIdx a1 a2 (ix1 e) = (a2 (ix1 e) - 1#32) * 50000#32 + a1 (ix2 0 e) := by
  show (a2 (ix1 e) - 1#32) * 50000#32 + kSrc a1 (ix1 e) = _
  rw [kSrc_apply]

/-- A word that reads at least one, less one, reads one less. -/
theorem toInt_pred (x : BitVec 32) (h : 1 ≤ x.toInt) : (x - 1#32).toInt = x.toInt - 1 := by
  have hlt := BitVec.toInt_lt (x := x)
  rw [BitVec.toInt_sub, show (1#32 : BitVec 32).toInt = 1 from by decide]
  exact Int.bmod_eq_of_le (by omega) (by omega)

/-- A hop number times 50000 plus a node number does not wrap: it reads as that integer. -/
theorem toInt_flat (k j : BitVec 32) (hk0 : 0 ≤ k.toInt) (hk : k.toInt < 3) (hj0 : 0 ≤ j.toInt) (hj : j.toInt < 50000) :
    (k * 50000#32 + j).toInt = k.toInt * 50000 + j.toInt := by
  have h1 : (k.toInt * 50000).bmod (2 ^ 32) = k.toInt * 50000 := Int.bmod_eq_of_le (by omega) (by omega)
  rw [BitVec.toInt_add, BitVec.toInt_mul, show (50000#32 : BitVec 32).toInt = 50000 from by decide, h1]
  exact Int.bmod_eq_of_le (by omega) (by omega)

/-- Row `p * 50000 + q` of the merged array is row `q` of slab `p`. -/
theorem kFlat_apply (B : FVec Ideal S3x50000x64 .f32) (r : Fin 150000) (p : Fin 3) (q : Fin 50000) (d : Fin 64)
    (h : r.val = p.val * 50000 + q.val) : kFlat B (ix2 r d) = B (ix3 p q d) := by
  unfold kFlat
  exact shapeCast_apply _ _ _ (ix3 p q d) (by
    rw [Shape.rowMajor_val_three, Shape.rowMajor_val_two]
    show (p.val * 50000 + q.val) * 64 + d.val = r.val * 64 + d.val
    rw [h])

/-- The wrapped index column at `(e, 0)` is the index at `e` when that reads nonnegative. -/
theorem kWrapCol_apply_of_nonneg (n : BitVec 32) (idx : IVec S800000 32) (e : Fin 800000) (h : 0 ≤ (idx (ix1 e)).toInt) :
    kWrapCol n idx (ix2 e 0) = idx (ix1 e) := by
  have hc : ¬ IntOp.cmpi .slt (idx (ix1 e)) 0#32 = 1#1 := by
    rw [IntOp.cmpi_slt, show (0#32 : BitVec 32).toInt = 0 from by decide]
    omega
  unfold kWrapCol
  refine (broadcastInDim_apply _ _ _ _ (ix1 e) (fun a => match a with | ⟨0, _⟩ => rfl)).trans ?_
  show Scalar.select (IntOp.cmpi .slt (idx (ix1 e)) 0#32) _ _ = _
  unfold Scalar.select
  exact if_neg hc

/-- The bounds test holds at every edge when every entry of the index column reads in `[0, hi]`. -/
theorem kInBounds_ones (hi : BitVec 32) (col : IVec S800000x1 32)
    (h : ∀ e : Fin 800000, 0 ≤ (col (ix2 e 0)).toInt ∧ (col (ix2 e 0)).toInt ≤ hi.toInt) :
    ∀ j, kInBounds hi col j = 1#1 := by
  unfold kInBounds
  refine reduce_andi_ones _ _ _ _ (fun i => ?_) (fun _ => rfl)
  obtain ⟨e, z, rfl⟩ : ∃ e z, i = ix2 e z := ⟨i 0, i 1, eq_ix2 i⟩
  obtain rfl : z = 0 := Subsingleton.elim _ _
  refine IntOp.andi_eq_one.2 ⟨IntOp.cmpi_sge.2 ?_, IntOp.cmpi_sle.2 ?_⟩
  · show (0#32 : BitVec 32).toInt ≤ _
    rw [show (0#32 : BitVec 32).toInt = 0 from by decide]
    exact (h e).1
  · exact (h e).2

/-- A per-edge mask laid along the columns reads, at `(e, d)`, the mask at `e`. -/
theorem maskCols_apply (mk : IVec S800000 1) (e : Fin 800000) (d : Fin 64) :
    broadcastInDim S800000x64 ![0] bcast_S800000_S800000x64_0 mk (ix2 e d) = mk (ix1 e) :=
  broadcastInDim_apply _ _ _ _ (ix1 e) (fun a => match a with | ⟨0, _⟩ => rfl)

/-- A select whose condition holds at an index reads its first branch there. -/
theorem select_apply_of_one {s : Shape} {α : Type} (c : IVec s 1) (a b : s.Idx → α) (i : s.Idx) (h : c i = 1#1) :
    select c a b i = a i := by
  show Scalar.select (c i) (a i) (b i) = a i
  unfold Scalar.select
  exact if_pos h

/-! ## The take -/

theorem take_src (B : FVec Ideal S3x50000x64 .f32) (a1 : IVec S2x800000 32) (a2 : IVec S800000 32) (h : InRange a1 a2) :
    kTakeFlat (kFlat B) (kFlatIdx a1 a2) = atSrc B a1 a2 := by
  have hk : ∀ e : Fin 800000, (a2 (ix1 e) - 1#32).toInt = (a2 (ix1 e)).toInt - 1 := fun e => toInt_pred _ (h.2 _).1
  have hw : ∀ e : Fin 800000, (kFlatIdx a1 a2 (ix1 e)).toInt = ((a2 (ix1 e)).toInt - 1) * 50000 + (a1 (ix2 0 e)).toInt := fun e => by
    have h2 := h.2 (ix1 e)
    have h1 := h.1 (ix2 0 e)
    rw [kFlatIdx_apply, toInt_flat _ _ (by rw [hk]; omega) (by rw [hk]; omega) h1.1 h1.2, hk]
  have hcol : ∀ e : Fin 800000, kWrapCol 150000#32 (kFlatIdx a1 a2) (ix2 e 0) = kFlatIdx a1 a2 (ix1 e) := fun e => by
    have h2 := h.2 (ix1 e)
    have h1 := h.1 (ix2 0 e)
    exact kWrapCol_apply_of_nonneg _ _ _ (by rw [hw]; omega)
  have hm : ∀ j, kInBounds 149999#32 (kWrapCol 150000#32 (kFlatIdx a1 a2)) j = 1#1 :=
    kInBounds_ones _ _ (fun e => by
      have h2 := h.2 (ix1 e)
      have h1 := h.1 (ix2 0 e)
      rw [hcol, hw, show (149999#32 : BitVec 32).toInt = 149999 from by decide]
      omega)
  funext i
  obtain ⟨e, d, rfl⟩ : ∃ e d, i = ix2 e d := ⟨i 0, i 1, eq_ix2 i⟩
  unfold kTakeFlat
  refine (select_apply_of_one _ _ _ _ (by rw [maskCols_apply]; exact hm _)).trans ?_
  refine (k_gather_flat _ _ e d).trans ?_
  rw [hcol]
  show kFlat B (ix2 (rowOf 150000 _ (kFlatIdx a1 a2 (ix1 e))) d) = B (ix3 (hop a2 e) (src a1 e) d)
  refine kFlat_apply B _ _ _ d ?_
  have h2 := h.2 (ix1 e)
  have h1 := h.1 (ix2 0 e)
  show min (kFlatIdx a1 a2 (ix1 e)).toInt.toNat (150000 - 1)
    = min (a2 (ix1 e) - 1#32).toInt.toNat (3 - 1) * 50000 + min (a1 (ix2 0 e)).toInt.toNat (50000 - 1)
  rw [hw, hk]
  omega

end Cert.KernelIdeal.HostVals

end
-- ==== Proof.KHostSrc.lean ====
/-
  The gate region's second operand, read off the host operations that run before it. Between the linear maps and the
  gate the program reshapes the per-hop array [3, 50000, 64] to [150000, 64], forms for every edge the flat row word
  (hop word − 1) · 50000 + source word, and takes those rows: a negative word is moved up by the extent, a range mask
  is computed, the rows are gathered, and a row is kept where the mask is set. Each stretch of operations is read from
  any contents of the buffers it finds; the buffers it reads are then walked back to the launch memory and to the
  linear-map region's exit. With the edge words node numbers and the edge attributes hop numbers, the take is the
  source's rows at the edge's hop.
-/
import proofs.«410264_j48739288875406_2_alg».proof.Proof.Gen.KernelIdeal.Frame
import proofs.«410264_j48739288875406_2_alg».proof.Proof.Spec
import proofs.«410264_j48739288875406_2_alg».proof.Proof.Gather
import proofs.«410264_j48739288875406_2_alg».proof.Proof.KTake
import Idealize.ShloMosaic.Lib.StableHlo.Run
import Idealize.ShloMosaic.Lib.StableHlo.Predicate
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx

namespace Cert.KernelIdeal.HostVals

open Cert.KernelIdeal Cert.KernelIdeal.Gen Cert.Gated

/-- A buffer that no operation of a stretch writes keeps its contents across the stretch. -/
local macro "keeps_through" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## Contents moved along a buffer's type -/

/-- Contents carried to a buffer's own type and back are unchanged. -/
theorem ofBuf_toBuf {T : BufTy} (x : StableHlo.TRef sig T) (v : T.Contents (Elt Ideal)) : x.ofBuf (x.toBuf v) = v := by
  obtain ⟨r, rfl, h1, h2⟩ := x
  rfl

/-- For the three buffers the flat take's stretch reads and writes from outside, the buffer's type and the value's are the
    same by evaluation, so the transport is the identity. -/
theorem cast_at_v8 (h : (main_v8 : Ref sig .tc).ty.Contents (Elt Ideal) = (⟨S150000x64, .f32⟩ : BufTy).Contents (Elt Ideal))
    (v : (main_v8 : Ref sig .tc).ty.Contents (Elt Ideal)) : cast h v = v := rfl
theorem cast_at_v11 (h : (main_v11 : Ref sig .tc).ty.Contents (Elt Ideal) = (⟨S800000, .i32⟩ : BufTy).Contents (Elt Ideal))
    (v : (main_v11 : Ref sig .tc).ty.Contents (Elt Ideal)) : cast h v = v := rfl
theorem cast_at_v12 (h : (⟨S800000x64, .f32⟩ : BufTy).Contents (Elt Ideal) = (main_v12 : Ref sig .tc).ty.Contents (Elt Ideal))
    (v : (⟨S800000x64, .f32⟩ : BufTy).Contents (Elt Ideal)) : cast h v = v := rfl

/-! ## The stretches, each from any contents -/

set_option maxHeartbeats 2000000 in
/-- The flat take's stretch leaves, in its result buffer, the take of the table it finds at the row words it finds. -/
theorem take_flat_stretch (W : Valuation τ sig (Elt Ideal)) :
    StableHlo.after hostOps1_3 W (Proc.devRef .tc main_v12)
      = kTakeFlat (W (Proc.devRef .tc main_v8)) (W (Proc.devRef .tc main_v11)) := by
  after_results_simp
  simp only [ofBuf_toBuf]
  simp only [StableHlo.TRef.ofBuf, StableHlo.TRef.toBuf]
  simp only [cast_at_v8, cast_at_v11, cast_at_v12]
  unfold kTakeFlat kInBounds kWrapCol
  rfl

/-- The reshape's stretch leaves the table it finds with its hop and node axes merged … -/
theorem flat_stretch_v8 (W : Valuation τ sig (Elt Ideal)) :
    StableHlo.after hostOps1_2 W (Proc.devRef .tc main_v8) = kFlat (W (Proc.devRef .tc main_v0_2)) := by
  after_results
  rfl

/-- … and the flat row words of the hop words and source words it finds. -/
theorem flat_stretch_v11 (W : Valuation τ sig (Elt Ideal)) :
    StableHlo.after hostOps1_2 W (Proc.devRef .tc main_v11)
      = addi (muli (W (Proc.devRef .tc main_v6) : IVec S800000 32)
          (broadcastInDim S800000 ![] bcast_S_S800000 (constantI S_ 32 50000#32)))
          (W (Proc.devRef .tc main_v4) : IVec S800000 32) := by
  after_results

/-- The first stretch leaves the hop words counted from zero … -/
theorem first_stretch_v6 (W : Valuation τ sig (Elt Ideal)) :
    StableHlo.after hostOps1 W (Proc.devRef .tc main_v6) = kHopIdx (W (Proc.devRef .tc main_arg2)) := by
  after_results
  rfl

/-- … and row 0 of the edge list it finds. -/
theorem first_stretch_v4 (W : Valuation τ sig (Elt Ideal)) :
    StableHlo.after hostOps1 W (Proc.devRef .tc main_v4) = kSrc (W (Proc.devRef .tc main_arg1)) := by
  after_results
  rfl

/-! ## The buffers the flat take reads, walked back to the launch and to the linear-map region's exit -/

variable (m : (ℓ : Loc nD τ sig) → Buf (Elt Ideal) ℓ) (ρ : Dev nD → PrngReg)

/-- The linear-map region's third output is still in place when the reshape reads it. -/
theorem v0_2_kept (c : Dev nD) : W3 m ρ c (Proc.devRef .tc main_v0_2) = W1 m ρ c (Proc.devRef .tc main_v0_2) :=
  calc W3 m ρ c (Proc.devRef .tc main_v0_2)
    _ = W2 m ρ c (Proc.devRef .tc main_v0_2) := by keeps_through hostOps1_1
    _ = W1 m ρ c (Proc.devRef .tc main_v0_2) := by keeps_through hostOps1

/-- The hop words the flat row words are made of: the edge attributes as launched, less one. -/
theorem v6_val (c : Dev nD) :
    W3 m ρ c (Proc.devRef .tc main_v6) = kHopIdx (m ((c : Thread nD τ).loc main_arg2)) :=
  calc W3 m ρ c (Proc.devRef .tc main_v6)
    _ = W2 m ρ c (Proc.devRef .tc main_v6) := by keeps_through hostOps1_1
    _ = kHopIdx (W1 m ρ c (Proc.devRef .tc main_arg2)) := first_stretch_v6 (W1 m ρ c)
    _ = kHopIdx (m ((c : Thread nD τ).loc main_arg2)) := by rw [W1_of_ne m ρ c main_arg2 (by decide)]

/-- The source words: row 0 of the edge list as launched. -/
theorem v4_val (c : Dev nD) :
    W3 m ρ c (Proc.devRef .tc main_v4) = kSrc (m ((c : Thread nD τ).loc main_arg1)) :=
  calc W3 m ρ c (Proc.devRef .tc main_v4)
    _ = W2 m ρ c (Proc.devRef .tc main_v4) := by keeps_through hostOps1_1
    _ = kSrc (W1 m ρ c (Proc.devRef .tc main_arg1)) := first_stretch_v4 (W1 m ρ c)
    _ = kSrc (m ((c : Thread nD τ).loc main_arg1)) := by rw [W1_of_ne m ρ c main_arg1 (by decide)]

/-- The table the flat take reads: the linear-map region's third output, reshaped. -/
theorem v8_val (c : Dev nD) : W4 m ρ c (Proc.devRef .tc main_v8) = kFlat (V1 m ρ c main_v0_2) :=
  calc W4 m ρ c (Proc.devRef .tc main_v8)
    _ = kFlat (W3 m ρ c (Proc.devRef .tc main_v0_2)) := flat_stretch_v8 (W3 m ρ c)
    _ = kFlat (V1 m ρ c main_v0_2) := congrArg kFlat (v0_2_kept m ρ c)

/-- The row words the flat take reads. -/
theorem v11_val (c : Dev nD) :
    W4 m ρ c (Proc.devRef .tc main_v11)
      = kFlatIdx (m ((c : Thread nD τ).loc main_arg1)) (m ((c : Thread nD τ).loc main_arg2)) :=
  calc W4 m ρ c (Proc.devRef .tc main_v11)
    _ = addi (muli (W3 m ρ c (Proc.devRef .tc main_v6) : IVec S800000 32)
          (broadcastInDim S800000 ![] bcast_S_S800000 (constantI S_ 32 50000#32)))
          (W3 m ρ c (Proc.devRef .tc main_v4) : IVec S800000 32) := flat_stretch_v11 (W3 m ρ c)
    _ = addi (muli (kHopIdx (m ((c : Thread nD τ).loc main_arg2)))
          (broadcastInDim S800000 ![] bcast_S_S800000 (constantI S_ 32 50000#32)))
          (kSrc (m ((c : Thread nD τ).loc main_arg1))) := by rw [v6_val m ρ c, v4_val m ρ c]
    _ = kFlatIdx (m ((c : Thread nD τ).loc main_arg1)) (m ((c : Thread nD τ).loc main_arg2)) := rfl

/-! ## The gate region's second operand -/

/-- The fold of the host operations before the gate region, read at its second operand's buffer: the flat take of the
    reshaped third output of the linear-map region at the flat row words of the edges. -/
theorem src_raw (c : Dev nD) :
    V5 m ρ c main_v12
      = kTakeFlat (kFlat (V1 m ρ c main_v0_2))
          (kFlatIdx (m ((c : Thread nD τ).loc main_arg1)) (m ((c : Thread nD τ).loc main_arg2))) :=
  calc W5 m ρ c (Proc.devRef .tc main_v12)
    _ = kTakeFlat (W4 m ρ c (Proc.devRef .tc main_v8)) (W4 m ρ c (Proc.devRef .tc main_v11)) :=
        take_flat_stretch (W4 m ρ c)
    _ = kTakeFlat (kFlat (V1 m ρ c main_v0_2))
          (kFlatIdx (m ((c : Thread nD τ).loc main_arg1)) (m ((c : Thread nD τ).loc main_arg2))) := by
        rw [v8_val m ρ c, v11_val m ρ c]

/-- The gate region's second operand: the source's rows, at the edge's hop, of the linear-map region's third output. -/
theorem src_rows (c : Dev nD)
    (h : InRange (m ((c : Thread nD τ).loc main_arg1)) (m ((c : Thread nD τ).loc main_arg2))) :
    V5 m ρ c main_v12 = atSrc (V1 m ρ c main_v0_2) (m ((c : Thread nD τ).loc main_arg1)) (m ((c : Thread nD τ).loc main_arg2)) :=
  (src_raw m ρ c).trans (take_src _ _ _ h)

end Cert.KernelIdeal.HostVals

end
-- ==== Proof.KHost.lean ====
import proofs.«410264_j48739288875406_2_alg».proof.Proof.Gen.KernelIdeal.Frame
import proofs.«410264_j48739288875406_2_alg».proof.Proof.Spec
import proofs.«410264_j48739288875406_2_alg».proof.Proof.Gather
import proofs.«410264_j48739288875406_2_alg».proof.Proof.SpecFin
import proofs.«410264_j48739288875406_2_alg».proof.Proof.KHostDst
import proofs.«410264_j48739288875406_2_alg».proof.Proof.KHostSrc
import Idealize.ShloMosaic.Lib.StableHlo.Run
import Idealize.ShloMosaic.Lib.StableHlo.Predicate
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HostVals

open Cert.KernelIdeal Cert.KernelIdeal.Gen Cert.Gated

variable (m : (ℓ : Loc nD τ sig) → Buf (Elt Ideal) ℓ) (ρ : Dev nD → PrngReg)

/-- A buffer that no operation of a stretch writes keeps its contents across the stretch. -/
local macro "stretch_keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The launch contents are the memory's. -/
theorem entry_eq (c : Dev nD) (b : Ref sig .tc) : V0 m ρ c b = m ((c : Thread nD τ).loc b) := rfl

/-! ## Between the linear maps and the gate

The two gathers (the destination's rows; the source's rows at the edge's hop) are read in their own modules, imported
above. Here: the destination words and the hop words, which the segment ids are made of, carried to the gate region's exit. -/

/-- Row 1 of the edge list, as the first stretch leaves it as a vector over edges. -/
theorem W2_v2 (c : Dev nD) :
    W2 m ρ c (Proc.devRef .tc main_v2)
      = shapeCast S800000 (extractStridedSlice S1x800000 ![1, 0] (m ((c : Thread nD τ).loc main_arg1)) slices_S2x800000_S1x800000_1_0) shapeCasts_S1x800000_S800000 := by
  show StableHlo.after hostOps1 (W1 m ρ c) (Proc.devRef .tc main_v2) = _
  after_results
  rw [W1_of_ne m ρ c main_arg1 (by decide)]
  rfl

/-- The edge attributes less one, as the first stretch leaves them. -/
theorem W2_v6 (c : Dev nD) :
    W2 m ρ c (Proc.devRef .tc main_v6)
      = subi (m ((c : Thread nD τ).loc main_arg2)) (broadcastInDim S800000 ![] bcast_S_S800000 (constantI S_ 32 1#32)) := by
  show StableHlo.after hostOps1 (W1 m ρ c) (Proc.devRef .tc main_v6) = _
  after_results
  rw [W1_of_ne m ρ c main_arg2 (by decide)]

/-- Neither the two calls' stretches nor the gate region write the destination words. -/
theorem W6_v2 (c : Dev nD) : W6 m ρ c (Proc.devRef .tc main_v2) = W2 m ρ c (Proc.devRef .tc main_v2) :=
  calc W6 m ρ c (Proc.devRef .tc main_v2)
    _ = W5 m ρ c (Proc.devRef .tc main_v2) := W6_of_ne m ρ c main_v2 (by decide)
    _ = W4 m ρ c (Proc.devRef .tc main_v2) := by stretch_keeps hostOps1_3
    _ = W3 m ρ c (Proc.devRef .tc main_v2) := by stretch_keeps hostOps1_2
    _ = W2 m ρ c (Proc.devRef .tc main_v2) := by stretch_keeps hostOps1_1

/-- Nor the hop words. -/
theorem W6_v6 (c : Dev nD) : W6 m ρ c (Proc.devRef .tc main_v6) = W2 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by stretch_keeps hostOps1_3
    _ = W3 m ρ c (Proc.devRef .tc main_v6) := by stretch_keeps hostOps1_2
    _ = W2 m ρ c (Proc.devRef .tc main_v6) := by stretch_keeps hostOps1_1

/-! ## Between the gate and the mixing: the segment sums -/

/-- The segment id of every edge, as the program computes it from the edge list and the edge attributes
    (destination × 3 + hop, in 32-bit words). -/
def segId (a1 : IVec S2x800000 32) (a2 : IVec S800000 32) : IVec S800000 32 :=
  addi (muli (shapeCast S800000 (extractStridedSlice S1x800000 ![1, 0] a1 slices_S2x800000_S1x800000_1_0) shapeCasts_S1x800000_S800000) (broadcastInDim S800000 ![] bcast_S_S800000 (constantI S_ 32 3#32))) (subi a2 (broadcastInDim S800000 ![] bcast_S_S800000 (constantI S_ 32 1#32)))

/-- The zero-based scatter-add of an edge array at the segment ids, laid out as [node, hop, column]. -/
def segSum (seg : IVec S800000 32) (u : FVec Ideal S800000x64 .f32) : FVec Ideal S50000x3x64 .f32 :=
  shapeCast S50000x3x64 (Host.scatterAdd scatter_S150000x64_S800000x1_S800000x64_1_0_0_1 (broadcastInDim S150000x64 ![] bcast_S_S150000x64 (constant (F := Ideal) S_ .f32 0x00000000#32)) (broadcastInDim S800000x1 ![0] bcast_S800000_S800000x1_0 seg) u) shapeCasts_S150000x64_S50000x3x64

/-! ### Finiteness of the segment sums

Stated first over arbitrary operands, where the sum over the colliding updates stays a sum of variables. -/

/-- A reshaped scatter-add of real numbers onto real numbers is a real number at every index. -/
theorem reshaped_scatterAdd_fin {s si su t : Shape} (dd : ScatterDims s si su) {w : Nat} (x0 : FVec Ideal s .f32)
    (idx : IVec si w) (u : FVec Ideal su .f32) (hc : s.ShapeCasts t) (h0 : ∀ k, IsFin (x0 k)) (hu : ∀ j, IsFin (u j))
    (i : t.Idx) : IsFin (shapeCast t (Host.scatterAdd dd x0 idx u) hc i) :=
  scatterAdd_fin dd x0 idx u h0 hu (Shape.reshapeEquiv hc i)

/-- A reshaped scatter-add of nonnegative real numbers onto nonnegative real numbers is one. -/
theorem reshaped_scatterAdd_nonneg {s si su t : Shape} (dd : ScatterDims s si su) {w : Nat} (x0 : FVec Ideal s .f32)
    (idx : IVec si w) (u : FVec Ideal su .f32) (hc : s.ShapeCasts t) (h0 : ∀ k, IsFin (x0 k) ∧ 0 ≤ x0 k)
    (hu : ∀ j, IsFin (u j) ∧ 0 ≤ u j) (i : t.Idx) :
    IsFin (shapeCast t (Host.scatterAdd dd x0 idx u) hc i) ∧ 0 ≤ shapeCast t (Host.scatterAdd dd x0 idx u) hc i :=
  scatterAdd_nonneg dd x0 idx u h0 hu (Shape.reshapeEquiv hc i)

/-- The scatter's base array is the real zero everywhere. -/
theorem zeroBase_eq (k : S150000x64.Idx) :
    broadcastInDim S150000x64 ![] bcast_S_S150000x64 (constant (F := Ideal) S_ .f32 0x00000000#32) k = 0 := by
  rw [StableHlo.Predicate.bcast_scalar bcast_S_S150000x64 h_S_, constant_apply, Ideal.ofBits_zero_f32]

theorem zeroBase_fin (k : S150000x64.Idx) :
    IsFin (broadcastInDim S150000x64 ![] bcast_S_S150000x64 (constant (F := Ideal) S_ .f32 0x00000000#32) k)
      ∧ 0 ≤ broadcastInDim S150000x64 ![] bcast_S_S150000x64 (constant (F := Ideal) S_ .f32 0x00000000#32) k := by
  rw [zeroBase_eq]
  exact ⟨⟨0, rfl⟩, le_refl _⟩

theorem segSum_fin (seg : IVec S800000 32) (u : FVec Ideal S800000x64 .f32) (hu : ∀ j, IsFin (u j)) :
    ∀ i, IsFin (segSum seg u i) := by
  intro i
  delta segSum
  exact reshaped_scatterAdd_fin _ _ _ _ _ (fun k => (zeroBase_fin k).1) hu i

theorem segSum_nonneg (seg : IVec S800000 32) (u : FVec Ideal S800000x64 .f32) (hu : ∀ j, IsFin (u j) ∧ 0 ≤ u j) :
    ∀ i, IsFin (segSum seg u i) ∧ 0 ≤ segSum seg u i := by
  intro i
  delta segSum
  exact reshaped_scatterAdd_nonneg _ _ _ _ _ zeroBase_fin hu i

theorem num_val (c : Dev nD) :
    V7 m ρ c main_v20 = segSum (segId (m ((c : Thread nD τ).loc main_arg1)) (m ((c : Thread nD τ).loc main_arg2))) (V6 m ρ c main_v13_1) := by
  show StableHlo.after hostOps2 (W6 m ρ c) (Proc.devRef .tc main_v20) = _
  after_results_simp
  rw [W6_v2, W6_v6, W2_v2, W2_v6]
  rfl

theorem den_val (c : Dev nD) :
    V7 m ρ c main_v24 = segSum (segId (m ((c : Thread nD τ).loc main_arg1)) (m ((c : Thread nD τ).loc main_arg2))) (V6 m ρ c main_v13_0) := by
  show StableHlo.after hostOps2 (W6 m ρ c) (Proc.devRef .tc main_v24) = _
  after_results_simp
  rw [W6_v2, W6_v6, W2_v2, W2_v6]
  rfl

/-- The linear-map region's first output is still in place when the mixing region is entered. -/
theorem own_kept (c : Dev nD) : V7 m ρ c main_v0_0 = V1 m ρ c main_v0_0 :=
  calc W7 m ρ c (Proc.devRef .tc main_v0_0)
    _ = W6 m ρ c (Proc.devRef .tc main_v0_0) := by stretch_keeps hostOps2
    _ = W5 m ρ c (Proc.devRef .tc main_v0_0) := W6_of_ne m ρ c main_v0_0 (by decide)
    _ = W4 m ρ c (Proc.devRef .tc main_v0_0) := by stretch_keeps hostOps1_3
    _ = W3 m ρ c (Proc.devRef .tc main_v0_0) := by stretch_keeps hostOps1_2
    _ = W2 m ρ c (Proc.devRef .tc main_v0_0) := by stretch_keeps hostOps1_1
    _ = W1 m ρ c (Proc.devRef .tc main_v0_0) := by stretch_keeps hostOps1

/-! ## Between the mixing and the normalisation: the statistics and the reshaped parameters -/

theorem mean_val (c : Dev nD) (d : Fin 64) :
    V9 m ρ c main_v27 (ix2 0 d) = Ideal.div (V8 m ρ c main_v25_1 (ix2 0 d)) nodes := by
  show StableHlo.after hostOps3 (W8 m ρ c) (Proc.devRef .tc main_v27) (ix2 0 d) = _
  after_results
  rfl

theorem var_val (c : Dev nD) (d : Fin 64) :
    V9 m ρ c main_v31 (ix2 0 d)
      = Ideal.div (V8 m ρ c main_v25_2 (ix2 0 d)) nodes
        - Ideal.div (V8 m ρ c main_v25_1 (ix2 0 d)) nodes * Ideal.div (V8 m ρ c main_v25_1 (ix2 0 d)) nodes := by
  show StableHlo.after hostOps3 (W8 m ρ c) (Proc.devRef .tc main_v31) (ix2 0 d) = _
  after_results
  rfl

/-- The two normalisation parameters are launch arguments that nothing writes. -/
theorem W8_arg9 (c : Dev nD) : W8 m ρ c (Proc.devRef .tc main_arg9) = m ((c : Thread nD τ).loc main_arg9) :=
  calc W8 m ρ c (Proc.devRef .tc main_arg9)
    _ = W9 m ρ c (Proc.devRef .tc main_arg9) := by symm; stretch_keeps hostOps3
    _ = W10 m ρ c (Proc.devRef .tc main_arg9) := (W10_of_ne m ρ c main_arg9 (by decide)).symm
    _ = _ := W10_main_arg9 m ρ c

theorem W8_arg10 (c : Dev nD) : W8 m ρ c (Proc.devRef .tc main_arg10) = m ((c : Thread nD τ).loc main_arg10) :=
  calc W8 m ρ c (Proc.devRef .tc main_arg10)
    _ = W9 m ρ c (Proc.devRef .tc main_arg10) := by symm; stretch_keeps hostOps3
    _ = W10 m ρ c (Proc.devRef .tc main_arg10) := (W10_of_ne m ρ c main_arg10 (by decide)).symm
    _ = _ := W10_main_arg10 m ρ c

theorem gamma_val (c : Dev nD) (d : Fin 64) :
    V9 m ρ c main_v32 (ix2 0 d) = m ((c : Thread nD τ).loc main_arg9) (ix1 d) := by
  show StableHlo.after hostOps3 (W8 m ρ c) (Proc.devRef .tc main_v32) (ix2 0 d) = _
  after_results
  rw [W8_arg9]
  exact shapeCast_a_1a_apply _ _ 0 d

theorem beta_val (c : Dev nD) (d : Fin 64) :
    V9 m ρ c main_v33 (ix2 0 d) = m ((c : Thread nD τ).loc main_arg10) (ix1 d) := by
  show StableHlo.after hostOps3 (W8 m ρ c) (Proc.devRef .tc main_v33) (ix2 0 d) = _
  after_results
  rw [W8_arg10]
  exact shapeCast_a_1a_apply _ _ 0 d

/-- The mixing region's first output is still in place when the normalising region is entered. -/
theorem new_kept (c : Dev nD) : V9 m ρ c main_v25_0 = V8 m ρ c main_v25_0 := by
  show W9 m ρ c (Proc.devRef .tc main_v25_0) = W8 m ρ c (Proc.devRef .tc main_v25_0)
  stretch_keeps hostOps3

end Cert.KernelIdeal.HostVals

end
-- ==== Proof.KVal.lean ====
import proofs.«410264_j48739288875406_2_alg».proof.Proof.Gen.KernelIdeal.Frame
import proofs.«410264_j48739288875406_2_alg».proof.Proof.Spec
import proofs.«410264_j48739288875406_2_alg».proof.Proof.Reg0
import proofs.«410264_j48739288875406_2_alg».proof.Proof.Reg1
import proofs.«410264_j48739288875406_2_alg».proof.Proof.Reg2
import proofs.«410264_j48739288875406_2_alg».proof.Proof.Reg3
import proofs.«410264_j48739288875406_2_alg».proof.Proof.KHost

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Value

open Cert.KernelIdeal Cert.KernelIdeal.Gen Cert.Gated Cert.KernelIdeal.HostVals

variable (m : (ℓ : Loc nD τ sig) → Buf (Elt Ideal) ℓ) (ρ : Dev nD → PrngReg)

/-- The node values before normalisation, as the kernel program computes them from the argument arrays. -/
def newVals (a0 : Sx.Idx → EReal) (a1 : Sei.Idx → BitVec 32) (a2 : Sea.Idx → BitVec 32) (a3 : Sw.Idx → EReal) (a4 : Sb.Idx → EReal)
    (a5 : Sw.Idx → EReal) (a6 : Sb.Idx → EReal) (a7 : Swb.Idx → EReal) (a8 : Sbb.Idx → EReal) : Sn.Idx → EReal :=
  mix (segSum (segId a1 a2) (gated (atDst (lin a0 2 a5 a6) a1) (atSrc (hopLin a0 a7 a8) a1 a2)))
    (segSum (segId a1 a2) (gate (atDst (lin a0 2 a5 a6) a1) (atSrc (hopLin a0 a7 a8) a1 a2)))
    (lin a0 2 a3 a4)

/-- The kernel program's result as one function of the argument arrays: the mixed node values normalised by their
    column mean and by the variance taken as mean of squares minus squared mean. -/
def result (a0 : Sx.Idx → EReal) (a1 : Sei.Idx → BitVec 32) (a2 : Sea.Idx → BitVec 32) (a3 : Sw.Idx → EReal) (a4 : Sb.Idx → EReal)
    (a5 : Sw.Idx → EReal) (a6 : Sb.Idx → EReal) (a7 : Swb.Idx → EReal) (a8 : Sbb.Idx → EReal) (a9 a10 : Sb.Idx → EReal) : Sn.Idx → EReal :=
  norm (newVals a0 a1 a2 a3 a4 a5 a6 a7 a8) (colMean (newVals a0 a1 a2 a3 a4 a5 a6 a7 a8)) (varMoments (newVals a0 a1 a2 a3 a4 a5 a6 a7 a8)) a9 a10

/-- What the mixing region finds and leaves: its first output is `newVals` of the arguments. -/
theorem new_eq (c : Dev nD)
    (h : InRange (m ((c : Thread nD τ).loc main_arg1)) (m ((c : Thread nD τ).loc main_arg2))) :
    V8 m ρ c main_v25_0 = newVals (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  have e1 : V1 m ρ c main_v0_0 = lin (m ((c : Thread nD τ).loc main_arg0)) 2 (m ((c : Thread nD τ).loc main_arg3)) (m ((c : Thread nD τ).loc main_arg4)) := by
    refine (W1_arr m ρ c 7).trans ?_
    rw [Lin.own_image (V0 m ρ) c, entry_eq, entry_eq, entry_eq]
  have e2 : V1 m ρ c main_v0_1 = lin (m ((c : Thread nD τ).loc main_arg0)) 2 (m ((c : Thread nD τ).loc main_arg5)) (m ((c : Thread nD τ).loc main_arg6)) := by
    refine (W1_arr m ρ c 8).trans ?_
    rw [Lin.gate_image (V0 m ρ) c, entry_eq, entry_eq, entry_eq]
  have e3 : V1 m ρ c main_v0_2 = hopLin (m ((c : Thread nD τ).loc main_arg0)) (m ((c : Thread nD τ).loc main_arg7)) (m ((c : Thread nD τ).loc main_arg8)) := by
    refine (W1_arr m ρ c 9).trans ?_
    rw [Lin.hop_image (V0 m ρ) c, entry_eq, entry_eq, entry_eq]
  have g0 : V6 m ρ c main_v13_0 = gate (V5 m ρ c main_v7) (V5 m ρ c main_v12) :=
    (W6_arr m ρ c 2).trans (Gate.gate_val (V5 m ρ) c)
  have g1 : V6 m ρ c main_v13_1 = gated (V5 m ρ c main_v7) (V5 m ρ c main_v12) :=
    (W6_arr m ρ c 3).trans (Gate.gated_val (V5 m ρ) c)
  refine (W8_arr m ρ c 3).trans ?_
  rw [Mix.mixed (V7 m ρ) c, num_val, den_val, own_kept, g0, g1, dst_rows m ρ c h, src_rows m ρ c h, e1, e2, e3]
  rfl

/-- The mixed node values as the normalising region finds them. -/
abbrev xn (c : Dev nD) : Sn.Idx → EReal := V8 m ρ c main_v25_0

theorem xn_eq (c : Dev nD) : xn m ρ c = mix (V7 m ρ c main_v20) (V7 m ρ c main_v24) (V7 m ρ c main_v0_0) :=
  (W8_arr m ρ c 3).trans (Mix.mixed (V7 m ρ) c)

/-- The mixing region's second output, one row: the column sums of its first output. -/
theorem sums_eq (c : Dev nD) (d : Fin 64) : V8 m ρ c main_v25_1 (ix2 0 d) = colSum (xn m ρ c) d := by
  rw [xn_eq]
  exact congrFun ((W8_arr m ρ c 4).trans (Mix.col_sums (V7 m ρ) c)) (ix2 0 d)

/-- Its third output, one row: the column sums of the first output's squares. -/
theorem sq_sums_eq (c : Dev nD) (d : Fin 64) :
    V8 m ρ c main_v25_2 (ix2 0 d) = colSum (fun j => xn m ρ c j * xn m ρ c j) d := by
  rw [xn_eq]
  exact congrFun ((W8_arr m ρ c 5).trans (Mix.col_sq_sums (V7 m ρ) c)) (ix2 0 d)

/-- The kernel program's result array at the last boundary is `result` of the arguments. -/
theorem result_eq (c : Dev nD)
    (h : InRange (m ((c : Thread nD τ).loc main_arg1)) (m ((c : Thread nD τ).loc main_arg2))) :
    W10 m ρ c (Proc.devRef .tc main_v34) = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  have hm : (fun d => V9 m ρ c main_v27 (ix2 0 d)) = colMean (xn m ρ c) := by
    funext d; rw [mean_val, sums_eq]; rfl
  have hv : (fun d => V9 m ρ c main_v31 (ix2 0 d)) = varMoments (xn m ρ c) := by
    funext d; rw [var_val, sums_eq, sq_sums_eq]; rfl
  have hg : (fun i : Sb.Idx => V9 m ρ c main_v32 (ix2 0 (i 0))) = m ((c : Thread nD τ).loc main_arg9) := by
    funext i; exact (gamma_val m ρ c (i 0)).trans (congrArg _ (eq_ix1 i).symm)
  have hb : (fun i : Sb.Idx => V9 m ρ c main_v33 (ix2 0 (i 0))) = m ((c : Thread nD τ).loc main_arg10) := by
    funext i; exact (beta_val m ρ c (i 0)).trans (congrArg _ (eq_ix1 i).symm)
  refine (W10_arr m ρ c 5).trans ?_
  rw [Norm.normed (V9 m ρ) c, new_kept, hm, hv, hg, hb]
  show norm (xn m ρ c) (colMean (xn m ρ c)) (varMoments (xn m ρ c)) _ _ = _
  rw [show xn m ρ c = _ from new_eq m ρ c h]
  rfl

end Cert.KernelIdeal.Value

end
-- ==== Proof.RTerms.lean ====
/-
  The reference computation as one composed pure term of its eleven argument arrays, stage by stage:
  each definition is the program's own operations applied in the program's order with the program's own
  dimension records, so that the composed term the operations' fold leaves at a stage's buffer is that
  stage's definition unfolded.
-/
import proofs.«410264_j48739288875406_2_alg».proof.ReferenceIdeal
import proofs.«410264_j48739288875406_2_alg».proof.Proof.Gen.ReferenceIdeal

noncomputable section

namespace Cert.ReferenceIdeal.Hand

open Cert.ReferenceIdeal Cert.ReferenceIdeal.Gen Idealize.ShloMosaic

variable {F : FTy → Type} [FloatOps F]

/-! ## Small pieces used by several stages -/

/-- The literal table `[2, 1, 0]`: hop `k` reads slab `2 - k`. -/
def tRev : IVec S3 32 := fun i => lit0 (S3.rowMajor i)

/-- A three-entry index table with its negative entries wrapped by `n`. -/
def tWrap3 (n : BitVec 32) (x : IVec S3 32) : IVec S3 32 :=
  select (cmpi .slt x (broadcastInDim S3 ![] bcast_S_S3 (constantI S_ 32 0#32)))
    (addi x (broadcastInDim S3 ![] bcast_S_S3 (constantI S_ 32 n))) x

/-- A per-edge index with its negative entries wrapped by `n`. -/
def tWrap (n : BitVec 32) (x : IVec S800000 32) : IVec S800000 32 :=
  select (cmpi .slt x (broadcastInDim S800000 ![] bcast_S_S800000 (constantI S_ 32 0#32)))
    (addi x (broadcastInDim S800000 ![] bcast_S_S800000 (constantI S_ 32 n))) x

/-- A per-edge index as a one-column index table. -/
def tCol (x : IVec S800000 32) : IVec S800000x1 32 :=
  broadcastInDim S800000x1 ![0] bcast_S800000_S800000x1_0 x

/-- A per-column vector repeated over all nodes. -/
def tRows {α : Type} (b : S64.Idx → α) : S50000x64.Idx → α :=
  broadcastInDim S50000x64 ![0, 1] bcast_S1x64_S50000x64_0_1 (broadcastInDim S1x64 ![1] bcast_S64_S1x64_1 b)

/-- A node array against a square weight matrix, plus the bias on every row. -/
def tLin (x : FVec F S50000x64 .f32) (W : FVec F S64x64 .f32) (b : FVec F S64 .f32) : FVec F S50000x64 .f32 :=
  addf (Host.dotGeneral dot_S50000x64_S64x64_S50000x64_1_0_0_1_n_n none x W) (tRows b)

/-- The column sums of a node array. -/
def tColSum (x : FVec F S50000x64 .f32) : FVec F S64 .f32 :=
  Host.reduceAdd x (constant (F := F) S_ .f32 0x00000000#32) reducesTo_S50000x64_S64_d0 h_S_

/-! ## The stages -/

/-- %1: slab 2 of the states as a node array. -/
def tCur (a0 : FVec F S3x50000x64 .f32) : FVec F S50000x64 .f32 :=
  shapeCast S50000x64 (extractStridedSlice S1x50000x64 ![2, 0, 0] a0 slices_S3x50000x64_S1x50000x64_2_0_0)
    shapeCasts_S1x50000x64_S50000x64

/-- %12: the per-hop linear images (hop `k` of slab `2 - k`). -/
def tHop (a0 : FVec F S3x50000x64 .f32) (a7 : FVec F S3x64x64 .f32) (a8 : FVec F S3x64 .f32) : FVec F S3x50000x64 .f32 :=
  addf
    (Host.dotGeneral dot_S3x50000x64_S3x64x64_S3x50000x64_2_1_1_2_0_0 none
      (Host.gather gather_S3x50000x64_S3x1_S3x50000x64_12_0_n_n_0_1_15000064 a0
        (broadcastInDim S3x1 ![0] bcast_S3_S3x1_0 (tWrap3 3#32 tRev)))
      a7)
    (broadcastInDim S3x50000x64 ![0, 1, 2] bcast_S3x1x64_S3x50000x64_0_1_2
      (broadcastInDim S3x1x64 ![0, 2] bcast_S3x64_S3x1x64_0_2 a8))

/-- %16: the node's own linear image. -/
def tOwn (a0 : FVec F S3x50000x64 .f32) (a3 : FVec F S64x64 .f32) (a4 : FVec F S64 .f32) : FVec F S50000x64 .f32 :=
  tLin (tCur a0) a3 a4

/-- %20: the gate's linear image. -/
def tGateLin (a0 : FVec F S3x50000x64 .f32) (a5 : FVec F S64x64 .f32) (a6 : FVec F S64 .f32) : FVec F S50000x64 .f32 :=
  tLin (tCur a0) a5 a6

/-- %22: the edges' destination words (row 1 of the edge list). -/
def tDst (a1 : IVec S2x800000 32) : IVec S800000 32 :=
  shapeCast S800000 (extractStridedSlice S1x800000 ![1, 0] a1 slices_S2x800000_S1x800000_1_0) shapeCasts_S1x800000_S800000

/-- %24: the edges' source words (row 0 of the edge list). -/
def tSrc (a1 : IVec S2x800000 32) : IVec S800000 32 :=
  shapeCast S800000 (extractStridedSlice S1x800000 ![0, 0] a1 slices_S2x800000_S1x800000_0_0) shapeCasts_S1x800000_S800000

/-- %26: the edges' hop words, counted from zero. -/
def tHopIdx (a2 : IVec S800000 32) : IVec S800000 32 :=
  subi a2 (broadcastInDim S800000 ![] bcast_S_S800000 (constantI S_ 32 1#32))

/-- %33: the destination's rows of a node array, edge by edge. -/
def tAtDst {α : Type} (D : S50000x64.Idx → α) (a1 : IVec S2x800000 32) : S800000x64.Idx → α :=
  Host.gather gather_S50000x64_S800000x1_S800000x64_1_0_n_n_0_1_164 D (tCol (tWrap 50000#32 (tDst a1)))

/-- %47 (and %61, the same term): the source's rows of the per-hop array at the edge's hop, edge by edge. -/
def tAtSrc {α : Type} (B : S3x50000x64.Idx → α) (a1 : IVec S2x800000 32) (a2 : IVec S800000 32) : S800000x64.Idx → α :=
  Host.gather gather_S3x50000x64_S800000x2_S800000x64_1_01_n_n_01_1_1164 B
    (concatenate S800000x2 1 [⟨S800000x1, tCol (tWrap 3#32 (tHopIdx a2))⟩, ⟨S800000x1, tCol (tWrap 50000#32 (tSrc a1))⟩]
      concatenates_S800000x1_S800000x1_S800000x2_d1)

/-- The constant one over the edge array. -/
def tOnes : FVec F S800000x64 .f32 :=
  broadcastInDim S800000x64 ![] bcast_S_S800000x64 (constant (F := F) S_ .f32 0x3F800000#32)

/-- %68: the gate, `1 / (1 + exp (-(x + y)))`. -/
def tGate (x y : FVec F S800000x64 .f32) : FVec F S800000x64 .f32 :=
  Host.divf tOnes (addf tOnes (Host.exp (Host.negf (addf x y))))

/-- %72: the gated message. -/
def tMsg (x y : FVec F S800000x64 .f32) : FVec F S800000x64 .f32 :=
  mulf (tGate x y) y

/-- %71: the segment of an edge, `3 * destination + hop`. -/
def tSegId (a1 : IVec S2x800000 32) (a2 : IVec S800000 32) : IVec S800000 32 :=
  addi (muli (tDst a1) (broadcastInDim S800000 ![] bcast_S_S800000 (constantI S_ 32 3#32))) (tHopIdx a2)

/-- %76 / %80: the updates summed per segment, as an array over nodes, hops and columns. -/
def tSegSum (seg : IVec S800000 32) (u : FVec F S800000x64 .f32) : FVec F S50000x3x64 .f32 :=
  shapeCast S50000x3x64
    (Host.scatterAdd scatter_S150000x64_S800000x1_S800000x64_1_0_0_1
      (broadcastInDim S150000x64 ![] bcast_S_S150000x64 (constant (F := F) S_ .f32 0x00000000#32))
      (tCol seg) u)
    shapeCasts_S150000x64_S50000x3x64

/-- %87: the node's new value. -/
def tNew (num den : FVec F S50000x3x64 .f32) (A : FVec F S50000x64 .f32) : FVec F S50000x64 .f32 :=
  addf A
    (mulf (broadcastInDim S50000x64 ![] bcast_S_S50000x64 (constant (F := F) S_ .f32 0x3EAAAAAB#32))
      (Host.reduceAdd
        (Host.divf num (addf den (broadcastInDim S50000x3x64 ![] bcast_S_S50000x3x64 (constant (F := F) S_ .f32 0x358637BD#32))))
        (constant (F := F) S_ .f32 0x00000000#32) reducesTo_S50000x3x64_S50000x64_d1 h_S_))

/-- %90: the column means. -/
def tMean (x : FVec F S50000x64 .f32) : FVec F S64 .f32 :=
  Host.divf (tColSum x) (broadcastInDim S64 ![] bcast_S_S64 (constant (F := F) S_ .f32 0x47435000#32))

/-- The deviations from the column mean as the variance computes it. -/
def tDev (x : FVec F S50000x64 .f32) : FVec F S50000x64 .f32 :=
  subf x
    (broadcastInDim S50000x64 ![0, 1] bcast_S1x64_S50000x64_0_1
      (Host.divf (broadcastInDim S1x64 ![1] bcast_S64_S1x64_1 (tColSum x))
        (broadcastInDim S1x64 ![] bcast_S_S1x64 (constant (F := F) S_ .f32 0x47435000#32))))

/-- The variance's divisor: the node count minus zero degrees of freedom. -/
def tCount : FVec F S_ .f32 :=
  subf (constant (F := F) S_ .f32 0x47435000#32) (sitofp (F := F) .f32 (constantI S_ 32 0#32))

/-- %91: the column variances. -/
def tVar (x : FVec F S50000x64 .f32) : FVec F S64 .f32 :=
  select (broadcastInDim S64 ![] bcast_S_S64 (cmpf (F := F) .ogt tCount (constant (F := F) S_ .f32 0x00000000#32)))
    (Host.divf (tColSum (mulf (tDev x) (tDev x))) (broadcastInDim S64 ![] bcast_S_S64 (tCount (F := F))))
    (broadcastInDim S64 ![] bcast_S_S64 (constant (F := F) S_ .f32 0x7FC00000#32))

/-- %107: scale by the inverse deviation around the mean, shift, clip below at zero. -/
def tNorm (x : FVec F S50000x64 .f32) (mean var a9 a10 : FVec F S64 .f32) : FVec F S50000x64 .f32 :=
  maximumf
    (addf
      (mulf (mulf (tRows a9) (subf x (tRows mean)))
        (tRows (Host.rsqrt (addf var (broadcastInDim S64 ![] bcast_S_S64 (constant (F := F) S_ .f32 0x3727C5AC#32))))))
      (tRows a10))
    (broadcastInDim S50000x64 ![] bcast_S_S50000x64 (constant (F := F) S_ .f32 0x00000000#32))

/-! ## The composition -/

/-- %33 of the arguments. -/
def tX (a0 : FVec F S3x50000x64 .f32) (a1 : IVec S2x800000 32) (a5 : FVec F S64x64 .f32) (a6 : FVec F S64 .f32) :
    FVec F S800000x64 .f32 :=
  tAtDst (tGateLin a0 a5 a6) a1

/-- %47 of the arguments. -/
def tY (a0 : FVec F S3x50000x64 .f32) (a1 : IVec S2x800000 32) (a2 : IVec S800000 32) (a7 : FVec F S3x64x64 .f32)
    (a8 : FVec F S3x64 .f32) : FVec F S800000x64 .f32 :=
  tAtSrc (tHop a0 a7 a8) a1 a2

/-- %87 of the arguments. -/
def tNode (a0 : FVec F S3x50000x64 .f32) (a1 : IVec S2x800000 32) (a2 : IVec S800000 32) (a3 : FVec F S64x64 .f32)
    (a4 : FVec F S64 .f32) (a5 : FVec F S64x64 .f32) (a6 : FVec F S64 .f32) (a7 : FVec F S3x64x64 .f32) (a8 : FVec F S3x64 .f32) :
    FVec F S50000x64 .f32 :=
  tNew (tSegSum (tSegId a1 a2) (tMsg (tX a0 a1 a5 a6) (tY a0 a1 a2 a7 a8)))
    (tSegSum (tSegId a1 a2) (tGate (tX a0 a1 a5 a6) (tY a0 a1 a2 a7 a8))) (tOwn a0 a3 a4)

/-- The result, %107, of the eleven arguments. -/
def tOut (a0 : FVec F S3x50000x64 .f32) (a1 : IVec S2x800000 32) (a2 : IVec S800000 32) (a3 : FVec F S64x64 .f32)
    (a4 : FVec F S64 .f32) (a5 : FVec F S64x64 .f32) (a6 : FVec F S64 .f32) (a7 : FVec F S3x64x64 .f32) (a8 : FVec F S3x64 .f32)
    (a9 a10 : FVec F S64 .f32) : FVec F S50000x64 .f32 :=
  tNorm (tNode a0 a1 a2 a3 a4 a5 a6 a7 a8) (tMean (tNode a0 a1 a2 a3 a4 a5 a6 a7 a8)) (tVar (tNode a0 a1 a2 a3 a4 a5 a6 a7 a8)) a9 a10

end Cert.ReferenceIdeal.Hand

end
-- ==== Proof.ROps.lean ====
import proofs.«410264_j48739288875406_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 31. -/
abbrev ops1 : List (HloOp τ sig (Elt F)) :=
  [ StableHlo.nullary main_c (fun i => lit0 (S3.rowMajor i)),
    StableHlo.unary main_arg0 main_v0 ((extractStridedSlice S1x50000x64 ![2, 0, 0] · slices_S3x50000x64_S1x50000x64_2_0_0) : (⟨S3x50000x64, .f32⟩ : BufTy).Contents (Elt F) → (⟨S1x50000x64, .f32⟩ : BufTy).Contents (Elt F)),
    StableHlo.reshape main_v0 main_v1 rfl shapeCasts_S1x50000x64_S50000x64,
    StableHlo.nullary main_c_0 (constantI S_ 32 0#32),
    StableHlo.unary main_c_0 main_v2 (broadcastInDim S3 ![] bcast_S_S3 : (⟨S_, .i32⟩ : BufTy).Contents (Elt F) → (⟨S3, .i32⟩ : BufTy).Contents (Elt F)),
    StableHlo.binary main_c main_v2 main_v3 (cmpi .slt : (⟨S3, .i32⟩ : BufTy).Contents (Elt F) → (⟨S3, .i32⟩ : BufTy).Contents (Elt F) → (⟨S3, .i1⟩ : BufTy).Contents (Elt F)),
    StableHlo.nullary main_c_1 (constantI S_ 32 3#32),
    StableHlo.unary main_c_1 main_v4 (broadcastInDim S3 ![] bcast_S_S3 : (⟨S_, .i32⟩ : BufTy).Contents (Elt F) → (⟨S3, .i32⟩ : BufTy).Contents (Elt F)),
    StableHlo.binary main_c main_v4 main_v5 (addi : (⟨S3, .i32⟩ : BufTy).Contents (Elt F) → (⟨S3, .i32⟩ : BufTy).Contents (Elt F) → (⟨S3, .i32⟩ : BufTy).Contents (Elt F)),
    StableHlo.ternary main_v3 main_v5 main_c main_v6 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v6 main_v7 (broadcastInDim S3x1 ![0] bcast_S3_S3x1_0 : (⟨S3, .i32⟩ : BufTy).Contents (Elt F) → (⟨S3x1, .i32⟩ : BufTy).Contents (Elt F)),
    StableHlo.binary main_arg0 main_v7 main_v8 ((fun x i => Host.gather gather_S3x50000x64_S3x1_S3x50000x64_12_0_n_n_0_1_15000064 x i) : (⟨S3x50000x64, .f32⟩ : BufTy).Contents (Elt F) → (⟨S3x1, .i32⟩ : BufTy).Contents (Elt F) → (⟨S3x50000x64, .f32⟩ : BufTy).Contents (Elt F)),
    StableHlo.binary main_v8 main_arg7 main_v9 ((fun l r => Host.dotGeneral dot_S3x50000x64_S3x64x64_S3x50000x64_2_1_1_2_0_0 none l r) : (⟨S3x50000x64, .f32⟩ : BufTy).Contents (Elt F) → (⟨S3x64x64, .f32⟩ : BufTy).Contents (Elt F) → (⟨S3x50000x64, .f32⟩ : BufTy).Contents (Elt F)),
    StableHlo.unary main_arg8 main_v10 (broadcastInDim S3x1x64 ![0, 2] bcast_S3x64_S3x1x64_0_2 : (⟨S3x64, .f32⟩ : BufTy).Contents (Elt F) → (⟨S3x1x64, .f32⟩ : BufTy).Contents (Elt F)),
    StableHlo.unary main_v10 main_v11 (broadcastInDim S3x50000x64 ![0, 1, 2] bcast_S3x1x64_S3x50000x64_0_1_2 : (⟨S3x1x64, .f32⟩ : BufTy).Contents (Elt F) → (⟨S3x50000x64, .f32⟩ : BufTy).Contents (Elt F)),
    StableHlo.binary main_v9 main_v11 main_v12 (addf : (⟨S3x50000x64, .f32⟩ : BufTy).Contents (Elt F) → (⟨S3x50000x64, .f32⟩ : BufTy).Contents (Elt F) → (⟨S3x50000x64, .f32⟩ : BufTy).Contents (Elt F)),
    StableHlo.binary main_v1 main_arg3 main_v13 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S50000x64 ![0, 1] bcast_S1x64_S50000x64_0_1 : (⟨S1x64, .f32⟩ : BufTy).Contents (Elt F) → (⟨S50000x64, .f32⟩ : BufTy).Contents (Elt F)),
    StableHlo.binary main_v13 main_v15 main_v16 (addf : (⟨S50000x64, .f32⟩ : BufTy).Contents (Elt F) → (⟨S50000x64, .f32⟩ : BufTy).Contents (Elt F) → (⟨S50000x64, .f32⟩ : BufTy).Contents (Elt F)),
    StableHlo.binary main_v1 main_arg5 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v19 main_v20 (addf : (⟨S50000x64, .f32⟩ : BufTy).Contents (Elt F) → (⟨S50000x64, .f32⟩ : BufTy).Contents (Elt F) → (⟨S50000x64, .f32⟩ : BufTy).Contents (Elt F)),
    StableHlo.unary main_arg1 main_v21 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v21 main_v22 rfl shapeCasts_S1x800000_S800000,
    StableHlo.unary main_arg1 main_v23 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v23 main_v24 rfl shapeCasts_S1x800000_S800000,
    StableHlo.nullary main_c_2 (constantI S_ 32 1#32),
    StableHlo.unary main_c_2 main_v25 (broadcastInDim S800000 ![] bcast_S_S800000 : (⟨S_, .i32⟩ : BufTy).Contents (Elt F) → (⟨S800000, .i32⟩ : BufTy).Contents (Elt F)),
    StableHlo.binary main_arg2 main_v25 main_v26 (subi : (⟨S800000, .i32⟩ : BufTy).Contents (Elt F) → (⟨S800000, .i32⟩ : BufTy).Contents (Elt F) → (⟨S800000, .i32⟩ : BufTy).Contents (Elt F)) ]
/-- The buffers operations 1 … 31 write. -/
abbrev ops1_W : List (Ref sig .tc) := [main_c, main_v0, main_v1, main_c_0, main_v2, main_v3, main_c_1, main_v4, main_v5, main_v6, main_v7, main_v8, main_v9, main_v10, main_v11, main_v12, main_v13, main_v14, main_v15, main_v16, main_v17, main_v18, main_v19, main_v20, main_v21, main_v22, main_v23, main_v24, main_c_2, main_v25, main_v26]

/-- Operations 32 … 58. -/
abbrev ops2 : List (HloOp τ sig (Elt F)) :=
  [ StableHlo.nullary main_c_3 (constantI S_ 32 0#32),
    StableHlo.unary main_c_3 main_v27 (broadcastInDim S800000 ![] bcast_S_S800000 : (⟨S_, .i32⟩ : BufTy).Contents (Elt F) → (⟨S800000, .i32⟩ : BufTy).Contents (Elt F)),
    StableHlo.binary main_v22 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v29 (broadcastInDim S800000 ![] bcast_S_S800000 : (⟨S_, .i32⟩ : BufTy).Contents (Elt F) → (⟨S800000, .i32⟩ : BufTy).Contents (Elt F)),
    StableHlo.binary main_v22 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v22 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v20 main_v32 main_v33 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_5 (constantI S_ 32 0#32),
    StableHlo.unary main_c_5 main_v34 (broadcastInDim S800000 ![] bcast_S_S800000 : (⟨S_, .i32⟩ : BufTy).Contents (Elt F) → (⟨S800000, .i32⟩ : BufTy).Contents (Elt F)),
    StableHlo.binary main_v26 main_v34 main_v35 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 3#32),
    StableHlo.unary main_c_6 main_v36 (broadcastInDim S800000 ![] bcast_S_S800000 : (⟨S_, .i32⟩ : BufTy).Contents (Elt F) → (⟨S800000, .i32⟩ : BufTy).Contents (Elt F)),
    StableHlo.binary main_v26 main_v36 main_v37 (addi : (⟨S800000, .i32⟩ : BufTy).Contents (Elt F) → (⟨S800000, .i32⟩ : BufTy).Contents (Elt F) → (⟨S800000, .i32⟩ : BufTy).Contents (Elt F)),
    StableHlo.ternary main_v35 main_v37 main_v26 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.nullary main_c_7 (constantI S_ 32 0#32),
    StableHlo.unary main_c_7 main_v39 (broadcastInDim S800000 ![] bcast_S_S800000 : (⟨S_, .i32⟩ : BufTy).Contents (Elt F) → (⟨S800000, .i32⟩ : BufTy).Contents (Elt F)),
    StableHlo.binary main_v24 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v41 (broadcastInDim S800000 ![] bcast_S_S800000 : (⟨S_, .i32⟩ : BufTy).Contents (Elt F) → (⟨S800000, .i32⟩ : BufTy).Contents (Elt F)),
    StableHlo.binary main_v24 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_v24 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v38 main_v44 (broadcastInDim S800000x1 ![0] bcast_S800000_S800000x1_0 : (⟨S800000, .i32⟩ : BufTy).Contents (Elt F) → (⟨S800000x1, .i32⟩ : BufTy).Contents (Elt F)),
    StableHlo.unary main_v43 main_v45 (broadcastInDim S800000x1 ![0] bcast_S800000_S800000x1_0 : (⟨S800000, .i32⟩ : BufTy).Contents (Elt F) → (⟨S800000x1, .i32⟩ : BufTy).Contents (Elt F)),
    StableHlo.binary main_v44 main_v45 main_v46 ((fun a b => concatenate S800000x2 1 [⟨S800000x1, a⟩, ⟨S800000x1, b⟩] concatenates_S800000x1_S800000x1_S800000x2_d1) : (⟨S800000x1, .i32⟩ : BufTy).Contents (Elt F) → (⟨S800000x1, .i32⟩ : BufTy).Contents (Elt F) → (⟨S800000x2, .i32⟩ : BufTy).Contents (Elt F)),
    StableHlo.binary main_v12 main_v46 main_v47 ((fun x i => Host.gather gather_S3x50000x64_S800000x2_S800000x64_1_01_n_n_01_1_1164 x i) : (⟨S3x50000x64, .f32⟩ : BufTy).Contents (Elt F) → (⟨S800000x2, .i32⟩ : BufTy).Contents (Elt F) → (⟨S800000x64, .f32⟩ : BufTy).Contents (Elt F)) ]
/-- The buffers operations 32 … 58 write. -/
abbrev ops2_W : List (Ref sig .tc) := [main_c_3, main_v27, main_v28, main_c_4, main_v29, main_v30, main_v31, main_v32, main_v33, main_c_5, main_v34, main_v35, main_c_6, main_v36, main_v37, main_v38, main_c_7, main_v39, main_v40, main_c_8, main_v41, main_v42, main_v43, main_v44, main_v45, main_v46, main_v47]

/-- Operations 59 … 76. -/
abbrev ops3 : List (HloOp τ sig (Elt F)) :=
  [ StableHlo.nullary main_c_9 (constantI S_ 32 0#32),
    StableHlo.unary main_c_9 main_v48 (broadcastInDim S800000 ![] bcast_S_S800000 : (⟨S_, .i32⟩ : BufTy).Contents (Elt F) → (⟨S800000, .i32⟩ : BufTy).Contents (Elt F)),
    StableHlo.binary main_v26 main_v48 main_v49 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 3#32),
    StableHlo.unary main_c_10 main_v50 (broadcastInDim S800000 ![] bcast_S_S800000 : (⟨S_, .i32⟩ : BufTy).Contents (Elt F) → (⟨S800000, .i32⟩ : BufTy).Contents (Elt F)),
    StableHlo.binary main_v26 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_v26 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.nullary main_c_11 (constantI S_ 32 0#32),
    StableHlo.unary main_c_11 main_v53 (broadcastInDim S800000 ![] bcast_S_S800000 : (⟨S_, .i32⟩ : BufTy).Contents (Elt F) → (⟨S800000, .i32⟩ : BufTy).Contents (Elt F)),
    StableHlo.binary main_v24 main_v53 main_v54 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v55 (broadcastInDim S800000 ![] bcast_S_S800000 : (⟨S_, .i32⟩ : BufTy).Contents (Elt F) → (⟨S800000, .i32⟩ : BufTy).Contents (Elt F)),
    StableHlo.binary main_v24 main_v55 main_v56 (addi : (⟨S800000, .i32⟩ : BufTy).Contents (Elt F) → (⟨S800000, .i32⟩ : BufTy).Contents (Elt F) → (⟨S800000, .i32⟩ : BufTy).Contents (Elt F)),
    StableHlo.ternary main_v54 main_v56 main_v24 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v58 (broadcastInDim S800000x1 ![0] bcast_S800000_S800000x1_0 : (⟨S800000, .i32⟩ : BufTy).Contents (Elt F) → (⟨S800000x1, .i32⟩ : BufTy).Contents (Elt F)),
    StableHlo.unary main_v57 main_v59 (broadcastInDim S800000x1 ![0] bcast_S800000_S800000x1_0 : (⟨S800000, .i32⟩ : BufTy).Contents (Elt F) → (⟨S800000x1, .i32⟩ : BufTy).Contents (Elt F)),
    StableHlo.binary main_v58 main_v59 main_v60 ((fun a b => concatenate S800000x2 1 [⟨S800000x1, a⟩, ⟨S800000x1, b⟩] concatenates_S800000x1_S800000x1_S800000x2_d1) : (⟨S800000x1, .i32⟩ : BufTy).Contents (Elt F) → (⟨S800000x1, .i32⟩ : BufTy).Contents (Elt F) → (⟨S800000x2, .i32⟩ : BufTy).Contents (Elt F)),
    StableHlo.binary main_v12 main_v60 main_v61 ((fun x i => Host.gather gather_S3x50000x64_S800000x2_S800000x64_1_01_n_n_01_1_1164 x i) : (⟨S3x50000x64, .f32⟩ : BufTy).Contents (Elt F) → (⟨S800000x2, .i32⟩ : BufTy).Contents (Elt F) → (⟨S800000x64, .f32⟩ : BufTy).Contents (Elt F)) ]
/-- The buffers operations 59 … 76 write. -/
abbrev ops3_W : List (Ref sig .tc) := [main_c_9, main_v48, main_v49, main_c_10, main_v50, main_v51, main_v52, main_c_11, main_v53, main_v54, main_c_12, main_v55, main_v56, main_v57, main_v58, main_v59, main_v60, main_v61]

/-- Operations 77 … 90. -/
abbrev ops4 : List (HloOp τ sig (Elt F)) :=
  [ StableHlo.binary main_v33 main_v47 main_v62 (addf : (⟨S800000x64, .f32⟩ : BufTy).Contents (Elt F) → (⟨S800000x64, .f32⟩ : BufTy).Contents (Elt F) → (⟨S800000x64, .f32⟩ : BufTy).Contents (Elt F)),
    StableHlo.unary main_v62 main_v63 (Host.negf : (⟨S800000x64, .f32⟩ : BufTy).Contents (Elt F) → (⟨S800000x64, .f32⟩ : BufTy).Contents (Elt F)),
    StableHlo.unary main_v63 main_v64 (Host.exp : (⟨S800000x64, .f32⟩ : BufTy).Contents (Elt F) → (⟨S800000x64, .f32⟩ : BufTy).Contents (Elt F)),
    StableHlo.nullary main_cst (constant S_ .f32 0x3F800000#32),
    StableHlo.unary main_cst main_v65 (broadcastInDim S800000x64 ![] bcast_S_S800000x64 : (⟨S_, .f32⟩ : BufTy).Contents (Elt F) → (⟨S800000x64, .f32⟩ : BufTy).Contents (Elt F)),
    StableHlo.binary main_v65 main_v64 main_v66 (addf : (⟨S800000x64, .f32⟩ : BufTy).Contents (Elt F) → (⟨S800000x64, .f32⟩ : BufTy).Contents (Elt F) → (⟨S800000x64, .f32⟩ : BufTy).Contents (Elt F)),
    StableHlo.nullary main_cst_13 (constant S_ .f32 0x3F800000#32),
    StableHlo.unary main_cst_13 main_v67 (broadcastInDim S800000x64 ![] bcast_S_S800000x64 : (⟨S_, .f32⟩ : BufTy).Contents (Elt F) → (⟨S800000x64, .f32⟩ : BufTy).Contents (Elt F)),
    StableHlo.binary main_v67 main_v66 main_v68 (Host.divf : (⟨S800000x64, .f32⟩ : BufTy).Contents (Elt F) → (⟨S800000x64, .f32⟩ : BufTy).Contents (Elt F) → (⟨S800000x64, .f32⟩ : BufTy).Contents (Elt F)),
    StableHlo.nullary main_c_14 (constantI S_ 32 3#32),
    StableHlo.unary main_c_14 main_v69 (broadcastInDim S800000 ![] bcast_S_S800000 : (⟨S_, .i32⟩ : BufTy).Contents (Elt F) → (⟨S800000, .i32⟩ : BufTy).Contents (Elt F)),
    StableHlo.binary main_v22 main_v69 main_v70 (muli : (⟨S800000, .i32⟩ : BufTy).Contents (Elt F) → (⟨S800000, .i32⟩ : BufTy).Contents (Elt F) → (⟨S800000, .i32⟩ : BufTy).Contents (Elt F)),
    StableHlo.binary main_v70 main_v26 main_v71 (addi : (⟨S800000, .i32⟩ : BufTy).Contents (Elt F) → (⟨S800000, .i32⟩ : BufTy).Contents (Elt F) → (⟨S800000, .i32⟩ : BufTy).Contents (Elt F)),
    StableHlo.binary main_v68 main_v61 main_v72 (mulf : (⟨S800000x64, .f32⟩ : BufTy).Contents (Elt F) → (⟨S800000x64, .f32⟩ : BufTy).Contents (Elt F) → (⟨S800000x64, .f32⟩ : BufTy).Contents (Elt F)) ]
/-- The buffers operations 77 … 90 write. -/
abbrev ops4_W : List (Ref sig .tc) := [main_v62, main_v63, main_v64, main_cst, main_v65, main_v66, main_cst_13, main_v67, main_v68, main_c_14, main_v69, main_v70, main_v71, main_v72]

/-- Operations 91 … 100. -/
abbrev ops5 : List (HloOp τ sig (Elt F)) :=
  [ StableHlo.nullary main_cst_15 (constant S_ .f32 0x00000000#32),
    StableHlo.unary main_cst_15 main_v73 (broadcastInDim S150000x64 ![] bcast_S_S150000x64 : (⟨S_, .f32⟩ : BufTy).Contents (Elt F) → (⟨S150000x64, .f32⟩ : BufTy).Contents (Elt F)),
    StableHlo.unary main_v71 main_v74 (broadcastInDim S800000x1 ![0] bcast_S800000_S800000x1_0 : (⟨S800000, .i32⟩ : BufTy).Contents (Elt F) → (⟨S800000x1, .i32⟩ : BufTy).Contents (Elt F)),
    StableHlo.ternary main_v73 main_v74 main_v72 main_v75 ((fun x i u => Host.scatterAdd scatter_S150000x64_S800000x1_S800000x64_1_0_0_1 x i u) : (⟨S150000x64, .f32⟩ : BufTy).Contents (Elt F) → (⟨S800000x1, .i32⟩ : BufTy).Contents (Elt F) → (⟨S800000x64, .f32⟩ : BufTy).Contents (Elt F) → (⟨S150000x64, .f32⟩ : BufTy).Contents (Elt F)),
    StableHlo.reshape main_v75 main_v76 rfl shapeCasts_S150000x64_S50000x3x64,
    StableHlo.nullary main_cst_16 (constant S_ .f32 0x00000000#32),
    StableHlo.unary main_cst_16 main_v77 (broadcastInDim S150000x64 ![] bcast_S_S150000x64 : (⟨S_, .f32⟩ : BufTy).Contents (Elt F) → (⟨S150000x64, .f32⟩ : BufTy).Contents (Elt F)),
    StableHlo.unary main_v71 main_v78 (broadcastInDim S800000x1 ![0] bcast_S800000_S800000x1_0 : (⟨S800000, .i32⟩ : BufTy).Contents (Elt F) → (⟨S800000x1, .i32⟩ : BufTy).Contents (Elt F)),
    StableHlo.ternary main_v77 main_v78 main_v68 main_v79 ((fun x i u => Host.scatterAdd scatter_S150000x64_S800000x1_S800000x64_1_0_0_1 x i u) : (⟨S150000x64, .f32⟩ : BufTy).Contents (Elt F) → (⟨S800000x1, .i32⟩ : BufTy).Contents (Elt F) → (⟨S800000x64, .f32⟩ : BufTy).Contents (Elt F) → (⟨S150000x64, .f32⟩ : BufTy).Contents (Elt F)),
    StableHlo.reshape main_v79 main_v80 rfl shapeCasts_S150000x64_S50000x3x64 ]
/-- The buffers operations 91 … 100 write. -/
abbrev ops5_W : List (Ref sig .tc) := [main_cst_15, main_v73, main_v74, main_v75, main_v76, main_cst_16, main_v77, main_v78, main_v79, main_v80]

/-- Operations 101 … 115. -/
abbrev ops6 : List (HloOp τ sig (Elt F)) :=
  [ StableHlo.nullary main_cst_17 (constant S_ .f32 0x358637BD#32),
    StableHlo.unary main_cst_17 main_v81 (broadcastInDim S50000x3x64 ![] bcast_S_S50000x3x64 : (⟨S_, .f32⟩ : BufTy).Contents (Elt F) → (⟨S50000x3x64, .f32⟩ : BufTy).Contents (Elt F)),
    StableHlo.binary main_v80 main_v81 main_v82 (addf : (⟨S50000x3x64, .f32⟩ : BufTy).Contents (Elt F) → (⟨S50000x3x64, .f32⟩ : BufTy).Contents (Elt F) → (⟨S50000x3x64, .f32⟩ : BufTy).Contents (Elt F)),
    StableHlo.binary main_v76 main_v82 main_v83 (Host.divf : (⟨S50000x3x64, .f32⟩ : BufTy).Contents (Elt F) → (⟨S50000x3x64, .f32⟩ : BufTy).Contents (Elt F) → (⟨S50000x3x64, .f32⟩ : BufTy).Contents (Elt F)),
    StableHlo.nullary main_cst_18 (constant S_ .f32 0x00000000#32),
    StableHlo.binary main_v83 main_cst_18 main_v84 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)),
    StableHlo.nullary main_cst_19 (constant S_ .f32 0x3EAAAAAB#32),
    StableHlo.unary main_cst_19 main_v85 (broadcastInDim S50000x64 ![] bcast_S_S50000x64 : (⟨S_, .f32⟩ : BufTy).Contents (Elt F) → (⟨S50000x64, .f32⟩ : BufTy).Contents (Elt F)),
    StableHlo.binary main_v85 main_v84 main_v86 (mulf : (⟨S50000x64, .f32⟩ : BufTy).Contents (Elt F) → (⟨S50000x64, .f32⟩ : BufTy).Contents (Elt F) → (⟨S50000x64, .f32⟩ : BufTy).Contents (Elt F)),
    StableHlo.binary main_v16 main_v86 main_v87 (addf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x00000000#32),
    StableHlo.binary main_v87 main_cst_20 main_v88 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_21 (constant S_ .f32 0x47435000#32),
    StableHlo.unary main_cst_21 main_v89 (broadcastInDim S64 ![] bcast_S_S64 : (⟨S_, .f32⟩ : BufTy).Contents (Elt F) → (⟨S64, .f32⟩ : BufTy).Contents (Elt F)),
    StableHlo.binary main_v88 main_v89 main_v90 (Host.divf : (⟨S64, .f32⟩ : BufTy).Contents (Elt F) → (⟨S64, .f32⟩ : BufTy).Contents (Elt F) → (⟨S64, .f32⟩ : BufTy).Contents (Elt F)) ]
/-- The buffers operations 101 … 115 write. -/
abbrev ops6_W : List (Ref sig .tc) := [main_cst_17, main_v81, main_v82, main_v83, main_cst_18, main_v84, main_cst_19, main_v85, main_v86, main_v87, main_cst_20, main_v88, main_cst_21, main_v89, main_v90]

/-- Operations 116 … 138. -/
abbrev ops7 : List (HloOp τ sig (Elt F)) :=
  [ StableHlo.nullary main_c_22 (constantI S_ 32 0#32),
    StableHlo.TRef.nullary main_call0.cst (constant S_ .f32 0x00000000#32),
    StableHlo.TRef.binary (.of main_v87) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v87) main_call0.v4 main_call0.v5 subf,
    StableHlo.TRef.binary main_call0.v5 main_call0.v5 main_call0.v6 mulf,
    StableHlo.TRef.unary (.of main_c_22) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]
/-- The buffers operations 116 … 138 write. -/
abbrev ops7_W : List (Ref sig .tc) := [main_c_22, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v91]

/-- Operations 139 … 157. -/
abbrev ops8 : List (HloOp τ sig (Elt F)) :=
  [ StableHlo.unary main_v90 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v93 main_v94 (subf : (⟨S50000x64, .f32⟩ : BufTy).Contents (Elt F) → (⟨S50000x64, .f32⟩ : BufTy).Contents (Elt F) → (⟨S50000x64, .f32⟩ : BufTy).Contents (Elt F)),
    StableHlo.unary main_arg9 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S50000x64 ![0, 1] bcast_S1x64_S50000x64_0_1 : (⟨S1x64, .f32⟩ : BufTy).Contents (Elt F) → (⟨S50000x64, .f32⟩ : BufTy).Contents (Elt F)),
    StableHlo.binary main_v96 main_v94 main_v97 (mulf : (⟨S50000x64, .f32⟩ : BufTy).Contents (Elt F) → (⟨S50000x64, .f32⟩ : BufTy).Contents (Elt F) → (⟨S50000x64, .f32⟩ : BufTy).Contents (Elt F)),
    StableHlo.nullary main_cst_23 (constant S_ .f32 0x3727C5AC#32),
    StableHlo.unary main_cst_23 main_v98 (broadcastInDim S64 ![] bcast_S_S64 : (⟨S_, .f32⟩ : BufTy).Contents (Elt F) → (⟨S64, .f32⟩ : BufTy).Contents (Elt F)),
    StableHlo.binary main_v91 main_v98 main_v99 (addf : (⟨S64, .f32⟩ : BufTy).Contents (Elt F) → (⟨S64, .f32⟩ : BufTy).Contents (Elt F) → (⟨S64, .f32⟩ : BufTy).Contents (Elt F)),
    StableHlo.unary main_v99 main_v100 (Host.rsqrt : (⟨S64, .f32⟩ : BufTy).Contents (Elt F) → (⟨S64, .f32⟩ : BufTy).Contents (Elt F)),
    StableHlo.unary main_v100 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v97 main_v102 main_v103 (mulf : (⟨S50000x64, .f32⟩ : BufTy).Contents (Elt F) → (⟨S50000x64, .f32⟩ : BufTy).Contents (Elt F) → (⟨S50000x64, .f32⟩ : BufTy).Contents (Elt F)),
    StableHlo.unary main_arg10 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v103 main_v105 main_v106 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v106) main_call1.v0 main_call1.v1 maximumf ]
/-- The buffers operations 139 … 157 write. -/
abbrev ops8_W : List (Ref sig .tc) := [main_v92, main_v93, main_v94, main_v95, main_v96, main_v97, main_cst_23, main_v98, main_v99, main_v100, main_v101, main_v102, main_v103, main_v104, main_v105, main_v106, main_call1_cst, main_call1_v0, main_v107]

/-- The 157 operations, in order. -/
abbrev ops : List (HloOp τ sig (Elt F)) := ops1 ++ (ops2 ++ (ops3 ++ (ops4 ++ (ops5 ++ (ops6 ++ (ops7 ++ (ops8)))))))

end Cert.ReferenceIdeal.Hand

end
-- ==== Proof.RRun.lean ====
/-
  The reference program's run. @main is the straight line of its 157 host operations; from any memory with zero
  counters every weakly fair execution ends with the result buffer at the composed term `tOut` of the eleven
  argument arrays, and the arguments unchanged. The line is read stretch by stretch: what a stretch leaves at a
  stage's buffer is that stage's term of the contents the stretch starts from, a buffer a stretch does not write
  keeps its contents through it, and the eight stretches are chained.
-/
import proofs.«410264_j48739288875406_2_alg».proof.Proof.RTerms
import proofs.«410264_j48739288875406_2_alg».proof.Proof.ROps
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
local notation:max "⟪" r "⟫" => (Proc.devRef (τ := τ) .tc r : DevRef τ sig)

/-! ## @main is the line -/

-- one hundred and fifty-seven binds re-associated: the rewrite under the chain recurses once per statement
set_option maxRecDepth 16384 in
set_option maxHeartbeats 4000000 in
/-- @main is the straight line of the operations: the three windows and the three functions unfolded at their
    calls, both sides are one chain of steps once sequencing is re-associated, the same chain. -/
theorem main_eq (c : Dev nD) : main (F := F) c = seq ops := by
  simp only [main, main_part0, main_part1, main_part2, fn_var.body, fn_where.body, fn_relu.body,
    ops, ops1, ops2, ops3, ops4, ops5, ops6, ops7, ops8, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## The stretches: the buffers they touch, the buffers they write, the buffers they keep -/

/-- `after` over two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation writing the one buffer `y` writes inside any list of buffers holding `y`. -/
theorem writes_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation of a literal stretch touches TensorCore buffers only: its builder's fact, one per operation. -/
local macro "stretch_sub" : tactic =>
  `(tactic| simp only [List.Forall, nullary_bufs_sub, unary_bufs_sub, binary_bufs_sub, ternary_bufs_sub, reshape_bufs_sub, and_self])

/-- Every operation of a literal stretch determines its results: by computation, one operation at a time. -/
local macro "stretch_fresh" : tactic =>
  `(tactic| (intro _ h; (repeat (cases h with | head => rfl | tail _ h => ?_)); exact nomatch h))

/-- Every operation of a literal stretch writes a buffer of the stretch's list. -/
local macro "stretch_writes" : tactic =>
  `(tactic| repeat' (first | apply And.intro | exact writes_mem (by decide)))

set_option maxRecDepth 8192 in
theorem ops1_sub : (ops1 : List (HloOp τ sig (Elt F))).Forall fun op => op.bufs ⊆ tcRefs τ sig := by stretch_sub
set_option maxRecDepth 8192 in
theorem ops1_fresh : ∀ op ∈ (ops1 : List (HloOp τ sig (Elt F))), op.fresh = ∅ := by stretch_fresh
set_option maxRecDepth 8192 in
theorem ops1_writes : (ops1 : List (HloOp τ sig (Elt F))).Forall fun op =>
    op.writes ⊆ (ops1_W.map (Proc.devRef (τ := τ) .tc)).toFinset := by stretch_writes
/-- A buffer stretch 1 does not write keeps its contents through it. -/
theorem ops1_keep (V : Valuation τ sig (Elt F)) (r : Ref sig .tc) (h : r ∉ ops1_W) :
    after ops1 V ⟪r⟫ = V ⟪r⟫ := after_of_writes_sub ops1 V ops1_writes h

set_option maxRecDepth 8192 in
theorem ops2_sub : (ops2 : List (HloOp τ sig (Elt F))).Forall fun op => op.bufs ⊆ tcRefs τ sig := by stretch_sub
set_option maxRecDepth 8192 in
theorem ops2_fresh : ∀ op ∈ (ops2 : List (HloOp τ sig (Elt F))), op.fresh = ∅ := by stretch_fresh
set_option maxRecDepth 8192 in
theorem ops2_writes : (ops2 : List (HloOp τ sig (Elt F))).Forall fun op =>
    op.writes ⊆ (ops2_W.map (Proc.devRef (τ := τ) .tc)).toFinset := by stretch_writes
/-- A buffer stretch 2 does not write keeps its contents through it. -/
theorem ops2_keep (V : Valuation τ sig (Elt F)) (r : Ref sig .tc) (h : r ∉ ops2_W) :
    after ops2 V ⟪r⟫ = V ⟪r⟫ := after_of_writes_sub ops2 V ops2_writes h

set_option maxRecDepth 8192 in
theorem ops3_sub : (ops3 : List (HloOp τ sig (Elt F))).Forall fun op => op.bufs ⊆ tcRefs τ sig := by stretch_sub
set_option maxRecDepth 8192 in
theorem ops3_fresh : ∀ op ∈ (ops3 : List (HloOp τ sig (Elt F))), op.fresh = ∅ := by stretch_fresh
set_option maxRecDepth 8192 in
theorem ops3_writes : (ops3 : List (HloOp τ sig (Elt F))).Forall fun op =>
    op.writes ⊆ (ops3_W.map (Proc.devRef (τ := τ) .tc)).toFinset := by stretch_writes
/-- A buffer stretch 3 does not write keeps its contents through it. -/
theorem ops3_keep (V : Valuation τ sig (Elt F)) (r : Ref sig .tc) (h : r ∉ ops3_W) :
    after ops3 V ⟪r⟫ = V ⟪r⟫ := after_of_writes_sub ops3 V ops3_writes h

set_option maxRecDepth 8192 in
theorem ops4_sub : (ops4 : List (HloOp τ sig (Elt F))).Forall fun op => op.bufs ⊆ tcRefs τ sig := by stretch_sub
set_option maxRecDepth 8192 in
theorem ops4_fresh : ∀ op ∈ (ops4 : List (HloOp τ sig (Elt F))), op.fresh = ∅ := by stretch_fresh
set_option maxRecDepth 8192 in
theorem ops4_writes : (ops4 : List (HloOp τ sig (Elt F))).Forall fun op =>
    op.writes ⊆ (ops4_W.map (Proc.devRef (τ := τ) .tc)).toFinset := by stretch_writes
/-- A buffer stretch 4 does not write keeps its contents through it. -/
theorem ops4_keep (V : Valuation τ sig (Elt F)) (r : Ref sig .tc) (h : r ∉ ops4_W) :
    after ops4 V ⟪r⟫ = V ⟪r⟫ := after_of_writes_sub ops4 V ops4_writes h

set_option maxRecDepth 8192 in
theorem ops5_sub : (ops5 : List (HloOp τ sig (Elt F))).Forall fun op => op.bufs ⊆ tcRefs τ sig := by stretch_sub
set_option maxRecDepth 8192 in
theorem ops5_fresh : ∀ op ∈ (ops5 : List (HloOp τ sig (Elt F))), op.fresh = ∅ := by stretch_fresh
set_option maxRecDepth 8192 in
theorem ops5_writes : (ops5 : List (HloOp τ sig (Elt F))).Forall fun op =>
    op.writes ⊆ (ops5_W.map (Proc.devRef (τ := τ) .tc)).toFinset := by stretch_writes
/-- A buffer stretch 5 does not write keeps its contents through it. -/
theorem ops5_keep (V : Valuation τ sig (Elt F)) (r : Ref sig .tc) (h : r ∉ ops5_W) :
    after ops5 V ⟪r⟫ = V ⟪r⟫ := after_of_writes_sub ops5 V ops5_writes h

set_option maxRecDepth 8192 in
theorem ops6_sub : (ops6 : List (HloOp τ sig (Elt F))).Forall fun op => op.bufs ⊆ tcRefs τ sig := by stretch_sub
set_option maxRecDepth 8192 in
theorem ops6_fresh : ∀ op ∈ (ops6 : List (HloOp τ sig (Elt F))), op.fresh = ∅ := by stretch_fresh
set_option maxRecDepth 8192 in
theorem ops6_writes : (ops6 : List (HloOp τ sig (Elt F))).Forall fun op =>
    op.writes ⊆ (ops6_W.map (Proc.devRef (τ := τ) .tc)).toFinset := by stretch_writes
/-- A buffer stretch 6 does not write keeps its contents through it. -/
theorem ops6_keep (V : Valuation τ sig (Elt F)) (r : Ref sig .tc) (h : r ∉ ops6_W) :
    after ops6 V ⟪r⟫ = V ⟪r⟫ := after_of_writes_sub ops6 V ops6_writes h

set_option maxRecDepth 8192 in
theorem ops7_sub : (ops7 : List (HloOp τ sig (Elt F))).Forall fun op => op.bufs ⊆ tcRefs τ sig := by stretch_sub
set_option maxRecDepth 8192 in
theorem ops7_fresh : ∀ op ∈ (ops7 : List (HloOp τ sig (Elt F))), op.fresh = ∅ := by stretch_fresh
set_option maxRecDepth 8192 in
theorem ops7_writes : (ops7 : List (HloOp τ sig (Elt F))).Forall fun op =>
    op.writes ⊆ (ops7_W.map (Proc.devRef (τ := τ) .tc)).toFinset := by stretch_writes
/-- A buffer stretch 7 does not write keeps its contents through it. -/
theorem ops7_keep (V : Valuation τ sig (Elt F)) (r : Ref sig .tc) (h : r ∉ ops7_W) :
    after ops7 V ⟪r⟫ = V ⟪r⟫ := after_of_writes_sub ops7 V ops7_writes h

set_option maxRecDepth 8192 in
theorem ops8_sub : (ops8 : List (HloOp τ sig (Elt F))).Forall fun op => op.bufs ⊆ tcRefs τ sig := by stretch_sub
set_option maxRecDepth 8192 in
theorem ops8_fresh : ∀ op ∈ (ops8 : List (HloOp τ sig (Elt F))), op.fresh = ∅ := by stretch_fresh
set_option maxRecDepth 8192 in
theorem ops8_writes : (ops8 : List (HloOp τ sig (Elt F))).Forall fun op =>
    op.writes ⊆ (ops8_W.map (Proc.devRef (τ := τ) .tc)).toFinset := by stretch_writes
/-- A buffer stretch 8 does not write keeps its contents through it. -/
theorem ops8_keep (V : Valuation τ sig (Elt F)) (r : Ref sig .tc) (h : r ∉ ops8_W) :
    after ops8 V ⟪r⟫ = V ⟪r⟫ := after_of_writes_sub ops8 V ops8_writes h

/-- Membership in the whole line is membership in one of the stretches. -/
theorem mem_ops {op : HloOp τ sig (Elt F)} (h : op ∈ (ops : List (HloOp τ sig (Elt F)))) :
    op ∈ (ops1 : List (HloOp τ sig (Elt F))) ∨ op ∈ (ops2 : List (HloOp τ sig (Elt F))) ∨ op ∈ (ops3 : List (HloOp τ sig (Elt F)))
      ∨ op ∈ (ops4 : List (HloOp τ sig (Elt F))) ∨ op ∈ (ops5 : List (HloOp τ sig (Elt F))) ∨ op ∈ (ops6 : List (HloOp τ sig (Elt F)))
      ∨ op ∈ (ops7 : List (HloOp τ sig (Elt F))) ∨ op ∈ (ops8 : List (HloOp τ sig (Elt F))) := by
  simpa only [ops, List.mem_append] using h

theorem ops_sub : (ops : List (HloOp τ sig (Elt F))).Forall fun op => op.bufs ⊆ tcRefs τ sig :=
  List.forall_iff_forall_mem.2 fun op h => by
    rcases mem_ops h with h | h | h | h | h | h | h | h
    · exact List.forall_iff_forall_mem.1 ops1_sub op h
    · exact List.forall_iff_forall_mem.1 ops2_sub op h
    · exact List.forall_iff_forall_mem.1 ops3_sub op h
    · exact List.forall_iff_forall_mem.1 ops4_sub op h
    · exact List.forall_iff_forall_mem.1 ops5_sub op h
    · exact List.forall_iff_forall_mem.1 ops6_sub op h
    · exact List.forall_iff_forall_mem.1 ops7_sub op h
    · exact List.forall_iff_forall_mem.1 ops8_sub op h

theorem ops_fresh : ∀ op ∈ (ops : List (HloOp τ sig (Elt F))), op.fresh = ∅ := fun op h => by
  rcases mem_ops h with h | h | h | h | h | h | h | h
  · exact ops1_fresh op h
  · exact ops2_fresh op h
  · exact ops3_fresh op h
  · exact ops4_fresh op h
  · exact ops5_fresh op h
  · exact ops6_fresh op h
  · exact ops7_fresh op h
  · exact ops8_fresh op h

/-- A buffer no stretch writes keeps its contents through the whole line. -/
theorem ops_keep (V : Valuation τ sig (Elt F)) (r : Ref sig .tc) (h1 : r ∉ ops1_W) (h2 : r ∉ ops2_W) (h3 : r ∉ ops3_W)
    (h4 : r ∉ ops4_W) (h5 : r ∉ ops5_W) (h6 : r ∉ ops6_W) (h7 : r ∉ ops7_W) (h8 : r ∉ ops8_W) :
    after ops V ⟪r⟫ = V ⟪r⟫ := by
  simp only [ops, after_app]
  rw [ops8_keep _ r h8, ops7_keep _ r h7, ops6_keep _ r h6, ops5_keep _ r h5, ops4_keep _ r h4, ops3_keep _ r h3,
    ops2_keep _ r h2, ops1_keep _ r h1]

/-! ## What each stretch leaves at its stages' buffers -/

section Results

variable (V : Valuation τ sig (Elt F))

set_option maxRecDepth 8192 in
theorem ops1_v12 : after ops1 V ⟪main_v12⟫ = tHop (V ⟪main_arg0⟫) (V ⟪main_arg7⟫) (V ⟪main_arg8⟫) := by
  after_results <;> rfl
set_option maxRecDepth 8192 in
theorem ops1_v16 : after ops1 V ⟪main_v16⟫ = tOwn (V ⟪main_arg0⟫) (V ⟪main_arg3⟫) (V ⟪main_arg4⟫) := by
  after_results <;> rfl
set_option maxRecDepth 8192 in
theorem ops1_v20 : after ops1 V ⟪main_v20⟫ = tGateLin (V ⟪main_arg0⟫) (V ⟪main_arg5⟫) (V ⟪main_arg6⟫) := by
  after_results <;> rfl
set_option maxRecDepth 8192 in
theorem ops1_v22 : after ops1 V ⟪main_v22⟫ = tDst (V ⟪main_arg1⟫) := by
  after_results <;> rfl
set_option maxRecDepth 8192 in
theorem ops1_v24 : after ops1 V ⟪main_v24⟫ = tSrc (V ⟪main_arg1⟫) := by
  after_results <;> rfl
set_option maxRecDepth 8192 in
theorem ops1_v26 : after ops1 V ⟪main_v26⟫ = tHopIdx (V ⟪main_arg2⟫) := by
  after_results <;> rfl

set_option maxRecDepth 8192 in
theorem ops2_v33 : after ops2 V ⟪main_v33⟫
    = Host.gather gather_S50000x64_S800000x1_S800000x64_1_0_n_n_0_1_164 (V ⟪main_v20⟫) (tCol (tWrap 50000#32 (V ⟪main_v22⟫))) := by
  after_results <;> rfl
set_option maxRecDepth 8192 in
theorem ops2_v47 : after ops2 V ⟪main_v47⟫
    = (Host.gather gather_S3x50000x64_S800000x2_S800000x64_1_01_n_n_01_1_1164 (V ⟪main_v12⟫)
        (concatenate S800000x2 1 [⟨S800000x1, tCol (tWrap 3#32 (V ⟪main_v26⟫))⟩, ⟨S800000x1, tCol (tWrap 50000#32 (V ⟪main_v24⟫))⟩]
          concatenates_S800000x1_S800000x1_S800000x2_d1)) := by
  after_results <;> rfl

set_option maxRecDepth 8192 in
theorem ops3_v61 : after ops3 V ⟪main_v61⟫
    = (Host.gather gather_S3x50000x64_S800000x2_S800000x64_1_01_n_n_01_1_1164 (V ⟪main_v12⟫)
        (concatenate S800000x2 1 [⟨S800000x1, tCol (tWrap 3#32 (V ⟪main_v26⟫))⟩, ⟨S800000x1, tCol (tWrap 50000#32 (V ⟪main_v24⟫))⟩]
          concatenates_S800000x1_S800000x1_S800000x2_d1)) := by
  after_results <;> rfl

set_option maxRecDepth 8192 in
theorem ops4_v68 : after ops4 V ⟪main_v68⟫ = tGate (V ⟪main_v33⟫) (V ⟪main_v47⟫) := by
  after_results <;> rfl
set_option maxRecDepth 8192 in
theorem ops4_v71 : after ops4 V ⟪main_v71⟫
    = addi (muli (V ⟪main_v22⟫) (broadcastInDim S800000 ![] bcast_S_S800000 (constantI S_ 32 3#32))) (V ⟪main_v26⟫) := by
  after_results <;> rfl
set_option maxRecDepth 8192 in
theorem ops4_v72 : after ops4 V ⟪main_v72⟫ = mulf (tGate (V ⟪main_v33⟫) (V ⟪main_v47⟫)) (V ⟪main_v61⟫) := by
  after_results <;> rfl

set_option maxRecDepth 8192 in
theorem ops5_v76 : after ops5 V ⟪main_v76⟫ = tSegSum (V ⟪main_v71⟫) (V ⟪main_v72⟫) := by
  after_results <;> rfl
set_option maxRecDepth 8192 in
theorem ops5_v80 : after ops5 V ⟪main_v80⟫ = tSegSum (V ⟪main_v71⟫) (V ⟪main_v68⟫) := by
  after_results <;> rfl

set_option maxRecDepth 8192 in
theorem ops6_v87 : after ops6 V ⟪main_v87⟫ = tNew (V ⟪main_v76⟫) (V ⟪main_v80⟫) (V ⟪main_v16⟫) := by
  after_results <;> rfl
set_option maxRecDepth 8192 in
theorem ops6_v90 : after ops6 V ⟪main_v90⟫ = tMean (after ops6 V ⟪main_v87⟫) := by
  rw [ops6_v87]
  after_results <;> rfl

set_option maxRecDepth 8192 in
theorem ops7_v91 : after ops7 V ⟪main_v91⟫ = tVar (V ⟪main_v87⟫) := by
  after_results <;> rfl

set_option maxRecDepth 8192 in
theorem ops8_v107 : after ops8 V ⟪main_v107⟫
    = tNorm (V ⟪main_v87⟫) (V ⟪main_v90⟫) (V ⟪main_v91⟫) (V ⟪main_arg9⟫) (V ⟪main_arg10⟫) := by
  after_results <;> rfl

end Results

/-! ## The stretches chained -/

section Chain

variable (V : Valuation τ sig (Elt F))

/-- The node's new value (%87) at the end of the sixth stretch: the stage terms composed. -/
theorem node_eq :
    after ops6 (after ops5 (after ops4 (after ops3 (after ops2 (after ops1 V))))) ⟪main_v87⟫
      = tNode (V ⟪main_arg0⟫) (V ⟪main_arg1⟫) (V ⟪main_arg2⟫) (V ⟪main_arg3⟫) (V ⟪main_arg4⟫) (V ⟪main_arg5⟫) (V ⟪main_arg6⟫) (V ⟪main_arg7⟫) (V ⟪main_arg8⟫) := by
  rw [ops6_v87, ops5_v76, ops5_v80, ops5_keep _ main_v16 (by decide),
    ops4_v71, ops4_v72, ops4_v68, ops4_keep _ main_v16 (by decide),
    ops3_v61, ops3_keep _ main_v22 (by decide), ops3_keep _ main_v26 (by decide), ops3_keep _ main_v33 (by decide),
    ops3_keep _ main_v47 (by decide), ops3_keep _ main_v16 (by decide),
    ops2_v33, ops2_v47, ops2_keep _ main_v22 (by decide), ops2_keep _ main_v26 (by decide),
    ops2_keep _ main_v24 (by decide), ops2_keep _ main_v12 (by decide), ops2_keep _ main_v16 (by decide),
    ops1_v12, ops1_v16, ops1_v20, ops1_v22, ops1_v24, ops1_v26]
  rfl

/-- A buffer the first six stretches do not write, at the end of the sixth. -/
theorem keep6 (r : Ref sig .tc) (h1 : r ∉ ops1_W) (h2 : r ∉ ops2_W) (h3 : r ∉ ops3_W) (h4 : r ∉ ops4_W) (h5 : r ∉ ops5_W)
    (h6 : r ∉ ops6_W) :
    after ops6 (after ops5 (after ops4 (after ops3 (after ops2 (after ops1 V))))) ⟪r⟫ = V ⟪r⟫ := by
  rw [ops6_keep _ r h6, ops5_keep _ r h5, ops4_keep _ r h4, ops3_keep _ r h3, ops2_keep _ r h2, ops1_keep _ r h1]

/-- The result buffer after the whole line: `tOut` of the eleven arguments. -/
theorem out_eq :
    after ops V ⟪main_v107⟫ = tOut (V ⟪main_arg0⟫) (V ⟪main_arg1⟫) (V ⟪main_arg2⟫) (V ⟪main_arg3⟫) (V ⟪main_arg4⟫) (V ⟪main_arg5⟫) (V ⟪main_arg6⟫) (V ⟪main_arg7⟫) (V ⟪main_arg8⟫) (V ⟪main_arg9⟫) (V ⟪main_arg10⟫) := by
  simp only [ops, after_app]
  rw [ops8_v107, ops7_v91, ops7_keep _ main_v87 (by decide), ops7_keep _ main_v90 (by decide),
    ops7_keep _ main_arg9 (by decide), ops7_keep _ main_arg10 (by decide), ops6_v90, node_eq,
    keep6 V main_arg9 (by decide) (by decide) (by decide) (by decide) (by decide) (by decide),
    keep6 V main_arg10 (by decide) (by decide) (by decide) (by decide) (by decide) (by decide)]
  rfl

end Chain

/-! ## The run -/

/-- On every device, from any memory with zero counters: every weakly fair execution of @main terminates with
    the result buffer at `tOut` of the arguments' launch contents and the eleven arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107)
          = tOut (F := Ideal) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v107).trans (out_eq (launchContents m c)),
      (h c main_arg0).trans (ops_keep (launchContents m c) main_arg0 (by decide) (by decide) (by decide) (by decide) (by decide) (by decide) (by decide) (by decide)),
      (h c main_arg1).trans (ops_keep (launchContents m c) main_arg1 (by decide) (by decide) (by decide) (by decide) (by decide) (by decide) (by decide) (by decide)),
      (h c main_arg2).trans (ops_keep (launchContents m c) main_arg2 (by decide) (by decide) (by decide) (by decide) (by decide) (by decide) (by decide) (by decide)),
      (h c main_arg3).trans (ops_keep (launchContents m c) main_arg3 (by decide) (by decide) (by decide) (by decide) (by decide) (by decide) (by decide) (by decide)),
      (h c main_arg4).trans (ops_keep (launchContents m c) main_arg4 (by decide) (by decide) (by decide) (by decide) (by decide) (by decide) (by decide) (by decide)),
      (h c main_arg5).trans (ops_keep (launchContents m c) main_arg5 (by decide) (by decide) (by decide) (by decide) (by decide) (by decide) (by decide) (by decide)),
      (h c main_arg6).trans (ops_keep (launchContents m c) main_arg6 (by decide) (by decide) (by decide) (by decide) (by decide) (by decide) (by decide) (by decide)),
      (h c main_arg7).trans (ops_keep (launchContents m c) main_arg7 (by decide) (by decide) (by decide) (by decide) (by decide) (by decide) (by decide) (by decide)),
      (h c main_arg8).trans (ops_keep (launchContents m c) main_arg8 (by decide) (by decide) (by decide) (by decide) (by decide) (by decide) (by decide) (by decide)),
      (h c main_arg9).trans (ops_keep (launchContents m c) main_arg9 (by decide) (by decide) (by decide) (by decide) (by decide) (by decide) (by decide) (by decide)),
      (h c main_arg10).trans (ops_keep (launchContents m c) main_arg10 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.PreFacts.lean ====
import proofs.«410264_j48739288875406_2_alg».proof.Pre_finite_inputs
import proofs.«410264_j48739288875406_2_alg».proof.Proof.Gen.Pre_finite_inputs
import proofs.«410264_j48739288875406_2_alg».proof.Proof.Spec
import Idealize.ShloMosaic.Lib.ReduceAll
import Idealize.ShloMosaic.Lib.StableHlo.Predicate
import Idealize.ShloMosaic.Lib.ValueIdx

noncomputable section

open Idealize.ShloMosaic Idealize.ShloMosaic.TcCoe Idealize.SL.Sem
open Idealize.ShloMosaic.ValueIdx

namespace Cert.Gated

open Cert.Pre_finite_inputs

/-- The result shape of a reduction over every axis has one index. -/
instance subsingleton_scalar_idx : Subsingleton S_.Idx := ⟨fun a b => funext fun d => d.elim0⟩

/-- The pattern with all exponent bits set and no fraction denotes the upper infinity. -/
theorem ofBits_inf : Ideal.ofBits .f32 0x7F800000#32 = (⊤ : EReal) := by
  simp [Ideal.ofBits, Ideal.ieee]

/-- An extended real whose absolute value lies strictly below the upper infinity is a real number. -/
theorem isFin_of_abs_lt_top (x : EReal) (h : max x (-x) < (⊤ : EReal)) : IsFin x := by
  induction x using EReal.rec with
  | bot => simp at h
  | coe r => exact ⟨r, rfl⟩
  | top => simp at h

/-- The finiteness test of a float array of any shape: if the conjunction over all entries of `|x| < +∞` holds,
    every entry is a real number. -/
theorem all_fin {s : Shape} {axes : List (Fin s.rank)} (hb : S_.BroadcastsInDim s (![] : Fin 0 → Fin s.rank))
    (hr : s.ReducesTo axes S_) (h0 : 0 < S_.numel) (x : FVec Ideal s .f32)
    (h : Host.reduce IntOp.andi (cmpf .olt (Host.absf x) (broadcastInDim s ![] hb (constant (F := Ideal) S_ .f32 0x7F800000#32)))
          (constantI S_ 1 1#1) hr h0 ix0 = 1#1) (i : s.Idx) : IsFin (x i) := by
  have e := Host.reduce_andi_all _ _ hr h0 ix0 h i
  have e' : Ideal.cmp .olt (max (x i) (-(x i))) (Ideal.ofBits .f32 0x7F800000#32) = 1#1 := e
  rw [ofBits_inf] at e'
  exact isFin_of_abs_lt_top _ (of_decide_eq_true ((StableHlo.Predicate.ofBool_eq_one_iff _).1 e'))

/-- The half-open range test of an integer array of any shape: if the conjunction over all entries of
    `lo ≤ x ∧ x < hi` (signed) holds, every entry read signed lies in the range. -/
theorem all_range_lt {s : Shape} {axes : List (Fin s.rank)} (hb : S_.BroadcastsInDim s (![] : Fin 0 → Fin s.rank))
    (hr : s.ReducesTo axes S_) (h0 : 0 < S_.numel) (x : IVec s 32) (lo hi : BitVec 32)
    (h : Host.reduce IntOp.andi
          (andi (cmpi .sge x (broadcastInDim s ![] hb (constantI S_ 32 lo))) (cmpi .slt x (broadcastInDim s ![] hb (constantI S_ 32 hi))))
          (constantI S_ 1 1#1) hr h0 ix0 = 1#1) (i : s.Idx) : lo.toInt ≤ (x i).toInt ∧ (x i).toInt < hi.toInt := by
  have e := Host.reduce_andi_all _ _ hr h0 ix0 h i
  obtain ⟨e1, e2⟩ := IntOp.andi_eq_one.1 e
  exact ⟨IntOp.cmpi_sge.1 e1, IntOp.cmpi_slt.1 e2⟩

/-- The same for a closed range `lo ≤ x ∧ x ≤ hi`. -/
theorem all_range_le {s : Shape} {axes : List (Fin s.rank)} (hb : S_.BroadcastsInDim s (![] : Fin 0 → Fin s.rank))
    (hr : s.ReducesTo axes S_) (h0 : 0 < S_.numel) (x : IVec s 32) (lo hi : BitVec 32)
    (h : Host.reduce IntOp.andi
          (andi (cmpi .sge x (broadcastInDim s ![] hb (constantI S_ 32 lo))) (cmpi .sle x (broadcastInDim s ![] hb (constantI S_ 32 hi))))
          (constantI S_ 1 1#1) hr h0 ix0 = 1#1) (i : s.Idx) : lo.toInt ≤ (x i).toInt ∧ (x i).toInt ≤ hi.toInt := by
  have e := Host.reduce_andi_all _ _ hr h0 ix0 h i
  obtain ⟨e1, e2⟩ := IntOp.andi_eq_one.1 e
  exact ⟨IntOp.cmpi_sge.1 e1, IntOp.cmpi_sle.1 e2⟩

/-- What the precondition says of the arguments: every float entry is a real number, every word of the edge list a
    node number, every edge attribute a hop number `1 … 3`. -/
theorem pre_facts (a0 : FVec Ideal S3x50000x64 .f32) (a1 : IVec S2x800000 32) (a2 : IVec S800000 32)
    (a3 : FVec Ideal S64x64 .f32) (a4 : FVec Ideal S64 .f32) (a5 : FVec Ideal S64x64 .f32) (a6 : FVec Ideal S64 .f32)
    (a7 : FVec Ideal S3x64x64 .f32) (a8 : FVec Ideal S3x64 .f32) (a9 : FVec Ideal S64 .f32) (a10 : FVec Ideal S64 .f32)
    (h : Cert.Pre_finite_inputs.fn (F := Ideal) a0 a1 a2 a3 a4 a5 a6 a7 a8 a9 a10 = fun _ => 1#1) :
    (∀ i, IsFin (a0 i)) ∧ (∀ i, IsFin (a3 i)) ∧ (∀ i, IsFin (a4 i)) ∧ (∀ i, IsFin (a5 i)) ∧ (∀ i, IsFin (a6 i))
      ∧ (∀ i, IsFin (a7 i)) ∧ (∀ i, IsFin (a8 i)) ∧ (∀ i, IsFin (a9 i)) ∧ (∀ i, IsFin (a10 i)) ∧ InRange a1 a2 := by
  have h0 := congrFun h ix0
  dsimp only [fn, fn_part1, fn_part2, fn_part3] at h0
  obtain ⟨h0, c2⟩ := IntOp.andi_eq_one.1 h0
  obtain ⟨h0, c1⟩ := IntOp.andi_eq_one.1 h0
  obtain ⟨h0, f10⟩ := IntOp.andi_eq_one.1 h0
  obtain ⟨h0, f9⟩ := IntOp.andi_eq_one.1 h0
  obtain ⟨h0, f8⟩ := IntOp.andi_eq_one.1 h0
  obtain ⟨h0, f7⟩ := IntOp.andi_eq_one.1 h0
  obtain ⟨h0, f6⟩ := IntOp.andi_eq_one.1 h0
  obtain ⟨h0, f5⟩ := IntOp.andi_eq_one.1 h0
  obtain ⟨h0, f4⟩ := IntOp.andi_eq_one.1 h0
  obtain ⟨f0, f3⟩ := IntOp.andi_eq_one.1 h0
  have r1 := all_range_lt _ _ _ a1 _ _ c1
  have r2 := all_range_le _ _ _ a2 _ _ c2
  refine ⟨all_fin _ _ _ a0 f0, all_fin _ _ _ a3 f3, all_fin _ _ _ a4 f4, all_fin _ _ _ a5 f5, all_fin _ _ _ a6 f6,
    all_fin _ _ _ a7 f7, all_fin _ _ _ a8 f8, all_fin _ _ _ a9 f9, all_fin _ _ _ a10 f10, ?_, ?_⟩
  · intro i
    have e := r1 i
    rw [show (0#32 : BitVec 32).toInt = 0 from by decide, show (50000#32 : BitVec 32).toInt = 50000 from by decide] at e
    exact e
  · intro i
    have e := r2 i
    rw [show (1#32 : BitVec 32).toInt = 1 from by decide, show (3#32 : BitVec 32).toInt = 3 from by decide] at e
    exact e

end Cert.Gated

end
-- ==== Proof.RValGather.lean ====
/-
  The reference computation's two edge gathers, read index by index: with every word of the edge list a node number
  and every edge attribute a hop number, the wrap of a negative index is the identity, and each gather reads the row
  the edge's words name.
-/
import proofs.«410264_j48739288875406_2_alg».proof.Proof.RTerms
import proofs.«410264_j48739288875406_2_alg».proof.Proof.Spec
import proofs.«410264_j48739288875406_2_alg».proof.Proof.SpecFin
import proofs.«410264_j48739288875406_2_alg».proof.Proof.Gather
import Idealize.ShloMosaic.Lib.Affine
import Idealize.ShloMosaic.Lib.ValueIdx
import Idealize.ShloMosaic.Lib.Pipeline.Value

noncomputable section

namespace Cert.ReferenceIdeal.Hand

open Cert.ReferenceIdeal Cert.ReferenceIdeal.Gen Cert.Gated Idealize.ShloMosaic Idealize.ShloMosaic.ValueIdx

/-! ## The index pieces at one edge -/

/-- A one-column index table at `(e, 0)` is the index vector at `e`. -/
theorem tCol_apply (x : IVec S800000 32) (e : Fin 800000) : tCol x (ix2 e 0) = x (ix1 e) := by
  unfold tCol
  exact broadcastInDim_apply _ _ _ _ (ix1 e) (fun a => match a with | ⟨0, _⟩ => rfl)

/-- The wrap of a word that reads nonnegative is the word. -/
theorem tWrap_apply_of_nonneg (n : BitVec 32) (x : IVec S800000 32) (i : S800000.Idx) (h : 0 ≤ (x i).toInt) :
    tWrap n x i = x i := by
  have hc : ¬ IntOp.cmpi .slt (x i) 0#32 = 1#1 := by
    rw [IntOp.cmpi_slt, show (0#32 : BitVec 32).toInt = 0 from by decide]
    omega
  show Scalar.select (IntOp.cmpi .slt (x i) 0#32) _ _ = _
  unfold Scalar.select
  exact if_neg hc

/-- The destination word of edge `e` is row 1 of the edge list at `e`. -/
theorem tDst_apply (a1 : IVec S2x800000 32) (e : Fin 800000) : tDst a1 (ix1 e) = a1 (ix2 1 e) := by
  unfold tDst
  refine (shapeCast_apply _ _ _ (ix2 (0 : Fin 1) e) (by rw [Shape.rowMajor_val_two, Shape.rowMajor_val_one]; show 0 * 800000 + e.val = e.val; omega)).trans ?_
  exact extractStridedSlice_apply _ _ _ _ (ix2 1 e) (fun a => match a with
    | ⟨0, _⟩ => by show 1 = 1 + 0; rfl
    | ⟨1, _⟩ => by show e.val = 0 + e.val; omega)

/-- The source word of edge `e` is row 0 of the edge list at `e`. -/
theorem tSrc_apply (a1 : IVec S2x800000 32) (e : Fin 800000) : tSrc a1 (ix1 e) = a1 (ix2 0 e) := by
  unfold tSrc
  refine (shapeCast_apply _ _ _ (ix2 (0 : Fin 1) e) (by rw [Shape.rowMajor_val_two, Shape.rowMajor_val_one]; show 0 * 800000 + e.val = e.val; omega)).trans ?_
  exact extractStridedSlice_apply _ _ _ _ (ix2 0 e) (fun a => match a with
    | ⟨0, _⟩ => by show 0 = 0 + 0; rfl
    | ⟨1, _⟩ => by show e.val = 0 + e.val; omega)

/-- The hop word of edge `e`, counted from zero, is the edge attribute at `e` less one. -/
theorem tHopIdx_apply (a2 : IVec S800000 32) (i : S800000.Idx) : tHopIdx a2 i = a2 i - 1#32 := rfl

/-- A word that reads at least one, less one, reads one less. -/
theorem toInt_sub_one (x : BitVec 32) (h : 1 ≤ x.toInt) : (x - 1#32).toInt = x.toInt - 1 := by
  have hlt := BitVec.toInt_lt (x := x)
  rw [BitVec.toInt_sub, show (1#32 : BitVec 32).toInt = 1 from by decide]
  exact Int.bmod_eq_of_le (by omega) (by omega)

/-! ## The gathers -/

theorem atDst_eq (D : FVec Ideal S50000x64 .f32) (a1 : IVec S2x800000 32) (a2 : IVec S800000 32) (h : InRange a1 a2) :
    tAtDst D a1 = atDst D a1 := by
  funext i
  obtain ⟨e, d, rfl⟩ : ∃ e d, i = ix2 e d := ⟨i 0, i 1, eq_ix2 i⟩
  unfold tAtDst
  refine (r_gather_rows _ _ e d).trans ?_
  show D (ix2 (rowOf 50000 _ (tCol (tWrap 50000#32 (tDst a1)) (ix2 e 0))) d) = D (ix2 (rowOf 50000 _ (a1 (ix2 1 e))) d)
  rw [tCol_apply, tWrap_apply_of_nonneg _ _ _ (by rw [tDst_apply]; exact (h.1 _).1), tDst_apply]

theorem atSrc_eq (B : FVec Ideal S3x50000x64 .f32) (a1 : IVec S2x800000 32) (a2 : IVec S800000 32) (h : InRange a1 a2) :
    tAtSrc B a1 a2 = atSrc B a1 a2 := by
  funext i
  obtain ⟨e, d, rfl⟩ : ∃ e d, i = ix2 e d := ⟨i 0, i 1, eq_ix2 i⟩
  have hhop : 0 ≤ (tHopIdx a2 (ix1 e)).toInt := by
    rw [tHopIdx_apply, toInt_sub_one _ (h.2 _).1]
    have := (h.2 (ix1 e)).1
    omega
  unfold tAtSrc
  refine (r_gather_pair _ _ e d).trans ?_
  have c0 : concatenate S800000x2 1 [⟨S800000x1, tCol (tWrap 3#32 (tHopIdx a2))⟩, ⟨S800000x1, tCol (tWrap 50000#32 (tSrc a1))⟩]
      concatenates_S800000x1_S800000x1_S800000x2_d1 (ix2 e 0) = a2 (ix1 e) - 1#32 := by
    have hi : ∀ b : Fin S800000x1.rank, ((ix2 e 0 : S800000x1.Idx) b).val = ((ix2 e 0 : S800000x2.Idx) (b.cast rfl)).val :=
      fun b => match b with
        | ⟨0, _⟩ => rfl
        | ⟨1, _⟩ => rfl
    refine (concatenate_pair_apply_left (t := S800000x2) (s₁ := S800000x1) (s₂ := S800000x1) 1 _ _
      concatenates_S800000x1_S800000x1_S800000x2_d1 (ix2 e 0) rfl (ix2 e 0) hi).trans ?_
    rw [tCol_apply, tWrap_apply_of_nonneg _ _ _ hhop, tHopIdx_apply]
  have c1 : concatenate S800000x2 1 [⟨S800000x1, tCol (tWrap 3#32 (tHopIdx a2))⟩, ⟨S800000x1, tCol (tWrap 50000#32 (tSrc a1))⟩]
      concatenates_S800000x1_S800000x1_S800000x2_d1 (ix2 e 1) = a1 (ix2 0 e) := by
    have hi : ∀ b : Fin S800000x1.rank, b.cast (rfl : S800000x1.rank = S800000x2.rank) ≠ 1 →
        ((ix2 e 0 : S800000x1.Idx) b).val = ((ix2 e 1 : S800000x2.Idx) (b.cast rfl)).val :=
      fun b => match b with
        | ⟨0, _⟩ => fun _ => rfl
        | ⟨1, _⟩ => fun hb => absurd rfl hb
    refine (concatenate_pair_apply_right (t := S800000x2) (s₁ := S800000x1) (s₂ := S800000x1) 1 _ _
      concatenates_S800000x1_S800000x1_S800000x2_d1 (ix2 e 1) rfl rfl (ix2 e 0) hi rfl).trans ?_
    rw [tCol_apply, tWrap_apply_of_nonneg _ _ _ (by rw [tSrc_apply]; exact (h.1 _).1), tSrc_apply]
  rw [c0, c1]
  rfl

end Cert.ReferenceIdeal.Hand

end
-- ==== Proof.RValHop.lean ====
/-
  The reference's per-hop linear images, index by index: a product of two stacks, matrix by matrix (the leading axis is
  carried along, the last axis of the left operand is summed against the middle axis of the right), whose left operand is
  the states with their slabs read in reverse order through the three-entry table [2, 1, 0], plus the stacked biases
  repeated over all nodes.
-/
import proofs.«410264_j48739288875406_2_alg».proof.Proof.RTerms
import proofs.«410264_j48739288875406_2_alg».proof.Proof.Spec
import proofs.«410264_j48739288875406_2_alg».proof.Proof.SpecFin
import proofs.«410264_j48739288875406_2_alg».proof.Proof.Gather
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Cert.Gated Idealize.ShloMosaic Idealize.ShloMosaic.ValueIdx

namespace HopStage

/-! ## The product of two stacks at an index -/

/-- The dimension numbers of the stacked product: axis 0 carried along, the left's axis 2 summed against the right's axis 1. -/
abbrev dotHop : DotDims S3x50000x64 S3x64x64 S3x50000x64 := dot_S3x50000x64_S3x64x64_S3x50000x64_2_1_1_2_0_0

theorem dotHop_lhs_0 (j : S3x50000x64.Idx) (c : dotHop.contr.Idx) : (dotHop.lhsIdx j c 0).val = (j 0).val := by
  simp [DotDims.lhsIdx, dotHop, dot_S3x50000x64_S3x64x64_S3x50000x64_2_1_1_2_0_0]; rfl

theorem dotHop_lhs_1 (j : S3x50000x64.Idx) (c : dotHop.contr.Idx) : (dotHop.lhsIdx j c 1).val = (j 1).val := by
  simp [DotDims.lhsIdx, dotHop, dot_S3x50000x64_S3x64x64_S3x50000x64_2_1_1_2_0_0]; rfl

theorem dotHop_lhs_2 (j : S3x50000x64.Idx) (c : dotHop.contr.Idx) : (dotHop.lhsIdx j c 2).val = (c ⟨0, by decide⟩).val :=
  dotHop.lhsIdx_val_of_single (cl := 2) rfl j c

theorem dotHop_rhs_0 (j : S3x50000x64.Idx) (c : dotHop.contr.Idx) : (dotHop.rhsIdx j c 0).val = (j 0).val := by
  simp [DotDims.rhsIdx, dotHop, dot_S3x50000x64_S3x64x64_S3x50000x64_2_1_1_2_0_0]; rfl

theorem dotHop_rhs_1 (j : S3x50000x64.Idx) (c : dotHop.contr.Idx) : (dotHop.rhsIdx j c 1).val = (c ⟨0, by decide⟩).val :=
  dotHop.rhsIdx_val_of_single (cr := 1) rfl j c

theorem dotHop_rhs_2 (j : S3x50000x64.Idx) (c : dotHop.contr.Idx) : (dotHop.rhsIdx j c 2).val = (j 2).val := by
  simp [DotDims.rhsIdx, dotHop, dot_S3x50000x64_S3x64x64_S3x50000x64_2_1_1_2_0_0]; rfl

/-- The stacked product at member `k`, row `n`, column `o`: the sum over the contracted coordinate within member `k`. -/
theorem dotHop_at (L : FVec Ideal S3x50000x64 .f32) (R : FVec Ideal S3x64x64 .f32) (k : Fin 3) (n : Fin 50000) (o : Fin 64) :
    Host.dotGeneral dot_S3x50000x64_S3x64x64_S3x50000x64_2_1_1_2_0_0 none L R (ix3 k n o)
      = ∑ d : Fin 64, L (ix3 k n d) * R (ix3 k d o) := by
  show FloatOps.dotGeneral dotHop none _ L R (ix3 k n o) = _
  rw [Ideal.dotGeneral_apply, ← Equiv.sum_comp (contrEquiv1 dotHop 64 rfl rfl).symm]
  refine Finset.sum_congr rfl fun d _ => ?_
  have hd := contrEquiv1_symm_val dotHop 64 rfl rfl d
  have hl : dotHop.lhsIdx (ix3 k n o) ((contrEquiv1 dotHop 64 rfl rfl).symm d) = ix3 k n d := by
    funext ax; apply Fin.ext
    match ax with
    | ⟨0, _⟩ => exact dotHop_lhs_0 _ _
    | ⟨1, _⟩ => exact dotHop_lhs_1 _ _
    | ⟨2, _⟩ => exact (dotHop_lhs_2 _ _).trans hd
  have hr : dotHop.rhsIdx (ix3 k n o) ((contrEquiv1 dotHop 64 rfl rfl).symm d) = ix3 k d o := by
    funext ax; apply Fin.ext
    match ax with
    | ⟨0, _⟩ => exact dotHop_rhs_0 _ _
    | ⟨1, _⟩ => exact (dotHop_rhs_1 _ _).trans hd
    | ⟨2, _⟩ => exact dotHop_rhs_2 _ _
  rw [hl, hr]

/-! ## The slab table -/

/-- The literal table at entry `k`. -/
theorem tRev_at (k : Fin 3) : tRev (ix1 k) = lit0 k := by
  unfold tRev
  exact congrArg lit0 (Fin.ext (Shape.rowMajor_val_one (ix1 k)))

/-- Each entry of the literal table is nonnegative, so wrapping leaves it, and clamping it into the three slabs gives `2 - k`. -/
theorem wrapped_rev : ∀ k : Fin 3,
    rowOf 3 (by decide) (Scalar.select (IntOp.cmpi .slt (lit0 k) 0#32) (IntOp.addi (lit0 k) 3#32) (lit0 k)) = k.rev := by
  decide

/-- The wrapped table, as a column of start indices, read signed and clamped into the three slabs: entry `k` is `2 - k`. -/
theorem slab_of_hop (k : Fin 3) :
    rowOf 3 (by decide) ((broadcastInDim S3x1 ![0] bcast_S3_S3x1_0 (tWrap3 3#32 tRev)) (ix2 k 0)) = k.rev := by
  have e : (broadcastInDim S3x1 ![0] bcast_S3_S3x1_0 (tWrap3 3#32 tRev)) (ix2 k 0) = tWrap3 3#32 tRev (ix1 k) :=
    broadcastInDim_apply _ _ _ (ix2 k 0) (ix1 k) fun a => by
      match a with
      | ⟨0, _⟩ => rfl
  have w : tWrap3 3#32 tRev (ix1 k)
      = Scalar.select (IntOp.cmpi .slt (lit0 k) 0#32) (IntOp.addi (lit0 k) 3#32) (lit0 k) := by
    show Scalar.select (IntOp.cmpi .slt (tRev (ix1 k)) 0#32) (IntOp.addi (tRev (ix1 k)) 3#32) (tRev (ix1 k)) = _
    rw [tRev_at]
  rw [e, w]
  exact wrapped_rev k

/-! ## The biases repeated over all nodes -/

/-- The stacked biases, given a unit middle axis and repeated along it, at hop `k`, node `n`, column `o`. -/
theorem bias_at {α : Type} (b : S3x64.Idx → α) (k : Fin 3) (n : Fin 50000) (o : Fin 64) :
    broadcastInDim S3x50000x64 ![0, 1, 2] bcast_S3x1x64_S3x50000x64_0_1_2
        (broadcastInDim S3x1x64 ![0, 2] bcast_S3x64_S3x1x64_0_2 b) (ix3 k n o) = b (ix2 k o) := by
  refine (broadcastInDim_apply _ _ _ (ix3 k n o) (ix3 k (0 : Fin 1) o) fun a => ?_).trans
    (broadcastInDim_apply _ _ b (ix3 k (0 : Fin 1) o) (ix2 k o) fun a => ?_)
  · match a with
    | ⟨0, _⟩ => rfl
    | ⟨1, _⟩ => rfl
    | ⟨2, _⟩ => rfl
  · match a with
    | ⟨0, _⟩ => rfl
    | ⟨1, _⟩ => rfl

end HopStage

/-! ## The stage -/

open HopStage in
/-- The reference's per-hop stage is the per-hop linear image of the delayed states. -/
theorem hop_eq (a0 : FVec Ideal S3x50000x64 .f32) (a7 : FVec Ideal S3x64x64 .f32) (a8 : FVec Ideal S3x64 .f32) :
    tHop (F := Ideal) a0 a7 a8 = hopLin a0 a7 a8 := by
  funext i
  obtain ⟨k, n, o, rfl⟩ : ∃ (k : Fin 3) (n : Fin 50000) (o : Fin 64), i = ix3 k n o := ⟨i 0, i 1, i 2, eq_ix3 i⟩
  show _ = hopLinAt a0 a7 a8 k n o
  unfold tHop hopLinAt
  refine (addf_apply _ _ _).trans ?_
  refine congrArg₂ (· + ·) ?_ ?_
  · refine (dotHop_at _ a7 k n o).trans ?_
    refine Finset.sum_congr rfl fun d _ => congrArg (· * a7 (ix3 k d o)) ?_
    refine (r_gather_slab a0 _ k n d).trans ?_
    rw [slab_of_hop]
  · exact bias_at a8 k n o

end Cert.ReferenceIdeal.Hand

end
-- ==== Proof.RValStats.lean ====
/-
  The reference computation's statistics stages, read index by index, are the layer's mathematics: the
  per-(node, hop) quotient mixed into the node's own image, the column mean, the column variance as the mean
  of squared deviations, and the normalisation with its rectifier.
-/
import proofs.«410264_j48739288875406_2_alg».proof.Proof.RTerms
import proofs.«410264_j48739288875406_2_alg».proof.Proof.Spec
import proofs.«410264_j48739288875406_2_alg».proof.Proof.SpecFin
import proofs.«410264_j48739288875406_2_alg».proof.Proof.Gather
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost

noncomputable section

namespace Cert.ReferenceIdeal.Hand

open Cert.ReferenceIdeal Cert.ReferenceIdeal.Gen Cert.Gated Idealize.ShloMosaic Idealize.ShloMosaic.ValueIdx

/-! ## Reading the shared pieces at an index -/

/-- The column sums of a node array, at column `d`, are the sum over the nodes of that column. -/
theorem colSum_read (x : FVec Ideal S50000x64 .f32) (d : Fin 64) : tColSum (F := Ideal) x (ix1 d) = colSum x d := by
  unfold tColSum colSum
  rw [hostReduceAdd_apply, Ideal.hostReduceAdd_single reducesTo_S50000x64_S64_d0 (by decide), constant_apply,
    Ideal.ofBits_zero_f32, zero_add]
  refine Finset.sum_congr rfl (fun k _ => congrArg x (funext fun c => ?_))
  match c with
  | ⟨0, _⟩ => exact Fin.ext rfl
  | ⟨1, _⟩ => exact Fin.ext rfl

/-- The deviation from the column mean, at node `n` and column `d`. -/
theorem dev_read (x : FVec Ideal S50000x64 .f32) (n : Fin 50000) (d : Fin 64) :
    tDev (F := Ideal) x (ix2 n d) = x (ix2 n d) - colMean x d := by
  unfold tDev
  rw [subf_apply, broadcastInDim_oneRow_apply, hostDivf_apply, broadcastInDim_scalar_apply, constant_apply,
    broadcastInDim_apply ![1] bcast_S64_S1x64_1 (tColSum (F := Ideal) x) (ix2 0 d) (ix1 d) (by
      intro a; fin_cases a; show d.val = if (64 : ℕ) = 1 then 0 else d.val; simp), colSum_read]
  rfl

/-- The variance's divisor is the node count: the count minus the integer zero. -/
theorem count_read (j : S_.Idx) : tCount (F := Ideal) j = nodes := by
  unfold tCount nodes
  rw [subf_apply, constant_apply, sitofp_apply]
  show Ideal.ofBits .f32 0x47435000#32 - (((0#32 : BitVec 32).toInt : ℝ) : EReal) = _
  simp

/-- The node count is above zero, so the comparison's bit is set. -/
theorem count_gt (j : S_.Idx) :
    cmpf (F := Ideal) .ogt tCount (constant (F := Ideal) S_ .f32 0x00000000#32) j = 1#1 := by
  rw [cmpf_apply, count_read, constant_apply, Ideal.ofBits_zero_f32]
  have h : (0 : EReal) < nodes := by
    rw [nodes_eq]; exact EReal.coe_pos.mpr (by norm_num)
  show Ideal.cmp .ogt nodes 0 = 1#1
  simp [Ideal.cmp, h]

/-! ## The column statistics -/

theorem mean_eq (x : FVec Ideal S50000x64 .f32) : tMean (F := Ideal) x = fun i => colMean x (i 0) := by
  funext i
  obtain ⟨d, rfl⟩ : ∃ d : Fin 64, i = ix1 d := ⟨i 0, eq_ix1 i⟩
  unfold tMean
  rw [hostDivf_apply, colSum_read, broadcastInDim_scalar_apply, constant_apply]
  rfl

theorem var_eq (x : FVec Ideal S50000x64 .f32) : tVar (F := Ideal) x = fun i => varCentered x (i 0) := by
  funext i
  obtain ⟨d, rfl⟩ : ∃ d : Fin 64, i = ix1 d := ⟨i 0, eq_ix1 i⟩
  unfold tVar
  rw [select_apply, broadcastInDim_scalar_apply, count_gt, select_one, hostDivf_apply, broadcastInDim_scalar_apply,
    count_read, colSum_read]
  show _ = Ideal.div (colSum (fun i => (x i - colMean x (i 1)) * (x i - colMean x (i 1))) d) nodes
  refine congrArg (fun s => Ideal.div s nodes) ?_
  unfold colSum
  refine Finset.sum_congr rfl (fun n _ => ?_)
  rw [mulf_apply, dev_read]

end Cert.ReferenceIdeal.Hand

end
-- ==== Proof.RVal.lean ====
/-
  The reference computation's stages, read index by index, are the layer's mathematics: the node-wise linear
  images, the edge gathers, the gate, the per-(node, hop) quotient mixed into the node's own image, the column
  statistics and the normalisation with its rectifier.
-/
import proofs.«410264_j48739288875406_2_alg».proof.Proof.RTerms
import proofs.«410264_j48739288875406_2_alg».proof.Proof.Spec
import proofs.«410264_j48739288875406_2_alg».proof.Proof.SpecFin
import proofs.«410264_j48739288875406_2_alg».proof.Proof.Gather
import proofs.«410264_j48739288875406_2_alg».proof.Proof.RValGather
import proofs.«410264_j48739288875406_2_alg».proof.Proof.RValHop
import proofs.«410264_j48739288875406_2_alg».proof.Proof.RValStats
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Idealize.ShloMosaic
open Cert.Gated Idealize.ShloMosaic.ValueIdx

/-! ## The node-wise products read at an index -/

theorem lhs_lin_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl
theorem lhs_lin_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem rhs_lin_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem rhs_lin_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- A node array against a square matrix at (n, o): the sum over the contracted column. -/
theorem dot_lin_apply (X : FVec Ideal S50000x64 .f32) (W : FVec Ideal S64x64 .f32) (n : Fin 50000) (o : Fin 64) :
    Host.dotGeneral (F := Ideal) dot_S50000x64_S64x64_S50000x64_1_0_0_1_n_n none X W (ix2 n o)
      = ∑ k : Fin 64, X (ix2 n k) * W (ix2 k o) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 n o)
      ((contrEquiv1 dot_S50000x64_S64x64_S50000x64_1_0_0_1_n_n 64 rfl rfl).symm k) = ix2 n k := funext fun a => Fin.ext (by
    match a with
    | ⟨0, _⟩ => exact lhs_lin_0 _ _
    | ⟨1, _⟩ => exact (lhs_lin_1 _ _).trans hk)
  have er : dot_S50000x64_S64x64_S50000x64_1_0_0_1_n_n.rhsIdx (ix2 n o)
      ((contrEquiv1 dot_S50000x64_S64x64_S50000x64_1_0_0_1_n_n 64 rfl rfl).symm k) = ix2 k o := funext fun a => Fin.ext (by
    match a with
    | ⟨0, _⟩ => exact (rhs_lin_0 _ _).trans hk
    | ⟨1, _⟩ => exact rhs_lin_1 _ _)
  rw [el, er]

/-! ## Layout pieces read at an index -/

/-- A scalar broadcast to any shape reads the scalar's one element. -/
theorem bcast0_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A per-column vector repeated over the rows reads its column's entry. -/
theorem tRows_apply {α : Type} (b : S64.Idx → α) (n : Fin 50000) (o : Fin 64) : tRows b (ix2 n o) = b (ix1 o) := by
  unfold tRows
  rw [broadcastInDim_apply _ bcast_S1x64_S50000x64_0_1 _ (ix2 n o) (ix2 (0 : Fin 1) o) (fun a => match a with
      | ⟨0, _⟩ => by show 0 = if (1 : Nat) = 1 then 0 else n.val; rw [if_pos rfl]
      | ⟨1, _⟩ => by show o.val = if (64 : Nat) = 1 then 0 else o.val; rw [if_neg (by decide)]),
    broadcastInDim_apply _ bcast_S64_S1x64_1 _ (ix2 (0 : Fin 1) o) (ix1 o) (fun a => match a with
      | ⟨0, _⟩ => by show o.val = if (64 : Nat) = 1 then 0 else o.val; rw [if_neg (by decide)])]

/-- Slab 2 of the states as a node array. -/
theorem tCur_apply (a0 : FVec Ideal S3x50000x64 .f32) (n : Fin 50000) (d : Fin 64) :
    tCur (F := Ideal) a0 (ix2 n d) = a0 (ix3 2 n d) := by
  unfold tCur
  rw [shapeCast_apply _ shapeCasts_S1x50000x64_S50000x64 (ix2 n d) (ix3 (0 : Fin 1) n d) (by
      rw [Shape.rowMajor_val_three, Shape.rowMajor_val_two]
      show (0 * 50000 + n.val) * 64 + d.val = n.val * 64 + d.val; omega),
    extractStridedSlice_apply ![2, 0, 0] a0 slices_S3x50000x64_S1x50000x64_2_0_0 (ix3 (0 : Fin 1) n d) (ix3 2 n d) (fun a => match a with
      | ⟨0, _⟩ => by show 2 = 2 + 0; rfl
      | ⟨1, _⟩ => by show n.val = 0 + n.val; omega
      | ⟨2, _⟩ => by show d.val = 0 + d.val; omega)]

/-- The linear image of a node array at (n, o). -/
theorem tLin_apply (X : FVec Ideal S50000x64 .f32) (W : FVec Ideal S64x64 .f32) (b : FVec Ideal S64 .f32) (n : Fin 50000) (o : Fin 64) :
    tLin (F := Ideal) X W b (ix2 n o) = (∑ k : Fin 64, X (ix2 n k) * W (ix2 k o)) + b (ix1 o) := by
  unfold tLin
  rw [addf_apply, dot_lin_apply, tRows_apply]

theorem tLin_cur (a0 : FVec Ideal S3x50000x64 .f32) (W : FVec Ideal S64x64 .f32) (b : FVec Ideal S64 .f32) :
    tLin (F := Ideal) (tCur a0) W b = lin a0 2 W b := by
  funext i
  obtain ⟨n, o, rfl⟩ : ∃ (n : Fin 50000) (o : Fin 64), i = ix2 n o := ⟨i 0, i 1, eq_ix2 i⟩
  rw [tLin_apply]
  show _ = (∑ k : Fin 64, a0 (ix3 2 n k) * W (ix2 k o)) + b (ix1 o)
  simp only [tCur_apply]

theorem own_eq (a0 : FVec Ideal S3x50000x64 .f32) (a3 : FVec Ideal S64x64 .f32) (a4 : FVec Ideal S64 .f32) :
    tOwn (F := Ideal) a0 a3 a4 = lin a0 2 a3 a4 := tLin_cur a0 a3 a4

theorem gateLin_eq (a0 : FVec Ideal S3x50000x64 .f32) (a5 : FVec Ideal S64x64 .f32) (a6 : FVec Ideal S64 .f32) :
    tGateLin (F := Ideal) a0 a5 a6 = lin a0 2 a5 a6 := tLin_cur a0 a5 a6

/-! ## The gate -/

theorem one_f32 : Ideal.ofBits .f32 0x3F800000#32 = 1 := by
  simp [Ideal.ofBits, Ideal.ieee, -EReal.coe_mul]; norm_num

theorem tOnes_apply (i : S800000x64.Idx) : tOnes (F := Ideal) i = 1 := by
  unfold tOnes
  rw [bcast0_apply, constant_apply, one_f32]

theorem tGate_apply (x y : FVec Ideal S800000x64 .f32) (i : S800000x64.Idx) :
    tGate (F := Ideal) x y i = Ideal.logistic (x i + y i) := by
  show Ideal.div (tOnes (F := Ideal) i) (tOnes (F := Ideal) i + Ideal.exp (-(x i + y i))) = Ideal.div 1 (1 + Ideal.exp (-(x i + y i)))
  rw [tOnes_apply]

theorem gate_eq (x y : FVec Ideal S800000x64 .f32) : tGate (F := Ideal) x y = gate x y :=
  funext fun i => tGate_apply x y i

theorem msg_eq (x y : FVec Ideal S800000x64 .f32) : tMsg (F := Ideal) x y = gated x y := by
  funext i
  show tGate (F := Ideal) x y i * y i = Ideal.logistic (x i + y i) * y i
  rw [tGate_apply]

/-! ## The quotient per (node, hop), mixed into the node's own image -/

/-- The sum over the hop axis of an array over nodes, hops and columns at (n, d), from the zero word. -/
theorem hopSum_apply (v : FVec Ideal S50000x3x64 .f32) (n : Fin 50000) (d : Fin 64) :
    Host.reduceAdd (F := Ideal) v (constant (F := Ideal) S_ .f32 0x00000000#32) reducesTo_S50000x3x64_S50000x64_d1 h_S_ (ix2 n d)
      = ∑ k : Fin 3, v (ix3 n k d) := by
  simp only [Host.reduceAdd, Ideal.hostReduceAdd_def]
  rw [Ideal.hostReduceAdd_single reducesTo_S50000x3x64_S50000x64_d1 (by decide), constant_apply, Ideal.ofBits_zero_f32, zero_add]
  refine Finset.sum_congr rfl fun k _ => ?_
  exact congrArg v (funext fun a => Fin.ext (by match a with | ⟨0, _⟩ => rfl | ⟨1, _⟩ => rfl | ⟨2, _⟩ => rfl))

theorem new_eq (num den : FVec Ideal S50000x3x64 .f32) (A : FVec Ideal S50000x64 .f32) :
    tNew (F := Ideal) num den A = mix num den A := by
  funext i
  obtain ⟨n, d, rfl⟩ : ∃ (n : Fin 50000) (d : Fin 64), i = ix2 n d := ⟨i 0, i 1, eq_ix2 i⟩
  unfold tNew
  rw [addf_apply, mulf_apply, bcast0_apply, constant_apply, hopSum_apply]
  show A (ix2 n d) + third * ∑ k : Fin 3, Ideal.div (num (ix3 n k d))
      (den (ix3 n k d) + broadcastInDim S50000x3x64 ![] bcast_S_S50000x3x64 (constant (F := Ideal) S_ .f32 0x358637BD#32) (ix3 n k d)) = _
  simp only [bcast0_apply, constant_apply]
  rfl

/-! ## The normalisation -/

theorem norm_eq (x : FVec Ideal S50000x64 .f32) (mean var a9 a10 : FVec Ideal S64 .f32) :
    tNorm (F := Ideal) x mean var a9 a10 = norm x (fun d => mean (ix1 d)) (fun d => var (ix1 d)) a9 a10 := by
  funext i
  obtain ⟨n, d, rfl⟩ : ∃ (n : Fin 50000) (d : Fin 64), i = ix2 n d := ⟨i 0, i 1, eq_ix2 i⟩
  unfold tNorm
  rw [maximumf_apply, addf_apply, mulf_apply, mulf_apply, subf_apply, tRows_apply, tRows_apply, tRows_apply, tRows_apply,
    bcast0_apply, constant_apply]
  show max (a9 (ix1 d) * (x (ix2 n d) - mean (ix1 d))
      * Ideal.rsqrt (var (ix1 d) + broadcastInDim S64 ![] bcast_S_S64 (constant (F := Ideal) S_ .f32 0x3727C5AC#32) (ix1 d)) + a10 (ix1 d))
      (Ideal.ofBits .f32 0x00000000#32) = _
  rw [bcast0_apply, constant_apply]
  rfl

end Cert.ReferenceIdeal.Hand

end
-- ==== Proof.Bridge.lean ====
/-
  The reference's composed term is the kernel program's result function on the stated domain: stage by stage the two
  are the same mathematics; the segment sums are literally one term; and over the real numbers the mixed node values
  are, the mean of squared deviations is the mean of squares minus the squared mean.
-/
import proofs.«410264_j48739288875406_2_alg».proof.Proof.Spec
import proofs.«410264_j48739288875406_2_alg».proof.Proof.SpecFin
import proofs.«410264_j48739288875406_2_alg».proof.Proof.RTerms
import proofs.«410264_j48739288875406_2_alg».proof.Proof.RVal
import proofs.«410264_j48739288875406_2_alg».proof.Proof.KHost
import proofs.«410264_j48739288875406_2_alg».proof.Proof.KVal

set_option maxRecDepth 16384

noncomputable section

namespace Cert.Gated

open Idealize.ShloMosaic Idealize.ShloMosaic.ValueIdx
open Cert.ReferenceIdeal.Hand Cert.KernelIdeal.HostVals Cert.KernelIdeal.Value

/-- The two programs compute the segment ids by the same operations. -/
theorem segId_eq (a1 : Sei.Idx → BitVec 32) (a2 : Sea.Idx → BitVec 32) : tSegId a1 a2 = segId a1 a2 := rfl

/-- The two programs sum per segment by the same operations. -/
theorem segSum_eq (seg : Sea.Idx → BitVec 32) (u : Se.Idx → EReal) : tSegSum (F := Ideal) seg u = segSum seg u := rfl

variable (a0 : Sx.Idx → EReal) (a1 : Sei.Idx → BitVec 32) (a2 : Sea.Idx → BitVec 32) (a3 : Sw.Idx → EReal) (a4 : Sb.Idx → EReal)
  (a5 : Sw.Idx → EReal) (a6 : Sb.Idx → EReal) (a7 : Swb.Idx → EReal) (a8 : Sbb.Idx → EReal) (a9 a10 : Sb.Idx → EReal)

/-- Every mixed node value is a real number when the float arguments are. -/
theorem newVals_fin (h0 : ∀ i, IsFin (a0 i)) (h3 : ∀ i, IsFin (a3 i)) (h4 : ∀ i, IsFin (a4 i)) (h7 : ∀ i, IsFin (a7 i))
    (h8 : ∀ i, IsFin (a8 i)) : ∀ i, IsFin (newVals a0 a1 a2 a3 a4 a5 a6 a7 a8 i) := by
  unfold newVals
  exact mix_fin _ _ _ (segSum_fin _ _ (gated_fin _ _ (atSrc_fin _ a1 a2 (hopLin_fin a0 a7 a8 h0 h7 h8))))
    (segSum_nonneg _ _ (gate_fin _ _)) (lin_fin a0 2 a3 a4 h0 h3 h4)

/-- The reference's node values before normalisation are the kernel program's. -/
theorem node_eq (hr : InRange a1 a2) : tNode (F := Ideal) a0 a1 a2 a3 a4 a5 a6 a7 a8 = newVals a0 a1 a2 a3 a4 a5 a6 a7 a8 := by
  unfold tNode tX tY newVals
  rw [Cert.ReferenceIdeal.Hand.new_eq, msg_eq, gate_eq, atDst_eq _ a1 a2 hr, atSrc_eq _ a1 a2 hr, own_eq, gateLin_eq, hop_eq,
    segId_eq, segSum_eq, segSum_eq]

/-- The reference's result is the kernel program's result function of the arguments. -/
theorem ref_eq (h0 : ∀ i, IsFin (a0 i)) (h3 : ∀ i, IsFin (a3 i)) (h4 : ∀ i, IsFin (a4 i)) (h7 : ∀ i, IsFin (a7 i)) (h8 : ∀ i, IsFin (a8 i)) (hr : InRange a1 a2) :
    tOut (F := Ideal) a0 a1 a2 a3 a4 a5 a6 a7 a8 a9 a10 = result a0 a1 a2 a3 a4 a5 a6 a7 a8 a9 a10 := by
  unfold tOut result
  rw [node_eq a0 a1 a2 a3 a4 a5 a6 a7 a8 hr, norm_eq, mean_eq, Cert.ReferenceIdeal.Hand.var_eq]
  have hv : (fun d : Fin 64 => varCentered (newVals a0 a1 a2 a3 a4 a5 a6 a7 a8) d) = varMoments (newVals a0 a1 a2 a3 a4 a5 a6 a7 a8) :=
    funext fun d => (Cert.Gated.var_eq _ (newVals_fin a0 a1 a2 a3 a4 a5 a6 a7 a8 h0 h3 h4 h7 h8) d).symm
  exact congrArg (fun v => norm (newVals a0 a1 a2 a3 a4 a5 a6 a7 a8) (colMean (newVals a0 a1 a2 a3 a4 a5 a6 a7 a8)) v a9 a10) hv

end Cert.Gated

end
-- ==== Proof.lean ====
/-
  A gated multi-hop aggregation layer, proved equal over the extended reals to its plain reference.

  Both programs compute, for every node, its own linear image plus the mean over three hops of
  (sum of gated messages) / (sum of gates + guard), and normalise every column by its mean and variance, with a
  rectifier. They differ in two places only. The kernel program gathers a source row by ONE flat index
  hop · 50000 + source into the hop images laid out as 150000 rows, masks out-of-range indices, and takes the
  variance as mean of squares minus squared mean; the reference gathers by the PAIR (hop, source) and takes the
  variance as the mean of squared deviations. Under the stated domain (edge list words are node numbers, edge
  attributes hop numbers 1 … 3) the two gathers read the same row, and over real numbers — every entry is one:
  the gates lie in [0, 1], the denominators are positive, the sums finite — the two variances are one number.
  Every other stage is the same function of its inputs, a sum merely grouped or ordered differently.

  The kernel program's frames and its run are the generated frame's (its launch called again with the result
  named); each region's output arrays and each host stretch's values are read off that run stage by stage; the
  reference's run is its operations' composed term, read stage by stage against the same mathematics.
-/
import proofs.«410264_j48739288875406_2_alg».proof.Defs
import proofs.«410264_j48739288875406_2_alg».proof.Proof.Gen.Kernel
import proofs.«410264_j48739288875406_2_alg».proof.Proof.Gen.Kernel.Frame
import proofs.«410264_j48739288875406_2_alg».proof.Proof.Gen.KernelIdeal
import proofs.«410264_j48739288875406_2_alg».proof.Proof.Gen.KernelIdeal.Frame
import proofs.«410264_j48739288875406_2_alg».proof.Proof.Gen.ReferenceIdeal
import proofs.«410264_j48739288875406_2_alg».proof.Proof.Gen.Pre_finite_inputs
import proofs.«410264_j48739288875406_2_alg».proof.Proof.KRun
import proofs.«410264_j48739288875406_2_alg».proof.Proof.KVal
import proofs.«410264_j48739288875406_2_alg».proof.Proof.RRun
import proofs.«410264_j48739288875406_2_alg».proof.Proof.PreFacts
import proofs.«410264_j48739288875406_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- Both programs end with the same result array: the kernel program's is `Value.result` of the arguments (read
    off its run), the reference's composed term is that function too on the stated domain. -/
theorem algebraic : Cert.algebraic_KernelIdeal_ReferenceIdeal := by
  intro m ρ m' ρ' hpre hagree
  refine ⟨fun c => Cert.KernelIdeal.Value.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Hand.run_result m ρ)
    obtain ⟨-, -, -, -, -, -, -, -, -, hr⟩ := Cert.Gated.pre_facts _ _ _ _ _ _ _ _ _ _ _ (hpre c)
    exact ⟨(h c).1.trans (Cert.KernelIdeal.Value.result_eq m ρ c hr), (h c).2⟩
  · refine (θ_run Cert.ReferenceIdeal.defs _ _).mono (fun r h c => ?_) (Cert.ReferenceIdeal.Hand.run m' ρ')
    obtain ⟨h0, h3, h4, -, -, h7, h8, -, -, hr⟩ := Cert.Gated.pre_facts _ _ _ _ _ _ _ _ _ _ _ (hpre c)
    refine ⟨(h c).1.trans ?_, (h c).2⟩
    obtain ⟨e0, e1, e2, e3, e4, e5, e6, e7, e8, e9, e10⟩ := hagree c
    rw [e0, e1, e2, e3, e4, e5, e6, e7, e8, e9, e10]
    exact Cert.Gated.ref_eq _ _ _ _ _ _ _ _ _ _ _ h0 h3 h4 h7 h8 hr

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
